-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![16, 16, 16]⟩ ⟨3, ![32, 32, 32]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![16, 16, 16]⟩ ⟨3, ![32, 32, 32]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16x16x16 : Shape := ⟨3, ![16, 16, 16]⟩
abbrev S_ : Shape := ⟨0, ![]⟩

class Facts : Prop where
  bcast_S_S16x16x16 : S_.BroadcastsInDim S16x16x16 (![] : Fin 0 → Fin S16x16x16.rank)
  reducesTo_S16x16x16_S_d0_1_2 : S16x16x16.ReducesTo [0, 1, 2] S_
  h_S_ : 0 < S_.numel

variable [Facts]

def fn {F : FTy → Type} [FloatOps F] (main_arg0 : FVec F S16x16x16 .f32) : IVec S_ 1 :=
  let main_v0 : FVec F S16x16x16 .f32 := Host.absf main_arg0
  let main_cst : FVec F S_ .f32 := constant S_ .f32 0x7F800000#32
  let main_v1 : FVec F S16x16x16 .f32 := broadcastInDim S16x16x16 ![] bcast_S_S16x16x16 main_cst
  let main_v2 : IVec S16x16x16 1 := cmpf .olt main_v0 main_v1
  let main_c : IVec S_ 1 := constantI S_ 1 1#1
  let main_v3 : IVec S_ 1 := (fun x v => Host.reduce IntOp.andi x v reducesTo_S16x16x16_S_d0_1_2 h_S_) main_v2 main_c
  main_v3
-- ==== Pre_finite_inputs_ReferenceIdeal.lean ====
abbrev S32x32x32 : Shape := ⟨3, ![32, 32, 32]⟩
abbrev S_ : Shape := ⟨0, ![]⟩

class Facts : Prop where
  bcast_S_S32x32x32 : S_.BroadcastsInDim S32x32x32 (![] : Fin 0 → Fin S32x32x32.rank)
  reducesTo_S32x32x32_S_d0_1_2 : S32x32x32.ReducesTo [0, 1, 2] S_
  h_S_ : 0 < S_.numel

variable [Facts]

def fn {F : FTy → Type} [FloatOps F] (main_arg0 : FVec F S32x32x32 .f32) : IVec S_ 1 :=
  let main_v0 : FVec F S32x32x32 .f32 := Host.absf main_arg0
  let main_cst : FVec F S_ .f32 := constant S_ .f32 0x7F800000#32
  let main_v1 : FVec F S32x32x32 .f32 := broadcastInDim S32x32x32 ![] bcast_S_S32x32x32 main_cst
  let main_v2 : IVec S32x32x32 1 := cmpf .olt main_v0 main_v1
  let main_c : IVec S_ 1 := constantI S_ 1 1#1
  let main_v3 : IVec S_ 1 := (fun x v => Host.reduce IntOp.andi x v reducesTo_S32x32x32_S_d0_1_2 h_S_) main_v2 main_c
  main_v3
-- ==== Kernel.lean ====
abbrev S16x16x16 : Shape := ⟨3, ![16, 16, 16]⟩
abbrev S3x16x16 : Shape := ⟨3, ![3, 16, 16]⟩
abbrev S3 : Shape := ⟨1, ![3]⟩
abbrev S_ : Shape := ⟨0, ![]⟩
abbrev S1x16x16 : Shape := ⟨3, ![1, 16, 16]⟩
abbrev S16x16 : Shape := ⟨2, ![16, 16]⟩
abbrev S16x1x16 : Shape := ⟨3, ![16, 1, 16]⟩
abbrev S16x16x1 : Shape := ⟨3, ![16, 16, 1]⟩
abbrev S1 : Shape := ⟨1, ![1]⟩
abbrev S15x16x16 : Shape := ⟨3, ![15, 16, 16]⟩
abbrev S16x15x16 : Shape := ⟨3, ![16, 15, 16]⟩
abbrev S16x16x15 : Shape := ⟨3, ![16, 16, 15]⟩

abbrev nBuf : Space → Nat
  | .hbm => 2
  | .vmem => 4
  | .smem => 0
  | _ => 0

abbrev bufTy : (tb : Table) → Fin (tcTables nBuf tb) → BufTy
  | .hbm, ⟨0, _⟩ => ⟨S16x16x16, .f32⟩
  | .hbm, ⟨1, _⟩ => ⟨S16x16x16, .f32⟩
  | .local _ .vmem, ⟨0, _⟩ => ⟨S16x16x16, .f32⟩
  | .local _ .vmem, ⟨1, _⟩ => ⟨S16x16x16, .f32⟩
  | .local _ .vmem, ⟨2, _⟩ => ⟨S3x16x16, .f32⟩
  | .local _ .vmem, ⟨3, _⟩ => ⟨S3x16x16, .f32⟩
  | _, _ => ⟨S16x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_3 v2
  let c4_i32_5 : BitVec 32 := 4#32
  let v11 : BitVec 32 := Scalar.muli v10 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_dev2 (d0 : Dev nD) : Nat :=
  let c0_i32_11 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_10 : BitVec 32 := 4#32
  let v18 : BitVec 32 := Scalar.muli v2 c4_i32_10
  let v19 : BitVec 32 := Scalar.addi c0_i32_11 v18
  let c1_i32_8 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.subi c1_i32_8 v5
  let c2_i32_12 : BitVec 32 := 2#32
  let v20 : BitVec 32 := Scalar.muli v17 c2_i32_12
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v22 : BitVec 32 := Scalar.muli v8 c1_i32_13
  let v23 : BitVec 32 := Scalar.addi v21 v22
  v23.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v24 : BitVec 32 := Scalar.subi c1_i32_14 v8
  let c1_i32_19 : BitVec 32 := 1#32
  let v29 : BitVec 32 := Scalar.muli v24 c1_i32_19
  let v30 : BitVec 32 := Scalar.addi v28 v29
  v30.toNat
def k0_dev4 (d0 : Dev nD) : Nat :=
  let c0_i32_38 : BitVec 32 := 0#32
  let c1_i32_32 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.subi c1_i32_32 v2
  let c4_i32_37 : BitVec 32 := 4#32
  let v50 : BitVec 32 := Scalar.muli v49 c4_i32_37
  let v51 : BitVec 32 := Scalar.addi c0_i32_38 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_39 : BitVec 32 := 2#32
  let v52 : BitVec 32 := Scalar.muli v5 c2_i32_39
  let v53 : BitVec 32 := Scalar.addi v51 v52
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v54 : BitVec 32 := Scalar.muli v8 c1_i32_40
  let v55 : BitVec 32 := Scalar.addi v53 v54
  v55.toNat
def k0_dev5 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v65 : BitVec 32 := Scalar.muli v2 c4_i32_50
  let v66 : BitVec 32 := Scalar.addi c0_i32_51 v65
  let c1_i32_45 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v64 : BitVec 32 := Scalar.subi c1_i32_45 v5
  let c2_i32_52 : BitVec 32 := 2#32
  let v67 : BitVec 32 := Scalar.muli v64 c2_i32_52
  let v68 : BitVec 32 := Scalar.addi v66 v67
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_53 : BitVec 32 := 1#32
  let v69 : BitVec 32 := Scalar.muli v8 c1_i32_53
  let v70 : BitVec 32 := Scalar.addi v68 v69
  v70.toNat
def k0_dev6 (d0 : Dev nD) : Nat :=
  let c0_i32_64 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_63 : BitVec 32 := 4#32
  let v80 : BitVec 32 := Scalar.muli v2 c4_i32_63
  let v81 : BitVec 32 := Scalar.addi c0_i32_64 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v82 : BitVec 32 := Scalar.muli v5 c2_i32_65
  let v83 : BitVec 32 := Scalar.addi v81 v82
  let c1_i32_58 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v79 : BitVec 32 := Scalar.subi c1_i32_58 v8
  let c1_i32_66 : BitVec 32 := 1#32
  let v84 : BitVec 32 := Scalar.muli v79 c1_i32_66
  let v85 : BitVec 32 := Scalar.addi v83 v84
  v85.toNat
abbrev stage0_0 : Fin 1 → Memref sig .tc .vmem S16x16x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S16x16x16_S1x16x16_15_0_0 : ∀ a, (![15, 0, 0] : Fin 3 → Nat) a + S1x16x16.size a ≤ S16x16x16.size a
  h_S1x16x16 : 0 < S1x16x16.numel
  shapeCasts_S1x16x16_S16x16 : S1x16x16.ShapeCasts S16x16
  inb_S3x16x16_S1x16x16_0_0_0 : ∀ a, (![0, 0, 0] : Fin 3 → Nat) a + S1x16x16.size a ≤ S3x16x16.size a
  shapeCasts_S16x16_S1x16x16 : S16x16.ShapeCasts S1x16x16
  inb_S16x16x16_S1x16x16_0_0_0 : ∀ a, (![0, 0, 0] : Fin 3 → Nat) a + S1x16x16.size a ≤ S16x16x16.size a
  inb_S16x16x16_S16x1x16_0_15_0 : ∀ a, (![0, 15, 0] : Fin 3 → Nat) a + S16x1x16.size a ≤ S16x16x16.size a
  h_S16x1x16 : 0 < S16x1x16.numel
  shapeCasts_S16x1x16_S16x16 : S16x1x16.ShapeCasts S16x16
  inb_S3x16x16_S1x16x16_1_0_0 : ∀ a, (![1, 0, 0] : Fin 3 → Nat) a + S1x16x16.size a ≤ S3x16x16.size a
  inb_S16x16x16_S16x1x16_0_0_0 : ∀ a, (![0, 0, 0] : Fin 3 → Nat) a + S16x1x16.size a ≤ S16x16x16.size a
  inb_S16x16x16_S16x16x1_0_0_15 : ∀ a, (![0, 0, 15] : Fin 3 → Nat) a + S16x16x1.size a ≤ S16x16x16.size a
  h_S16x16x1 : 0 < S16x16x1.numel
  shapeCasts_S16x16x1_S16x16 : S16x16x1.ShapeCasts S16x16
  inb_S3x16x16_S1x16x16_2_0_0 : ∀ a, (![2, 0, 0] : Fin 3 → Nat) a + S1x16x16.size a ≤ S3x16x16.size a
  inb_S16x16x16_S16x16x1_0_0_0 : ∀ a, (![0, 0, 0] : Fin 3 → Nat) a + S16x16x1.size a ≤ S16x16x16.size a
  hamt_3 : (3#32 : BitVec 32).msb = false
  inb_S3_S1_0 : ∀ a, (![0] : Fin 1 → Nat) a + S1.size a ≤ S3.size a
  squeezes_S1_S_ : S1.Squeezes S_
  squeezes_S1x16x16_S16x16 : S1x16x16.Squeezes S16x16
  inb_S3_S1_1 : ∀ a, (![1] : Fin 1 → Nat) a + S1.size a ≤ S3.size a
  inb_S3_S1_2 : ∀ a, (![2] : Fin 1 → Nat) a + S1.size a ≤ S3.size a
  inb_S16x16x16_S16x16x16_0_0_0 : ∀ a, (![0, 0, 0] : Fin 3 → Nat) a + S16x16x16.size a ≤ S16x16x16.size a
  h_S16x16x16 : 0 < S16x16x16.numel
  shapeCasts_S16x16x16_S16x16x16 : S16x16x16.ShapeCasts S16x16x16
  slices_S16x16x16_o1_0_0_S15x16x16 : S16x16x16.Slices ![1, 0, 0] S15x16x16
  concatenates_S15x16x16_S1x16x16_S16x16x16_d0 : Shape.Concatenates [S15x16x16, S1x16x16] S16x16x16 0
  slices_S16x16x16_o0_0_0_S15x16x16 : S16x16x16.Slices ![0, 0, 0] S15x16x16
  concatenates_S1x16x16_S15x16x16_S16x16x16_d0 : Shape.Concatenates [S1x16x16, S15x16x16] S16x16x16 0
  slices_S16x16x16_o0_1_0_S16x15x16 : S16x16x16.Slices ![0, 1, 0] S16x15x16
  concatenates_S16x15x16_S16x1x16_S16x16x16_d1 : Shape.Concatenates [S16x15x16, S16x1x16] S16x16x16 1
  slices_S16x16x16_o0_0_0_S16x15x16 : S16x16x16.Slices ![0, 0, 0] S16x15x16
  concatenates_S16x1x16_S16x15x16_S16x16x16_d1 : Shape.Concatenates [S16x1x16, S16x15x16] S16x16x16 1
  slices_S16x16x16_o0_0_1_S16x16x15 : S16x16x16.Slices ![0, 0, 1] S16x16x15
  concatenates_S16x16x15_S16x16x1_S16x16x16_d2 : Shape.Concatenates [S16x16x15, S16x16x1] S16x16x16 2
  slices_S16x16x16_o0_0_0_S16x16x15 : S16x16x16.Slices ![0, 0, 0] S16x16x15
  concatenates_S16x16x1_S16x16x15_S16x16x16_d2 : Shape.Concatenates [S16x16x1, S16x16x15] S16x16x16 2
  iota_S16x16x16_d0_w32 : S16x16x16.Iotas .tc 32 [0]
  iota_S16x16x16_d1_w32 : S16x16x16.Iotas .tc 32 [1]
  iota_S16x16x16_d2_w32 : S16x16x16.Iotas .tc 32 [2]
  iota_S16x16_d0_w32 : S16x16.Iotas .tc 32 [0]
  iota_S16x16_d1_w32 : S16x16.Iotas .tc 32 [1]
  shapeCasts_S16x16_S16x1x16 : S16x16.ShapeCasts S16x1x16
  shapeCasts_S16x16_S16x16x1 : S16x16.ShapeCasts S16x16x1
  hcc0_scratch2 : 2 + S3.numel ≤ 8
  hcc0_scratch3 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch2 : DmaSems sig S3 := SemArray.consecutive 2 S3 hcc0_scratch2
abbrev cc0_scratch3 : DmaSems sig S3 := SemArray.consecutive 5 S3 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x32x32 : Shape := ⟨3, ![32, 32, 32]⟩
abbrev S_ : Shape := ⟨0, ![]⟩
abbrev S30x30x30 : Shape := ⟨3, ![30, 30, 30]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S32x32x32, .f32⟩
  | .hbm, ⟨1, _⟩ => ⟨S_, .f32⟩
  | .hbm, ⟨2, _⟩ => ⟨S32x32x32, .f32⟩
  | .hbm, ⟨3, _⟩ => ⟨S30x30x30, .f32⟩
  | .hbm, ⟨4, _⟩ => ⟨S30x30x30, .f32⟩
  | .hbm, ⟨5, _⟩ => ⟨S30x30x30, .f32⟩
  | .hbm, ⟨6, _⟩ => ⟨S30x30x30, .f32⟩
  | .hbm, ⟨7, _⟩ => ⟨S30x30x30, .f32⟩
  | .hbm, ⟨8, _⟩ => ⟨S30x30x30, .f32⟩
  | .hbm, ⟨9, _⟩ => ⟨S30x30x30, .f32⟩
  | .hbm, ⟨10, _⟩ => ⟨S30x30x30, .f32⟩
  | .hbm, ⟨11, _⟩ => ⟨S30x30x30, .f32⟩
  | .hbm, ⟨12, _⟩ => ⟨S30x30x30, .f32⟩
  | .hbm, ⟨13, _⟩ => ⟨S30x30x30, .f32⟩
  | .hbm, ⟨14, _⟩ => ⟨S30x30x30, .f32⟩
  | .hbm, ⟨15, _⟩ => ⟨S_, .f32⟩
  | .hbm, ⟨16, _⟩ => ⟨S30x30x30, .f32⟩
  | .hbm, ⟨17, _⟩ => ⟨S30x30x30, .f32⟩
  | .hbm, ⟨18, _⟩ => ⟨S30x30x30, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S32x32x32, .f32⟩
  | _, _ => ⟨S32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S32x32x32 : S_.BroadcastsInDim S32x32x32 (![] : Fin 0 → Fin S32x32x32.rank)
  slices_S32x32x32_S30x30x30_0_1_1 : S32x32x32.Slices ![0, 1, 1] S30x30x30
  slices_S32x32x32_S30x30x30_2_1_1 : S32x32x32.Slices ![2, 1, 1] S30x30x30
  slices_S32x32x32_S30x30x30_1_0_1 : S32x32x32.Slices ![1, 0, 1] S30x30x30
  slices_S32x32x32_S30x30x30_1_2_1 : S32x32x32.Slices ![1, 2, 1] S30x30x30
  slices_S32x32x32_S30x30x30_1_1_0 : S32x32x32.Slices ![1, 1, 0] S30x30x30
  slices_S32x32x32_S30x30x30_1_1_2 : S32x32x32.Slices ![1, 1, 2] S30x30x30
  slices_S32x32x32_S30x30x30_1_1_1 : S32x32x32.Slices ![1, 1, 1] S30x30x30
  bcast_S_S30x30x30 : S_.BroadcastsInDim S30x30x30 (![] : Fin 0 → Fin S30x30x30.rank)
  bcast_S_S1 : S_.BroadcastsInDim S1 (![] : Fin 0 → Fin S1.rank)
  concatenates_S1_S1_S1_S3_d0 : Shape.Concatenates [S1, S1, S1] S3 0
  scatter_S32x32x32_S3_S30x30x30_012_n_012_0_wf : ScatterDims.WF S32x32x32 S3 S30x30x30 [0, 1, 2] [] [0, 1, 2] 0

variable [Facts₀]

def scatter_S32x32x32_S3_S30x30x30_012_n_012_0 : ScatterDims S32x32x32 S3 S30x30x30 where
  updateWindowDims := [0, 1, 2]
  insertedWindowDims := []
  scatterDimsToOperandDims := [0, 1, 2]
  indexVectorDim := 0
  wf := scatter_S32x32x32_S3_S30x30x30_012_n_012_0_wf

class Facts : Prop extends Facts₀ where

variable [Facts]
-- ==== Proof.Proto.lean ====
/-
The halo exchange of a 16×16×16 block on a 2×2×2 mesh: the protocol.

Device `c` sits at mesh coordinates (c / 4, c / 2 % 2, c % 2).  Along axis `a` its one neighbour `nb a c`
differs in that coordinate only.  Per device: a barrier cell with three unit duties (one per axis, paid by
the neighbour along it), and per axis a send cell and a receive cell of one transfer each.  The neighbour's
barrier signal along axis `a` hands over slot `a` of its landing buffer; the transfer along `a` lands the
sender's face there.
-/
import proofs.«900804_g7700000000000805_dist_halo3d_v7x_xyz2x2x2_s16_bf16_1_alg».proof.Proof.Gen.KernelIdeal
import proofs.«900804_g7700000000000805_dist_halo3d_v7x_xyz2x2x2_s16_bf16_1_alg».proof.Proof.Gen.KernelIdeal.Skeleton
import proofs.«900804_g7700000000000805_dist_halo3d_v7x_xyz2x2x2_s16_bf16_1_alg».proof.Proof.Gen.KernelIdeal.Launch
import proofs.«900804_g7700000000000805_dist_halo3d_v7x_xyz2x2x2_s16_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by an axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## The mesh -/

/-- The neighbour along axis `a`: the mesh coordinate on that axis flipped. -/
def nb (a : Fin 3) (c : Dev nD) : Dev nD :=
  match a with
  | 0 => ⟨c.val ^^^ 4, by revert c; decide⟩
  | 1 => ⟨c.val ^^^ 2, by revert c; decide⟩
  | 2 => ⟨c.val ^^^ 1, by revert c; decide⟩

theorem nb_nb (a : Fin 3) (c : Dev nD) : nb a (nb a c) = c := by revert a c; decide
theorem nb_ne (a : Fin 3) (c : Dev nD) : nb a c ≠ c := by revert a c; decide
theorem nb_ne_nb (a b : Fin 3) (h : a ≠ b) (c : Dev nD) : nb a c ≠ nb b c := by revert a b c; decide

/-- The kernel's device chains: signals along axes 0, 1, 2, then transfers along axes 0, 1, 2. -/
theorem dev1_eq (c : Dev nD) : (⟨k0_dev1 c, k0_dev1_lt c⟩ : Dev nD) = nb 0 c := by revert c; decide +kernel
theorem dev2_eq (c : Dev nD) : (⟨k0_dev2 c, k0_dev2_lt c⟩ : Dev nD) = nb 1 c := by revert c; decide +kernel
theorem dev3_eq (c : Dev nD) : (⟨k0_dev3 c, k0_dev3_lt c⟩ : Dev nD) = nb 2 c := by revert c; decide +kernel
theorem dev4_eq (c : Dev nD) : (⟨k0_dev4 c, k0_dev4_lt c⟩ : Dev nD) = nb 0 c := by revert c; decide +kernel
theorem dev5_eq (c : Dev nD) : (⟨k0_dev5 c, k0_dev5_lt c⟩ : Dev nD) = nb 1 c := by revert c; decide +kernel
theorem dev6_eq (c : Dev nD) : (⟨k0_dev6 c, k0_dev6_lt c⟩ : Dev nD) = nb 2 c := by revert c; decide +kernel

def flip (a : Fin 3) : Dev nD ≃ Dev nD := ⟨nb a, nb a, nb_nb a, nb_nb a⟩

/-! ## The memrefs and cells -/

abbrev xM : Memref sig .tc .vmem S16x16x16 .f32 := Memref.whole cc0_stg0_0
abbrev oM : Memref sig .tc .vmem S16x16x16 .f32 := Memref.whole cc0_stg1_0
abbrev sM : Memref sig .tc .vmem S3x16x16 .f32 := Memref.whole cc0_scratch0
abbrev rM : Memref sig .tc .vmem S3x16x16 .f32 := Memref.whole cc0_scratch1

/-- Slot `a` of the outgoing buffer and of the landing buffer, as the kernel slices them. -/
abbrev sSlot : Fin 3 → Memref sig .tc .vmem S16x16 .f32
  | 0 => ((sM.slice (Rect.unit (s := S3x16x16) ![0, 0, 0] S1x16x16.size inb_S3x16x16_S1x16x16_0_0_0) (fun _ => rfl)).squeeze S16x16 squeezes_S1x16x16_S16x16)
  | 1 => ((sM.slice (Rect.unit (s := S3x16x16) ![1, 0, 0] S1x16x16.size inb_S3x16x16_S1x16x16_1_0_0) (fun _ => rfl)).squeeze S16x16 squeezes_S1x16x16_S16x16)
  | 2 => ((sM.slice (Rect.unit (s := S3x16x16) ![2, 0, 0] S1x16x16.size inb_S3x16x16_S1x16x16_2_0_0) (fun _ => rfl)).squeeze S16x16 squeezes_S1x16x16_S16x16)
abbrev rSlot : Fin 3 → Memref sig .tc .vmem S16x16 .f32
  | 0 => ((rM.slice (Rect.unit (s := S3x16x16) ![0, 0, 0] S1x16x16.size inb_S3x16x16_S1x16x16_0_0_0) (fun _ => rfl)).squeeze S16x16 squeezes_S1x16x16_S16x16)
  | 1 => ((rM.slice (Rect.unit (s := S3x16x16) ![1, 0, 0] S1x16x16.size inb_S3x16x16_S1x16x16_1_0_0) (fun _ => rfl)).squeeze S16x16 squeezes_S1x16x16_S16x16)
  | 2 => ((rM.slice (Rect.unit (s := S3x16x16) ![2, 0, 0] S1x16x16.size inb_S3x16x16_S1x16x16_2_0_0) (fun _ => rfl)).squeeze S16x16 squeezes_S1x16x16_S16x16)

abbrev barS : Sem sig := (SemArray.scalar (sig.barrier 0 rfl) : Sems sig S_).sem
/-- The send semaphores are DMA semaphores 2, 3, 4 and the receive semaphores 5, 6, 7. -/
abbrev sendS : Fin 3 → DmaSem sig
  | 0 => ((cc0_scratch2.slice (Rect.unit (s := S3) ![0] S1.size inb_S3_S1_0)).squeeze S_ squeezes_S1_S_).sem
  | 1 => ((cc0_scratch2.slice (Rect.unit (s := S3) ![1] S1.size inb_S3_S1_1)).squeeze S_ squeezes_S1_S_).sem
  | 2 => ((cc0_scratch2.slice (Rect.unit (s := S3) ![2] S1.size inb_S3_S1_2)).squeeze S_ squeezes_S1_S_).sem
abbrev recvS : Fin 3 → DmaSem sig
  | 0 => ((cc0_scratch3.slice (Rect.unit (s := S3) ![0] S1.size inb_S3_S1_0)).squeeze S_ squeezes_S1_S_).sem
  | 1 => ((cc0_scratch3.slice (Rect.unit (s := S3) ![1] S1.size inb_S3_S1_1)).squeeze S_ squeezes_S1_S_).sem
  | 2 => ((cc0_scratch3.slice (Rect.unit (s := S3) ![2] S1.size inb_S3_S1_2)).squeeze S_ squeezes_S1_S_).sem

theorem sendS_val (a : Fin 3) : (sendS a).val = 2 + a.val := by fin_cases a <;> rfl
theorem recvS_val (a : Fin 3) : (recvS a).val = 5 + a.val := by fin_cases a <;> rfl

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

/-- The credit of one 16×16 face. -/
abbrev N : ℕ := 256
theorem N_pos : 0 < N := by decide
theorem rSlot_credit (a : Fin 3) : (rSlot a : Memref sig .tc .vmem S16x16 .f32).view.dmaCredit = N := by fin_cases a <;> decide

/-! ## Contents

`xblk c` is device `c`'s block as staged.  `face a c` is the plane device `c` sends along axis `a`: its last
plane on that axis when its coordinate there is 0, its first when it is 1. -/

/-- Device `c`'s coordinate on axis `a`. -/
def coord (a : Fin 3) (c : Dev nD) : ℕ := match a with | 0 => c.val / 4 | 1 => c.val / 2 % 2 | 2 => c.val % 2

def xblk (c : Dev nD) : (cc0_stg0_0 : Ref sig .tc).ty.Contents (Elt F) :=
  (win0_0.blk (0 : Fin 1)).view.read (Elt F) ((s₀ m ρ).mem ((c : Thread nD τ).loc main_arg0))

/-- The index in the block of entry `(p, q)` of the plane at position `k` on axis `a`. -/
def planeIdx (a : Fin 3) (k p q : Fin 16) : S16x16x16.Idx :=
  match a with
  | 0 => fun | 0 => k | 1 => p | 2 => q
  | 1 => fun | 0 => p | 1 => k | 2 => q
  | 2 => fun | 0 => p | 1 => q | 2 => k

/-- The position on axis `a` of the plane device `c` sends: 15 at coordinate 0, 0 at coordinate 1. -/
def facePos (a : Fin 3) (c : Dev nD) : Fin 16 := if coord a c = 0 then 15 else 0

/-- What the three slots of device `c`'s outgoing buffer hold once stored: slot `a` its face along `a`. -/
def sendAll (c : Dev nD) : (cc0_scratch0 : Ref sig .tc).ty.Contents (Elt F) :=
  fun i => xblk m ρ c (planeIdx ⟨(i 0).val, (i 0).isLt⟩ (facePos ⟨(i 0).val, (i 0).isLt⟩ c) (i 1) (i 2))

/-- What the three slots of device `c`'s landing buffer hold once landed: slot `a` the face of the neighbour along `a`. -/
def recvAll (c : Dev nD) : (cc0_scratch1 : Ref sig .tc).ty.Contents (Elt F) :=
  fun i => sendAll m ρ (nb ⟨(i 0).val, (i 0).isLt⟩ c) i

def sPts (a : Fin 3) (c : Dev nD) (f : Buf (Elt F) ((c : Thread nD τ).loc cc0_scratch0)) : sProp 𝕄 :=
  match a with
  | 0 => (sSlot 0 : Memref sig .tc .vmem S16x16 .f32).view.loc (c : Thread nD τ) ↦[(sSlot 0 : Memref sig .tc .vmem S16x16 .f32).view.set]{fullShare} f
  | 1 => (sSlot 1 : Memref sig .tc .vmem S16x16 .f32).view.loc (c : Thread nD τ) ↦[(sSlot 1 : Memref sig .tc .vmem S16x16 .f32).view.set]{fullShare} f
  | 2 => (sSlot 2 : Memref sig .tc .vmem S16x16 .f32).view.loc (c : Thread nD τ) ↦[(sSlot 2 : Memref sig .tc .vmem S16x16 .f32).view.set]{fullShare} f
def rPts (a : Fin 3) (c : Dev nD) (f : Buf (Elt F) ((c : Thread nD τ).loc cc0_scratch1)) : sProp 𝕄 :=
  match a with
  | 0 => (rSlot 0 : Memref sig .tc .vmem S16x16 .f32).view.loc (c : Thread nD τ) ↦[(rSlot 0 : Memref sig .tc .vmem S16x16 .f32).view.set]{fullShare} f
  | 1 => (rSlot 1 : Memref sig .tc .vmem S16x16 .f32).view.loc (c : Thread nD τ) ↦[(rSlot 1 : Memref sig .tc .vmem S16x16 .f32).view.set]{fullShare} f
  | 2 => (rSlot 2 : Memref sig .tc .vmem S16x16 .f32).view.loc (c : Thread nD τ) ↦[(rSlot 2 : Memref sig .tc .vmem S16x16 .f32).view.set]{fullShare} f

instance sPts_storable (a : Fin 3) (c : Dev nD) (f) : BI.Storable (upEmb : UEmb _ 𝕄) (sPts (F := F) a c f) := by fin_cases a <;> (unfold sPts; infer_instance)
instance rPts_storable (a : Fin 3) (c : Dev nD) (f) : BI.Storable (upEmb : UEmb _ 𝕄) (rPts (F := F) a c f) := by fin_cases a <;> (unfold rPts; infer_instance)

/-! ## The schedule -/

/-- What the neighbour along `a` hands `c` with its barrier signal: slot `a` of its landing buffer, and that it has
    reached round 0 of its receive cell on that axis — what `c`'s transfer along `a` needs. -/
def barPay (a : Fin 3) (c : Dev nD) : sProp 𝕄 := iprop((∃ f, rPts a (nb a c) f) ∗ reached ER (recvCell a (nb a c)) 0)
/-- A landing hands the receiver slot `a` of its landing buffer holding the neighbour's face. -/
def recvPay (a : Fin 3) (c : Dev nD) : sProp 𝕄 := rPts a c (recvAll m ρ c)
/-- A departure hands the sender slot `a` of its outgoing buffer back. -/
def sendPay (a : Fin 3) (c : Dev nD) : sProp 𝕄 := iprop(∃ f, sPts a c f)

abbrev IsBar (g : GSem nD τ sig) : Prop := g.1.2 = .tc ∧ g.2 = .reg barS
abbrev IsXfer (g : GSem nD τ sig) : Prop := g.1.2 = .tc ∧ ∃ a : Fin 3, g.2 = .dma (sendS a) ∨ g.2 = .dma (recvS a)

/-- One round: a barrier cell has three unit duties, one per axis; a send or receive cell the duty 0 of a face's credit. -/
def sched : Rounds.Schedule (GSem nD τ sig) (Fin 3) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay d g.1.1
    else if g.2 = .dma (recvS 0) then recvPay m ρ 0 g.1.1
    else if g.2 = .dma (recvS 1) then recvPay m ρ 1 g.1.1
    else if g.2 = .dma (recvS 2) then recvPay m ρ 2 g.1.1
    else if g.2 = .dma (sendS 0) then sendPay 0 g.1.1
    else if g.2 = .dma (sendS 1) then sendPay 1 g.1.1
    else if g.2 = .dma (sendS 2) then sendPay 2 g.1.1
    else iprop(emp)
  amount_pos g _ _ _ := by
    by_cases h : g.2 = .reg barS
    · rw [if_pos h]; exact Nat.one_pos
    · rw [if_neg h]; exact N_pos

instance sched_payload_storable (g : GSem nD τ sig) (r : ℕ) (d : Fin 3) :
    BI.Storable (upEmb : UEmb _ 𝕄) ((sched (F := F) m ρ).payload g r d) := by
  show BI.Storable upEmb (if g.2 = .reg barS then barPay d g.1.1
    else if g.2 = .dma (recvS 0) then recvPay m ρ 0 g.1.1
    else if g.2 = .dma (recvS 1) then recvPay m ρ 1 g.1.1
    else if g.2 = .dma (recvS 2) then recvPay m ρ 2 g.1.1
    else if g.2 = .dma (sendS 0) then sendPay 0 g.1.1
    else if g.2 = .dma (sendS 1) then sendPay 1 g.1.1
    else if g.2 = .dma (sendS 2) then sendPay 2 g.1.1
    else iprop(emp))
  unfold barPay recvPay sendPay
  (repeat' split) <;> infer_instance

section Sched
variable (c : Dev nD)

omit [FloatOps F] in
theorem duties_bar : (sched (F := F) m ρ).duties (barCell c) 0 = Finset.univ := by dsimp only [sched]; exact if_pos ⟨rfl, rfl, rfl⟩
omit [FloatOps F] in
theorem duties_send (a : Fin 3) : (sched (F := F) m ρ).duties (sendCell a c) 0 = {0} := by
  dsimp only [sched]; rw [if_neg (fun h => by have := h.2.2; cases this)]; exact if_pos ⟨rfl, rfl, a, .inl rfl⟩
omit [FloatOps F] in
theorem duties_recv (a : Fin 3) : (sched (F := F) m ρ).duties (recvCell a c) 0 = {0} := by
  dsimp only [sched]; rw [if_neg (fun h => by have := h.2.2; cases this)]; exact if_pos ⟨rfl, rfl, a, .inr rfl⟩
omit [FloatOps F] in
theorem duties_later (g : GSem nD τ sig) : ∀ r, 1 ≤ r → (sched (F := F) m ρ).duties g r = ∅ :=
  fun r hr => by dsimp only [sched]; rw [if_neg fun h => by omega, if_neg fun h => by omega]

omit [FloatOps F] in
theorem amount_bar (d : Fin 3) : (sched (F := F) m ρ).amount (barCell c) 0 d = 1 := by dsimp only [sched]; exact if_pos rfl
omit [FloatOps F] in
theorem amount_send (a : Fin 3) (d : Fin 3) : (sched (F := F) m ρ).amount (sendCell a c) 0 d = N := by dsimp only [sched]; exact if_neg (fun h => by cases h)
omit [FloatOps F] in
theorem amount_recv (a : Fin 3) (d : Fin 3) : (sched (F := F) m ρ).amount (recvCell a c) 0 d = N := by dsimp only [sched]; exact if_neg (fun h => by cases h)

omit [FloatOps F] in
theorem expect_bar : (sched (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send (a : Fin 3) : (sched (F := F) m ρ).expect (sendCell a c) 0 = N := by
  unfold Schedule.expect Schedule.amountOf; rw [duties_send, Finset.sum_singleton, amount_send]
omit [FloatOps F] in
theorem expect_recv (a : Fin 3) : (sched (F := F) m ρ).expect (recvCell a c) 0 = N := by
  unfold Schedule.expect Schedule.amountOf; rw [duties_recv, Finset.sum_singleton, amount_recv]

omit [FloatOps F] in
theorem payload_bar (d : Fin 3) : (sched (F := F) m ρ).payload (barCell c) 0 d = barPay d c := by dsimp only [sched]; rw [if_pos rfl]
omit [FloatOps F] in
theorem payload_recv (a : Fin 3) (d : Fin 3) : (sched (F := F) m ρ).payload (recvCell a c) 0 d = recvPay m ρ a c := by
  fin_cases a <;> (dsimp only [sched]; simp only [show ∀ (x : DmaSem sig) (y : Sem sig), ((SemLoc.dma x : SemLoc sig) = .reg y) = False from fun x y => eq_false (fun h => by cases h), if_false, if_true, reduceCtorEq]; first | rfl | (simp (decide := true) only [if_false, if_true, ite_false, ite_true]; rfl))
omit [FloatOps F] in
theorem payload_send (a : Fin 3) (d : Fin 3) : (sched (F := F) m ρ).payload (sendCell a c) 0 d = sendPay a c := by
  fin_cases a <;> (dsimp only [sched]; simp only [show ∀ (x : DmaSem sig) (y : Sem sig), ((SemLoc.dma x : SemLoc sig) = .reg y) = False from fun x y => eq_false (fun h => by cases h), if_false, if_true, reduceCtorEq]; first | rfl | (simp (decide := true) only [if_false, if_true, ite_false, ite_true]; rfl))

end Sched

/-! ## What each device owes at launch; the levels -/

/-- Device `c` owes each neighbour's receive cell a face's credit and each neighbour's barrier cell one unit — summed so
    that the signals (axes 0, 1, 2) and then the transfers (axes 0, 1, 2) each peel the last summand left. -/
def OR2 (c : Dev nD) : CellTallies nD τ sig Unit := tallyAt (recvCell 2 (nb 2 c)) () N
def OR1 (c : Dev nD) : CellTallies nD τ sig Unit := OR2 c + tallyAt (recvCell 1 (nb 1 c)) () N
def OR0 (c : Dev nD) : CellTallies nD τ sig Unit := OR1 c + tallyAt (recvCell 0 (nb 0 c)) () N
def OB2 (c : Dev nD) : CellTallies nD τ sig Unit := OR0 c + tallyAt (barCell (nb 2 c)) () 1
def OB1 (c : Dev nD) : CellTallies nD τ sig Unit := OB2 c + tallyAt (barCell (nb 1 c)) () 1
def O₀ (c : Dev nD) : CellTallies nD τ sig Unit := OB1 c + tallyAt (barCell (nb 0 c)) () 1

def L (g : GSem nD τ sig) : Finset Unit := if g.1.2 = .tc then {()} else ∅
/-- Barrier cells at 1, receive cells at 2, everything else (staging, send) at 0. -/
def lv (g : GSem nD τ sig) (_ : Unit) : ℕ :=
  if g.2 = .reg barS then 1 else if g.2 = .dma (recvS 0) ∨ g.2 = .dma (recvS 1) ∨ g.2 = .dma (recvS 2) then 2 else 0

theorem L_of_ne (g : GSem nD τ sig) (h : g.1.2 ≠ .tc) : L g = ∅ := if_neg h
theorem L_tc (c : Dev nD) (sm : SemLoc sig) : L ((c : Thread nD τ), sm) = {()} := if_pos rfl

/-! ## The cells' names and the ghost state a device starts from -/

/-- A device's seven cells: barrier, send 0..2, receive 0..2. -/
abbrev csem : Fin 7 → SemLoc sig := fun | 0 => .reg barS | 1 => .dma (sendS 0) | 2 => .dma (sendS 1) | 3 => .dma (sendS 2) | 4 => .dma (recvS 0) | 5 => .dma (recvS 1) | 6 => .dma (recvS 2)
abbrev kcell (ck : Dev nD × Fin 7) : GSem nD τ sig := ((ck.1 : Thread nD τ), csem ck.2)
/-- The kernel's own (scoped) semaphores: the six DMA ones. -/
abbrev osem : Fin 6 → SemLoc sig := fun | 0 => .dma (sendS 0) | 1 => .dma (sendS 1) | 2 => .dma (sendS 2) | 3 => .dma (recvS 0) | 4 => .dma (recvS 1) | 5 => .dma (recvS 2)

abbrev kS (a : Fin 3) : Fin 7 := match a with | 0 => 1 | 1 => 2 | 2 => 3
abbrev kR (a : Fin 3) : Fin 7 := match a with | 0 => 4 | 1 => 5 | 2 => 6

/-- The cells' invariants device `c`'s body opens, under the names `K` the launch allocated them at: its own seven, each
    neighbour's barrier cell (its signals) and each neighbour's receive cell on the shared axis (its transfers). -/
def invs (K : Dev nD × Fin 7 → ℕ) (c : Dev nD) : sProp 𝕄 :=
  iprop(cellInv ER (sched m ρ) (K (c, 0)) (barCell c)
    ∗ cellInv ER (sched m ρ) (K (c, 1)) (sendCell 0 c) ∗ cellInv ER (sched m ρ) (K (c, 2)) (sendCell 1 c) ∗ cellInv ER (sched m ρ) (K (c, 3)) (sendCell 2 c)
    ∗ cellInv ER (sched m ρ) (K (c, 4)) (recvCell 0 c) ∗ cellInv ER (sched m ρ) (K (c, 5)) (recvCell 1 c) ∗ cellInv ER (sched m ρ) (K (c, 6)) (recvCell 2 c)
    ∗ cellInv ER (sched m ρ) (K (nb 0 c, 0)) (barCell (nb 0 c)) ∗ cellInv ER (sched m ρ) (K (nb 1 c, 0)) (barCell (nb 1 c)) ∗ cellInv ER (sched m ρ) (K (nb 2 c, 0)) (barCell (nb 2 c))
    ∗ cellInv ER (sched m ρ) (K (nb 0 c, 4)) (recvCell 0 (nb 0 c)) ∗ cellInv ER (sched m ρ) (K (nb 1 c, 5)) (recvCell 1 (nb 1 c)) ∗ cellInv ER (sched m ρ) (K (nb 2 c, 6)) (recvCell 2 (nb 2 c)))

instance invs_persistent (K : Dev nD × Fin 7 → ℕ) (c : Dev nD) : BI.Persistent (invs m ρ K c) := by unfold invs; infer_instance

/-- Its positions at round 0 of its seven cells. -/
def posns (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- Round 0 reached on the cells it pays and on its own send and receive cells. -/
def marks (c : Dev nD) : sProp 𝕄 :=
  iprop(reached ER (barCell (nb 0 c)) 0 ∗ reached ER (barCell (nb 1 c)) 0 ∗ reached ER (barCell (nb 2 c)) 0
    ∗ reached ER (recvCell 0 (nb 0 c)) 0 ∗ reached ER (recvCell 1 (nb 1 c)) 0 ∗ reached ER (recvCell 2 (nb 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance marks_persistent (c : Dev nD) : BI.Persistent (marks (F := F) c) := by unfold marks; infer_instance

/-- The tokens of the duties it pays: duty `a` of the barrier cell of its neighbour along `a`; that neighbour's receive
    duty on axis `a`; its own three send duties. -/
def payToks (c : Dev nD) : sProp 𝕄 :=
  iprop(dutyTok ER (barCell (nb 0 c)) 0 0 ∗ dutyTok ER (barCell (nb 1 c)) 0 1 ∗ dutyTok ER (barCell (nb 2 c)) 0 2
    ∗ dutyTok ER (recvCell 0 (nb 0 c)) 0 0 ∗ dutyTok ER (recvCell 1 (nb 1 c)) 0 0 ∗ dutyTok ER (recvCell 2 (nb 2 c)) 0 0
    ∗ dutyTok ER (sendCell 0 c) 0 0 ∗ dutyTok ER (sendCell 1 c) 0 0 ∗ dutyTok ER (sendCell 2 c) 0 0)

def ghost (K : Dev nD × Fin 7 → ℕ) (c : Dev nD) : sProp 𝕄 :=
  iprop(invs m ρ K c ∗ posns c ∗ marks c ∗ payToks c)

/-- The credit dealt at launch: its barrier's three units and each receive cell's face. -/
def creds (c : Dev nD) : sProp 𝕄 :=
  iprop(cred (tallyAt (barCell c) () 3) ∗ cred (tallyAt (recvCell 0 c) () N) ∗ cred (tallyAt (recvCell 1 c) () N) ∗ cred (tallyAt (recvCell 2 c) () N))

/-- What device `c`'s body starts from. -/
def start (c : Dev nD) : sProp 𝕄 :=
  iprop((∃ K, ghost m ρ K c) ∗ creds c ∗ levAts L lv)

/-- The two scratch buffers whole, at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m ρ c ∗ scratches c)
/-- After the point: the scratch buffers back whole, the six own cells at zero, closed. -/
def Φ₁ (c : Dev nD) : sProp 𝕄 :=
  iprop(scratches c ∗ semVal (sendCell 0 c) 0 ∗ semVal (sendCell 1 c) 0 ∗ semVal (sendCell 2 c) 0
    ∗ semVal (recvCell 0 c) 0 ∗ semVal (recvCell 1 c) 0 ∗ semVal (recvCell 2 c) 0)

end Cert.KernelIdealProof

end
-- ==== Proof.Dats.lean ====
/-
The values the kernel leaves, and the pipeline's proof data: what each window's staging buffer holds after the body
(the block itself for the input; for the output the local stencil with the received faces added on the three
interior-facing planes), the invariant before and after the one grid point, and what a device owes there.
-/
import proofs.«900804_g7700000000000805_dist_halo3d_v7x_xyz2x2x2_s16_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangles the body reads and writes through -/

abbrev rFull : Rect S16x16x16 := Rect.unit (s := S16x16x16) ![0, 0, 0] S16x16x16.size inb_S16x16x16_S16x16x16_0_0_0
abbrev rX15 : Rect S16x16x16 := Rect.unit (s := S16x16x16) ![15, 0, 0] S1x16x16.size inb_S16x16x16_S1x16x16_15_0_0
abbrev rX0 : Rect S16x16x16 := Rect.unit (s := S16x16x16) ![0, 0, 0] S1x16x16.size inb_S16x16x16_S1x16x16_0_0_0
abbrev rY15 : Rect S16x16x16 := Rect.unit (s := S16x16x16) ![0, 15, 0] S16x1x16.size inb_S16x16x16_S16x1x16_0_15_0
abbrev rY0 : Rect S16x16x16 := Rect.unit (s := S16x16x16) ![0, 0, 0] S16x1x16.size inb_S16x16x16_S16x1x16_0_0_0
abbrev rZ15 : Rect S16x16x16 := Rect.unit (s := S16x16x16) ![0, 0, 15] S16x16x1.size inb_S16x16x16_S16x16x1_0_0_15
abbrev rZ0 : Rect S16x16x16 := Rect.unit (s := S16x16x16) ![0, 0, 0] S16x16x1.size inb_S16x16x16_S16x16x1_0_0_0
abbrev rS0 : Rect S3x16x16 := Rect.unit (s := S3x16x16) ![0, 0, 0] S1x16x16.size inb_S3x16x16_S1x16x16_0_0_0
abbrev rS1 : Rect S3x16x16 := Rect.unit (s := S3x16x16) ![1, 0, 0] S1x16x16.size inb_S3x16x16_S1x16x16_1_0_0
abbrev rS2 : Rect S3x16x16 := Rect.unit (s := S3x16x16) ![2, 0, 0] S1x16x16.size inb_S3x16x16_S1x16x16_2_0_0

/-- The device's coordinate words as the kernel computes them. -/
abbrev w0 (c : Dev nD) : BitVec 32 := Scalar.remsi (Scalar.divsi (Dev.word c) 4#32) 2#32
abbrev w1 (c : Dev nD) : BitVec 32 := Scalar.remsi (Scalar.divsi (Dev.word c) 2#32) 2#32
abbrev w2 (c : Dev nD) : BitVec 32 := Scalar.remsi (Scalar.divsi (Dev.word c) 1#32) 2#32

/-- A load of the output staging buffer through a rectangle, and a full store through one. -/
abbrev ldO (r : Rect S16x16x16) (f : (cc0_stg1_0 : Ref sig .tc).ty.Contents (Elt F)) : r.shape.Idx → Elt F .f32 :=
  (oM : Memref sig .tc .vmem S16x16x16 .f32).view.readAt (Elt F) r.toLoadRect f
abbrev stO (r : Rect S16x16x16) (f : (cc0_stg1_0 : Ref sig .tc).ty.Contents (Elt F)) (w : r.shape.Idx → Elt F .f32) : (cc0_stg1_0 : Ref sig .tc).ty.Contents (Elt F) :=
  ((oM : Memref sig .tc .vmem S16x16x16 .f32).access r : View sig .tc _ _ _).write (Elt F) f w Finset.univ
/-- A load of slot `a` of the landing buffer. -/
abbrev ldR (r : Rect S3x16x16) (f : (cc0_scratch1 : Ref sig .tc).ty.Contents (Elt F)) : r.shape.Idx → Elt F .f32 :=
  (rM : Memref sig .tc .vmem S3x16x16 .f32).view.readAt (Elt F) r.toLoadRect f

/-- The local stencil of the block, zero on the global boundary. -/
def out0 (c : Dev nD) : (cc0_stg1_0 : Ref sig .tc).ty.Contents (Elt F) := k0_pay7 (w0 c) (w1 c) (w2 c) (xblk m ρ c)
/-- … with the face received along axis 0 added on the plane facing that neighbour, -/
def out1 (c : Dev nD) : (cc0_stg1_0 : Ref sig .tc).ty.Contents (Elt F) :=
  if coord 0 c = 0 then stO rX15 (out0 m ρ c) (k0_pay9 (w1 c) (w2 c) (ldR rS0 (recvAll m ρ c)) (ldO rX15 (out0 m ρ c)))
  else stO rX0 (out0 m ρ c) (k0_pay10 (k0_pay8 (w1 c) (w2 c) (ldR rS0 (recvAll m ρ c))) (ldO rX0 (out0 m ρ c)))
/-- … along axis 1, -/
def out2 (c : Dev nD) : (cc0_stg1_0 : Ref sig .tc).ty.Contents (Elt F) :=
  if coord 1 c = 0 then stO rY15 (out1 m ρ c) (k0_pay12 (w0 c) (w2 c) (ldR rS1 (recvAll m ρ c)) (ldO rY15 (out1 m ρ c)))
  else stO rY0 (out1 m ρ c) (k0_pay13 (w0 c) (w2 c) (ldR rS1 (recvAll m ρ c)) (ldO rY0 (out1 m ρ c)))
/-- … and along axis 2: the kernel's result on device `c`. -/
def outAt (c : Dev nD) : (cc0_stg1_0 : Ref sig .tc).ty.Contents (Elt F) :=
  if coord 2 c = 0 then stO rZ15 (out2 m ρ c) (k0_pay15 (w0 c) (w1 c) (ldR rS2 (recvAll m ρ c)) (ldO rZ15 (out2 m ρ c)))
  else stO rZ0 (out2 m ρ c) (k0_pay16 (w0 c) (w1 c) (ldR rS2 (recvAll m ρ c)) (ldO rZ0 (out2 m ρ c)))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from at the one grid point, and what it must leave. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xblk m ρ c) ∗ stg c cc0_stg1_0 (outAt m ρ c))

end Cert.KernelIdealProof

end
-- ==== Proof.Levels.lean ====
/-
The levels: a device waits on its barrier cell while it owes only receive credits (level 2 above level 1), and on a
staging or send cell (level 0) while it owes anything it owes at launch.
-/
import proofs.«900804_g7700000000000805_dist_halo3d_v7x_xyz2x2x2_s16_bf16_1_alg».proof.Proof.Proto

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem lv_bar (d : Dev nD) : lv (barCell d) () = 1 := by unfold lv; exact if_pos rfl

theorem lv_recv (a : Fin 3) (d : Dev nD) : lv (recvCell a d) () = 2 := by
  unfold lv
  rw [if_neg (fun h => by cases h)]
  exact if_pos (by fin_cases a; exacts [Or.inl rfl, Or.inr (Or.inl rfl), Or.inr (Or.inr rfl)])

/-- A one-cell tally is positive at that cell only. -/
theorem tallyAt_pos {g g' : GSem nD τ sig} {k : ℕ} {u : Unit} (h : 0 < tallyAt g () k g' u) : g' = g := by
  rw [tallyAt_apply] at h
  by_contra hn
  rw [if_neg (fun h' => hn h'.1)] at h
  exact Nat.lt_irrefl 0 h

/-- The three receive credits sit on the neighbours' receive cells. -/
theorem OR0_pos {c : Dev nD} {g : GSem nD τ sig} {u : Unit} (h : 0 < OR0 c g u) : ∃ a, g = recvCell a (nb a c) := by
  unfold OR0 OR1 OR2 at h
  rcases Pipeline.add_pos_cases h with h | h
  · rcases Pipeline.add_pos_cases h with h | h
    · exact ⟨2, tallyAt_pos h⟩
    · exact ⟨1, tallyAt_pos h⟩
  · exact ⟨0, tallyAt_pos h⟩

/-- What a device owes at launch sits on its neighbours' receive and barrier cells. -/
theorem O₀_pos {c : Dev nD} {g : GSem nD τ sig} {u : Unit} (h : 0 < O₀ c g u) :
    (∃ a, g = recvCell a (nb a c)) ∨ (∃ a, g = barCell (nb a c)) := by
  unfold O₀ OB1 OB2 at h
  rcases Pipeline.add_pos_cases h with h | h
  · rcases Pipeline.add_pos_cases h with h | h
    · rcases Pipeline.add_pos_cases h with h | h
      · exact .inl (OR0_pos h)
      · exact .inr ⟨2, tallyAt_pos h⟩
    · exact .inr ⟨1, tallyAt_pos h⟩
  · exact .inr ⟨0, tallyAt_pos h⟩

omit [FloatOps F] in
/-- At its barrier wait a device owes only the three receive credits: receive cells, above its barrier cell. -/
theorem mayWait_bar (c : Dev nD) : (levAts L lv : sProp 𝕄) ⊢ MayWait (c : Thread nD τ) (.reg barS) () (OR0 c) :=
  MayOwe.of_cut (L := L) (lev := lv) 1
    (fun p hp => by rw [Finset.mem_singleton.mp hp, L_tc]; exact Finset.mem_singleton_self _)
    (fun g u hg => by obtain ⟨a, rfl⟩ := OR0_pos hg; rw [L_tc]; exact Finset.mem_singleton_self _)
    (fun p hp => by rw [Finset.mem_singleton.mp hp]; exact le_of_eq (lv_bar c))
    (fun g u hg => by obtain ⟨a, rfl⟩ := OR0_pos hg; rw [lv_recv]; decide)

omit [FloatOps F] in
/-- A wait on a cell of level 0 (a staging or a send cell) is allowed whatever of its launch debt the device still has,
    and when it owes nothing. -/
theorem mayWait_stage (c : Dev nD) (q : DmaSem sig) (hq : lv ((c : Thread nD τ), .dma q) () = 0)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨a, rfl⟩ | ⟨a, rfl⟩ <;> (rw [L_tc]; exact Finset.mem_singleton_self _))
      (fun p hp => by rw [Finset.mem_singleton.mp hp]; exact le_of_eq hq)
      (fun g u hg => by
        rcases O₀_pos hg with ⟨a, rfl⟩ | ⟨a, rfl⟩
        · rw [lv_recv]; decide
        · rw [lv_bar]; decide)
  · rw [MayWait_zero]; iintro -; iempintro

end Cert.KernelIdealProof

end
-- ==== Proof.ViewIdx.lean ====
/-
Loads and stores through a unit-stride rectangle of a whole buffer, read at an index: a load reads the buffer at
offset plus local index; a full store overwrites exactly the indices inside the rectangle, each with the payload at
its local index, and leaves every other index alone.
-/
import proofs.«900804_g7700000000000805_dist_halo3d_v7x_xyz2x2x2_s16_bf16_1_alg».proof.Proof.Proto
import Idealize.ShloMosaic.Lib.ValueIdx
import Idealize.ShloMosaic.Lib.ValueLayout
import Idealize.ShloMosaic.Lib.Pipeline.Value

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

/-! ## Generic: a whole buffer, any unit-stride rectangle -/

section Generic
variable {sg : RefSig} {κ : Kind} (Val : EltTy → Type)

/-- A load through the unit-stride rectangle at offsets `off` reads the buffer at `off + j`. -/
theorem readAt_unit_apply (b : Ref sg κ) (off size : Fin b.ty.shape.rank → Nat)
    (inb : ∀ a, off a + size a ≤ b.ty.shape.size a) (f : b.ty.Contents Val) (j : (Rect.unit off size inb).shape.Idx) :
    (Memref.whole b : Memref sg κ _ _ _).view.readAt Val (Rect.unit off size inb).toLoadRect f j
      = f (fun a => ⟨off a + (j a).val, Nat.lt_of_lt_of_le (Nat.add_lt_add_left (j a).isLt _) (inb a)⟩) := by
  show f ((Rect.unit off size inb).toLoadRect.idx j) = _
  refine congrArg f (funext fun a => Fin.ext ?_)
  show off a + 1 * (j a).val = off a + (j a).val
  rw [Nat.one_mul]

/-- A full store through the unit-stride rectangle at offsets `off`: inside the rectangle the payload at the local
    index, outside it the old contents. -/
theorem write_unit_apply (b : Ref sg κ) (off size : Fin b.ty.shape.rank → Nat)
    (inb : ∀ a, off a + size a ≤ b.ty.shape.size a) (f : b.ty.Contents Val)
    (w : (Rect.unit off size inb).shape.Idx → Val b.ty.elt) (i : b.ty.Idx) :
    (((Memref.whole b : Memref sg κ _ _ _).access (Rect.unit off size inb) : View sg κ _ _ _).write Val f w Finset.univ) i
      = if h : ∀ a, off a ≤ (i a).val ∧ (i a).val < off a + size a then
          w (fun a => ⟨(i a).val - off a, by have := h a; show (i a).val - off a < size a; omega⟩)
        else f i := by
  by_cases h : ∀ a, off a ≤ (i a).val ∧ (i a).val < off a + size a
  · rw [dif_pos h]
    have hi : ((Memref.whole b : Memref sg κ _ _ _).access (Rect.unit off size inb) : View sg κ _ _ _).emb
        (fun a => ⟨(i a).val - off a, by have := h a; show (i a).val - off a < size a; omega⟩) = i := by
      funext a; refine Fin.ext ?_
      show off a + 1 * ((i a).val - off a) = (i a).val
      have := h a; omega
    have hw := View.write_emb_of_mem (v := ((Memref.whole b : Memref sg κ _ _ _).access (Rect.unit off size inb) : View sg κ _ _ _))
      (Val := Val) f w (M := Finset.univ) (Finset.mem_univ
        (fun a => ⟨(i a).val - off a, by have := h a; show (i a).val - off a < size a; omega⟩))
    rw [hi] at hw
    exact hw
  · rw [dif_neg h]
    refine View.write_of_not_mem _ _ _ ?_
    rw [View.setOn_univ]
    show i ∉ ((View.whole b).slice (Rect.unit off size inb)).set
    rw [View.set_slice_whole, Rect.mem_set_unit]
    exact h

end Generic

/-! ## The rectangles of this kernel, by coordinates -/

/-! ### `xM` -/

omit [FloatOps F] in
theorem xM_ld_rFull (f : (cc0_stg0_0 : Ref sig .tc).ty.Contents (Elt F)) (j : S16x16x16.Idx) :
    (xM : Memref sig .tc .vmem S16x16x16 .f32).view.readAt (Elt F) (Rect.unit (s := S16x16x16) ![0, 0, 0] S16x16x16.size inb_S16x16x16_S16x16x16_0_0_0).toLoadRect f j
      = f j :=
  (readAt_unit_apply (Elt F) cc0_stg0_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 0 + (j 2).val = (j 2).val; omega)))

omit [FloatOps F] in
theorem xM_st_rFull (f : (cc0_stg0_0 : Ref sig .tc).ty.Contents (Elt F)) (w : S16x16x16.Idx → Elt F .f32) (i : S16x16x16.Idx) :
    (((xM : Memref sig .tc .vmem S16x16x16 .f32).access (Rect.unit (s := S16x16x16) ![0, 0, 0] S16x16x16.size inb_S16x16x16_S16x16x16_0_0_0) : View sig .tc _ _ _).write (Elt F) f w Finset.univ) i
      = w i := by
  refine (write_unit_apply (Elt F) cc0_stg0_0 _ _ _ f w i).trans ?_
  rw [dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
  exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 0 = (i 2).val; omega))

omit [FloatOps F] in
theorem xM_ld_rX15 (f : (cc0_stg0_0 : Ref sig .tc).ty.Contents (Elt F)) (j : S1x16x16.Idx) :
    (xM : Memref sig .tc .vmem S16x16x16 .f32).view.readAt (Elt F) (Rect.unit (s := S16x16x16) ![15, 0, 0] S1x16x16.size inb_S16x16x16_S1x16x16_15_0_0).toLoadRect f j
      = f (ix3 (15 : Fin 16) (j 1) (j 2)) :=
  (readAt_unit_apply (Elt F) cc0_stg0_0 _ _ _ f j).trans (congrArg f (funext fun a => match a with
    | ⟨0, _⟩ => Fin.ext (by show 15 + (j 0).val = 15; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem xM_st_rX15 (f : (cc0_stg0_0 : Ref sig .tc).ty.Contents (Elt F)) (w : S1x16x16.Idx → Elt F .f32) (i : S16x16x16.Idx) :
    (((xM : Memref sig .tc .vmem S16x16x16 .f32).access (Rect.unit (s := S16x16x16) ![15, 0, 0] S1x16x16.size inb_S16x16x16_S1x16x16_15_0_0) : View sig .tc _ _ _).write (Elt F) f w Finset.univ) i
      = if (i 0).val = 15 then w (ix3 (0 : Fin 1) (i 1) (i 2)) else f i := by
  refine (write_unit_apply (Elt F) cc0_stg0_0 _ _ _ f w i).trans ?_
  by_cases h : (i 0).val = 15
  · rw [if_pos h, dif_pos (fun a => match a with
      | ⟨0, _⟩ => ⟨by show 15 ≤ (i 0).val; omega, by show (i 0).val < 15 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 15 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 15 ≤ (i 0).val := h0.1
      have h2 : (i 0).val < 15 + 1 := h0.2
      omega))]

omit [FloatOps F] in
theorem xM_ld_rX0 (f : (cc0_stg0_0 : Ref sig .tc).ty.Contents (Elt F)) (j : S1x16x16.Idx) :
    (xM : Memref sig .tc .vmem S16x16x16 .f32).view.readAt (Elt F) (Rect.unit (s := S16x16x16) ![0, 0, 0] S1x16x16.size inb_S16x16x16_S1x16x16_0_0_0).toLoadRect f j
      = f (ix3 (0 : Fin 16) (j 1) (j 2)) :=
  (readAt_unit_apply (Elt F) cc0_stg0_0 _ _ _ f j).trans (congrArg f (funext fun a => match a with
    | ⟨0, _⟩ => Fin.ext (by show 0 + (j 0).val = 0; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem xM_st_rX0 (f : (cc0_stg0_0 : Ref sig .tc).ty.Contents (Elt F)) (w : S1x16x16.Idx → Elt F .f32) (i : S16x16x16.Idx) :
    (((xM : Memref sig .tc .vmem S16x16x16 .f32).access (Rect.unit (s := S16x16x16) ![0, 0, 0] S1x16x16.size inb_S16x16x16_S1x16x16_0_0_0) : View sig .tc _ _ _).write (Elt F) f w Finset.univ) i
      = if (i 0).val = 0 then w (ix3 (0 : Fin 1) (i 1) (i 2)) else f i := by
  refine (write_unit_apply (Elt F) cc0_stg0_0 _ _ _ f w i).trans ?_
  by_cases h : (i 0).val = 0
  · rw [if_pos h, dif_pos (fun a => match a with
      | ⟨0, _⟩ => ⟨by show 0 ≤ (i 0).val; omega, by show (i 0).val < 0 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 0 ≤ (i 0).val := h0.1
      have h2 : (i 0).val < 0 + 1 := h0.2
      omega))]

omit [FloatOps F] in
theorem xM_ld_rY15 (f : (cc0_stg0_0 : Ref sig .tc).ty.Contents (Elt F)) (j : S16x1x16.Idx) :
    (xM : Memref sig .tc .vmem S16x16x16 .f32).view.readAt (Elt F) (Rect.unit (s := S16x16x16) ![0, 15, 0] S16x1x16.size inb_S16x16x16_S16x1x16_0_15_0).toLoadRect f j
      = f (ix3 (j 0) (15 : Fin 16) (j 2)) :=
  (readAt_unit_apply (Elt F) cc0_stg0_0 _ _ _ f j).trans (congrArg f (funext fun a => match a with
    | ⟨0, _⟩ => Fin.ext (by show 0 + (j 0).val = (j 0).val; omega)
    | ⟨1, _⟩ => Fin.ext (by show 15 + (j 1).val = 15; have h : (j 1).val < 1 := (j 1).isLt; omega)
    | ⟨2, _⟩ => Fin.ext (by show 0 + (j 2).val = (j 2).val; omega)))

omit [FloatOps F] in
theorem xM_st_rY15 (f : (cc0_stg0_0 : Ref sig .tc).ty.Contents (Elt F)) (w : S16x1x16.Idx → Elt F .f32) (i : S16x16x16.Idx) :
    (((xM : Memref sig .tc .vmem S16x16x16 .f32).access (Rect.unit (s := S16x16x16) ![0, 15, 0] S16x1x16.size inb_S16x16x16_S16x1x16_0_15_0) : View sig .tc _ _ _).write (Elt F) f w Finset.univ) i
      = if (i 1).val = 15 then w (ix3 (i 0) (0 : Fin 1) (i 2)) else f i := by
  refine (write_unit_apply (Elt F) cc0_stg0_0 _ _ _ f w i).trans ?_
  by_cases h : (i 1).val = 15
  · rw [if_pos h, dif_pos (fun a => match a with
      | ⟨0, _⟩ => ⟨Nat.zero_le _, by show (i 0).val < 0 + 16; have h' : (i 0).val < 16 := (i 0).isLt; omega⟩
      | ⟨1, _⟩ => ⟨by show 15 ≤ (i 1).val; omega, by show (i 1).val < 15 + 1; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = (i 0).val; omega)
      | ⟨1, _⟩ => Fin.ext (by show (i 1).val - 15 = 0; omega)
      | ⟨2, _⟩ => Fin.ext (by show (i 2).val - 0 = (i 2).val; omega))
  · rw [if_neg h, dif_neg (fun hh => h (by
      have h0 := hh ⟨1, by decide⟩
      have h1 : 15 ≤ (i 1).val := h0.1
      have h2 : (i 1).val < 15 + 1 := h0.2
      omega))]

omit [FloatOps F] in
theorem xM_ld_rY0 (f : (cc0_stg0_0 : Ref sig .tc).ty.Contents (Elt F)) (j : S16x1x16.Idx) :
    (xM : Memref sig .tc .vmem S16x16x16 .f32).view.readAt (Elt F) (Rect.unit (s := S16x16x16) ![0, 0, 0] S16x1x16.size inb_S16x16x16_S16x1x16_0_0_0).toLoadRect f j
      = f (ix3 (j 0) (0 : Fin 16) (j 2)) :=
  (readAt_unit_apply (Elt F) cc0_stg0_0 _ _ _ f j).trans (congrArg f (funext fun a => match a with
    | ⟨0, _⟩ => Fin.ext (by show 0 + (j 0).val = (j 0).val; omega)
    | ⟨1, _⟩ => Fin.ext (by show 0 + (j 1).val = 0; have h : (j 1).val < 1 := (j 1).isLt; omega)
    | ⟨2, _⟩ => Fin.ext (by show 0 + (j 2).val = (j 2).val; omega)))

omit [FloatOps F] in
theorem xM_st_rY0 (f : (cc0_stg0_0 : Ref sig .tc).ty.Contents (Elt F)) (w : S16x1x16.Idx → Elt F .f32) (i : S16x16x16.Idx) :
    (((xM : Memref sig .tc .vmem S16x16x16 .f32).access (Rect.unit (s := S16x16x16) ![0, 0, 0] S16x1x16.size inb_S16x16x16_S16x1x16_0_0_0) : View sig .tc _ _ _).write (Elt F) f w Finset.univ) i
      = if (i 1).val = 0 then w (ix3 (i 0) (0 : Fin 1) (i 2)) else f i := by
  refine (write_unit_apply (Elt F) cc0_stg0_0 _ _ _ f w i).trans ?_
  by_cases h : (i 1).val = 0
  · rw [if_pos h, dif_pos (fun a => match a with
      | ⟨0, _⟩ => ⟨Nat.zero_le _, by show (i 0).val < 0 + 16; have h' : (i 0).val < 16 := (i 0).isLt; omega⟩
      | ⟨1, _⟩ => ⟨by show 0 ≤ (i 1).val; omega, by show (i 1).val < 0 + 1; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = (i 0).val; omega)
      | ⟨1, _⟩ => Fin.ext (by show (i 1).val - 0 = 0; omega)
      | ⟨2, _⟩ => Fin.ext (by show (i 2).val - 0 = (i 2).val; omega))
  · rw [if_neg h, dif_neg (fun hh => h (by
      have h0 := hh ⟨1, by decide⟩
      have h1 : 0 ≤ (i 1).val := h0.1
      have h2 : (i 1).val < 0 + 1 := h0.2
      omega))]

omit [FloatOps F] in
theorem xM_ld_rZ15 (f : (cc0_stg0_0 : Ref sig .tc).ty.Contents (Elt F)) (j : S16x16x1.Idx) :
    (xM : Memref sig .tc .vmem S16x16x16 .f32).view.readAt (Elt F) (Rect.unit (s := S16x16x16) ![0, 0, 15] S16x16x1.size inb_S16x16x16_S16x16x1_0_0_15).toLoadRect f j
      = f (ix3 (j 0) (j 1) (15 : Fin 16)) :=
  (readAt_unit_apply (Elt F) cc0_stg0_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 15 + (j 2).val = 15; have h : (j 2).val < 1 := (j 2).isLt; omega)))

omit [FloatOps F] in
theorem xM_st_rZ15 (f : (cc0_stg0_0 : Ref sig .tc).ty.Contents (Elt F)) (w : S16x16x1.Idx → Elt F .f32) (i : S16x16x16.Idx) :
    (((xM : Memref sig .tc .vmem S16x16x16 .f32).access (Rect.unit (s := S16x16x16) ![0, 0, 15] S16x16x1.size inb_S16x16x16_S16x16x1_0_0_15) : View sig .tc _ _ _).write (Elt F) f w Finset.univ) i
      = if (i 2).val = 15 then w (ix3 (i 0) (i 1) (0 : Fin 1)) else f i := by
  refine (write_unit_apply (Elt F) cc0_stg0_0 _ _ _ f w i).trans ?_
  by_cases h : (i 2).val = 15
  · rw [if_pos h, dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨by show 15 ≤ (i 2).val; omega, by show (i 2).val < 15 + 1; omega⟩)]
    exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 15 = 0; omega))
  · rw [if_neg h, dif_neg (fun hh => h (by
      have h0 := hh ⟨2, by decide⟩
      have h1 : 15 ≤ (i 2).val := h0.1
      have h2 : (i 2).val < 15 + 1 := h0.2
      omega))]

omit [FloatOps F] in
theorem xM_ld_rZ0 (f : (cc0_stg0_0 : Ref sig .tc).ty.Contents (Elt F)) (j : S16x16x1.Idx) :
    (xM : Memref sig .tc .vmem S16x16x16 .f32).view.readAt (Elt F) (Rect.unit (s := S16x16x16) ![0, 0, 0] S16x16x1.size inb_S16x16x16_S16x16x1_0_0_0).toLoadRect f j
      = f (ix3 (j 0) (j 1) (0 : Fin 16)) :=
  (readAt_unit_apply (Elt F) cc0_stg0_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 0 + (j 2).val = 0; have h : (j 2).val < 1 := (j 2).isLt; omega)))

omit [FloatOps F] in
theorem xM_st_rZ0 (f : (cc0_stg0_0 : Ref sig .tc).ty.Contents (Elt F)) (w : S16x16x1.Idx → Elt F .f32) (i : S16x16x16.Idx) :
    (((xM : Memref sig .tc .vmem S16x16x16 .f32).access (Rect.unit (s := S16x16x16) ![0, 0, 0] S16x16x1.size inb_S16x16x16_S16x16x1_0_0_0) : View sig .tc _ _ _).write (Elt F) f w Finset.univ) i
      = if (i 2).val = 0 then w (ix3 (i 0) (i 1) (0 : Fin 1)) else f i := by
  refine (write_unit_apply (Elt F) cc0_stg0_0 _ _ _ f w i).trans ?_
  by_cases h : (i 2).val = 0
  · rw [if_pos h, dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨by show 0 ≤ (i 2).val; omega, by show (i 2).val < 0 + 1; omega⟩)]
    exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 0 = 0; omega))
  · rw [if_neg h, dif_neg (fun hh => h (by
      have h0 := hh ⟨2, by decide⟩
      have h1 : 0 ≤ (i 2).val := h0.1
      have h2 : (i 2).val < 0 + 1 := h0.2
      omega))]

/-! ### `oM` -/

omit [FloatOps F] in
theorem oM_ld_rFull (f : (cc0_stg1_0 : Ref sig .tc).ty.Contents (Elt F)) (j : S16x16x16.Idx) :
    (oM : Memref sig .tc .vmem S16x16x16 .f32).view.readAt (Elt F) (Rect.unit (s := S16x16x16) ![0, 0, 0] S16x16x16.size inb_S16x16x16_S16x16x16_0_0_0).toLoadRect f j
      = f j :=
  (readAt_unit_apply (Elt F) cc0_stg1_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 0 + (j 2).val = (j 2).val; omega)))

omit [FloatOps F] in
theorem oM_st_rFull (f : (cc0_stg1_0 : Ref sig .tc).ty.Contents (Elt F)) (w : S16x16x16.Idx → Elt F .f32) (i : S16x16x16.Idx) :
    (((oM : Memref sig .tc .vmem S16x16x16 .f32).access (Rect.unit (s := S16x16x16) ![0, 0, 0] S16x16x16.size inb_S16x16x16_S16x16x16_0_0_0) : View sig .tc _ _ _).write (Elt F) f w Finset.univ) i
      = w i := by
  refine (write_unit_apply (Elt F) cc0_stg1_0 _ _ _ f w i).trans ?_
  rw [dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
  exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 0 = (i 2).val; omega))

omit [FloatOps F] in
theorem oM_ld_rX15 (f : (cc0_stg1_0 : Ref sig .tc).ty.Contents (Elt F)) (j : S1x16x16.Idx) :
    (oM : Memref sig .tc .vmem S16x16x16 .f32).view.readAt (Elt F) (Rect.unit (s := S16x16x16) ![15, 0, 0] S1x16x16.size inb_S16x16x16_S1x16x16_15_0_0).toLoadRect f j
      = f (ix3 (15 : Fin 16) (j 1) (j 2)) :=
  (readAt_unit_apply (Elt F) cc0_stg1_0 _ _ _ f j).trans (congrArg f (funext fun a => match a with
    | ⟨0, _⟩ => Fin.ext (by show 15 + (j 0).val = 15; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem oM_st_rX15 (f : (cc0_stg1_0 : Ref sig .tc).ty.Contents (Elt F)) (w : S1x16x16.Idx → Elt F .f32) (i : S16x16x16.Idx) :
    (((oM : Memref sig .tc .vmem S16x16x16 .f32).access (Rect.unit (s := S16x16x16) ![15, 0, 0] S1x16x16.size inb_S16x16x16_S1x16x16_15_0_0) : View sig .tc _ _ _).write (Elt F) f w Finset.univ) i
      = if (i 0).val = 15 then w (ix3 (0 : Fin 1) (i 1) (i 2)) else f i := by
  refine (write_unit_apply (Elt F) cc0_stg1_0 _ _ _ f w i).trans ?_
  by_cases h : (i 0).val = 15
  · rw [if_pos h, dif_pos (fun a => match a with
      | ⟨0, _⟩ => ⟨by show 15 ≤ (i 0).val; omega, by show (i 0).val < 15 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 15 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 15 ≤ (i 0).val := h0.1
      have h2 : (i 0).val < 15 + 1 := h0.2
      omega))]

omit [FloatOps F] in
theorem oM_ld_rX0 (f : (cc0_stg1_0 : Ref sig .tc).ty.Contents (Elt F)) (j : S1x16x16.Idx) :
    (oM : Memref sig .tc .vmem S16x16x16 .f32).view.readAt (Elt F) (Rect.unit (s := S16x16x16) ![0, 0, 0] S1x16x16.size inb_S16x16x16_S1x16x16_0_0_0).toLoadRect f j
      = f (ix3 (0 : Fin 16) (j 1) (j 2)) :=
  (readAt_unit_apply (Elt F) cc0_stg1_0 _ _ _ f j).trans (congrArg f (funext fun a => match a with
    | ⟨0, _⟩ => Fin.ext (by show 0 + (j 0).val = 0; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem oM_st_rX0 (f : (cc0_stg1_0 : Ref sig .tc).ty.Contents (Elt F)) (w : S1x16x16.Idx → Elt F .f32) (i : S16x16x16.Idx) :
    (((oM : Memref sig .tc .vmem S16x16x16 .f32).access (Rect.unit (s := S16x16x16) ![0, 0, 0] S1x16x16.size inb_S16x16x16_S1x16x16_0_0_0) : View sig .tc _ _ _).write (Elt F) f w Finset.univ) i
      = if (i 0).val = 0 then w (ix3 (0 : Fin 1) (i 1) (i 2)) else f i := by
  refine (write_unit_apply (Elt F) cc0_stg1_0 _ _ _ f w i).trans ?_
  by_cases h : (i 0).val = 0
  · rw [if_pos h, dif_pos (fun a => match a with
      | ⟨0, _⟩ => ⟨by show 0 ≤ (i 0).val; omega, by show (i 0).val < 0 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 0 ≤ (i 0).val := h0.1
      have h2 : (i 0).val < 0 + 1 := h0.2
      omega))]

omit [FloatOps F] in
theorem oM_ld_rY15 (f : (cc0_stg1_0 : Ref sig .tc).ty.Contents (Elt F)) (j : S16x1x16.Idx) :
    (oM : Memref sig .tc .vmem S16x16x16 .f32).view.readAt (Elt F) (Rect.unit (s := S16x16x16) ![0, 15, 0] S16x1x16.size inb_S16x16x16_S16x1x16_0_15_0).toLoadRect f j
      = f (ix3 (j 0) (15 : Fin 16) (j 2)) :=
  (readAt_unit_apply (Elt F) cc0_stg1_0 _ _ _ f j).trans (congrArg f (funext fun a => match a with
    | ⟨0, _⟩ => Fin.ext (by show 0 + (j 0).val = (j 0).val; omega)
    | ⟨1, _⟩ => Fin.ext (by show 15 + (j 1).val = 15; have h : (j 1).val < 1 := (j 1).isLt; omega)
    | ⟨2, _⟩ => Fin.ext (by show 0 + (j 2).val = (j 2).val; omega)))

omit [FloatOps F] in
theorem oM_st_rY15 (f : (cc0_stg1_0 : Ref sig .tc).ty.Contents (Elt F)) (w : S16x1x16.Idx → Elt F .f32) (i : S16x16x16.Idx) :
    (((oM : Memref sig .tc .vmem S16x16x16 .f32).access (Rect.unit (s := S16x16x16) ![0, 15, 0] S16x1x16.size inb_S16x16x16_S16x1x16_0_15_0) : View sig .tc _ _ _).write (Elt F) f w Finset.univ) i
      = if (i 1).val = 15 then w (ix3 (i 0) (0 : Fin 1) (i 2)) else f i := by
  refine (write_unit_apply (Elt F) cc0_stg1_0 _ _ _ f w i).trans ?_
  by_cases h : (i 1).val = 15
  · rw [if_pos h, dif_pos (fun a => match a with
      | ⟨0, _⟩ => ⟨Nat.zero_le _, by show (i 0).val < 0 + 16; have h' : (i 0).val < 16 := (i 0).isLt; omega⟩
      | ⟨1, _⟩ => ⟨by show 15 ≤ (i 1).val; omega, by show (i 1).val < 15 + 1; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = (i 0).val; omega)
      | ⟨1, _⟩ => Fin.ext (by show (i 1).val - 15 = 0; omega)
      | ⟨2, _⟩ => Fin.ext (by show (i 2).val - 0 = (i 2).val; omega))
  · rw [if_neg h, dif_neg (fun hh => h (by
      have h0 := hh ⟨1, by decide⟩
      have h1 : 15 ≤ (i 1).val := h0.1
      have h2 : (i 1).val < 15 + 1 := h0.2
      omega))]

omit [FloatOps F] in
theorem oM_ld_rY0 (f : (cc0_stg1_0 : Ref sig .tc).ty.Contents (Elt F)) (j : S16x1x16.Idx) :
    (oM : Memref sig .tc .vmem S16x16x16 .f32).view.readAt (Elt F) (Rect.unit (s := S16x16x16) ![0, 0, 0] S16x1x16.size inb_S16x16x16_S16x1x16_0_0_0).toLoadRect f j
      = f (ix3 (j 0) (0 : Fin 16) (j 2)) :=
  (readAt_unit_apply (Elt F) cc0_stg1_0 _ _ _ f j).trans (congrArg f (funext fun a => match a with
    | ⟨0, _⟩ => Fin.ext (by show 0 + (j 0).val = (j 0).val; omega)
    | ⟨1, _⟩ => Fin.ext (by show 0 + (j 1).val = 0; have h : (j 1).val < 1 := (j 1).isLt; omega)
    | ⟨2, _⟩ => Fin.ext (by show 0 + (j 2).val = (j 2).val; omega)))

omit [FloatOps F] in
theorem oM_st_rY0 (f : (cc0_stg1_0 : Ref sig .tc).ty.Contents (Elt F)) (w : S16x1x16.Idx → Elt F .f32) (i : S16x16x16.Idx) :
    (((oM : Memref sig .tc .vmem S16x16x16 .f32).access (Rect.unit (s := S16x16x16) ![0, 0, 0] S16x1x16.size inb_S16x16x16_S16x1x16_0_0_0) : View sig .tc _ _ _).write (Elt F) f w Finset.univ) i
      = if (i 1).val = 0 then w (ix3 (i 0) (0 : Fin 1) (i 2)) else f i := by
  refine (write_unit_apply (Elt F) cc0_stg1_0 _ _ _ f w i).trans ?_
  by_cases h : (i 1).val = 0
  · rw [if_pos h, dif_pos (fun a => match a with
      | ⟨0, _⟩ => ⟨Nat.zero_le _, by show (i 0).val < 0 + 16; have h' : (i 0).val < 16 := (i 0).isLt; omega⟩
      | ⟨1, _⟩ => ⟨by show 0 ≤ (i 1).val; omega, by show (i 1).val < 0 + 1; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = (i 0).val; omega)
      | ⟨1, _⟩ => Fin.ext (by show (i 1).val - 0 = 0; omega)
      | ⟨2, _⟩ => Fin.ext (by show (i 2).val - 0 = (i 2).val; omega))
  · rw [if_neg h, dif_neg (fun hh => h (by
      have h0 := hh ⟨1, by decide⟩
      have h1 : 0 ≤ (i 1).val := h0.1
      have h2 : (i 1).val < 0 + 1 := h0.2
      omega))]

omit [FloatOps F] in
theorem oM_ld_rZ15 (f : (cc0_stg1_0 : Ref sig .tc).ty.Contents (Elt F)) (j : S16x16x1.Idx) :
    (oM : Memref sig .tc .vmem S16x16x16 .f32).view.readAt (Elt F) (Rect.unit (s := S16x16x16) ![0, 0, 15] S16x16x1.size inb_S16x16x16_S16x16x1_0_0_15).toLoadRect f j
      = f (ix3 (j 0) (j 1) (15 : Fin 16)) :=
  (readAt_unit_apply (Elt F) cc0_stg1_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 15 + (j 2).val = 15; have h : (j 2).val < 1 := (j 2).isLt; omega)))

omit [FloatOps F] in
theorem oM_st_rZ15 (f : (cc0_stg1_0 : Ref sig .tc).ty.Contents (Elt F)) (w : S16x16x1.Idx → Elt F .f32) (i : S16x16x16.Idx) :
    (((oM : Memref sig .tc .vmem S16x16x16 .f32).access (Rect.unit (s := S16x16x16) ![0, 0, 15] S16x16x1.size inb_S16x16x16_S16x16x1_0_0_15) : View sig .tc _ _ _).write (Elt F) f w Finset.univ) i
      = if (i 2).val = 15 then w (ix3 (i 0) (i 1) (0 : Fin 1)) else f i := by
  refine (write_unit_apply (Elt F) cc0_stg1_0 _ _ _ f w i).trans ?_
  by_cases h : (i 2).val = 15
  · rw [if_pos h, dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨by show 15 ≤ (i 2).val; omega, by show (i 2).val < 15 + 1; omega⟩)]
    exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 15 = 0; omega))
  · rw [if_neg h, dif_neg (fun hh => h (by
      have h0 := hh ⟨2, by decide⟩
      have h1 : 15 ≤ (i 2).val := h0.1
      have h2 : (i 2).val < 15 + 1 := h0.2
      omega))]

omit [FloatOps F] in
theorem oM_ld_rZ0 (f : (cc0_stg1_0 : Ref sig .tc).ty.Contents (Elt F)) (j : S16x16x1.Idx) :
    (oM : Memref sig .tc .vmem S16x16x16 .f32).view.readAt (Elt F) (Rect.unit (s := S16x16x16) ![0, 0, 0] S16x16x1.size inb_S16x16x16_S16x16x1_0_0_0).toLoadRect f j
      = f (ix3 (j 0) (j 1) (0 : Fin 16)) :=
  (readAt_unit_apply (Elt F) cc0_stg1_0 _ _ _ f j).trans (congrArg f (funext fun a => match a with
    | ⟨0, _⟩ => Fin.ext (by show 0 + (j 0).val = (j 0).val; omega)
    | ⟨1, _⟩ => Fin.ext (by show 0 + (j 1).val = (j 1).val; omega)
    | ⟨2, _⟩ => Fin.ext (by show 0 + (j 2).val = 0; have h : (j 2).val < 1 := (j 2).isLt; omega)))

omit [FloatOps F] in
theorem oM_st_rZ0 (f : (cc0_stg1_0 : Ref sig .tc).ty.Contents (Elt F)) (w : S16x16x1.Idx → Elt F .f32) (i : S16x16x16.Idx) :
    (((oM : Memref sig .tc .vmem S16x16x16 .f32).access (Rect.unit (s := S16x16x16) ![0, 0, 0] S16x16x1.size inb_S16x16x16_S16x16x1_0_0_0) : View sig .tc _ _ _).write (Elt F) f w Finset.univ) i
      = if (i 2).val = 0 then w (ix3 (i 0) (i 1) (0 : Fin 1)) else f i := by
  refine (write_unit_apply (Elt F) cc0_stg1_0 _ _ _ f w i).trans ?_
  by_cases h : (i 2).val = 0
  · rw [if_pos h, dif_pos (fun a => match a with
      | ⟨0, _⟩ => ⟨Nat.zero_le _, by show (i 0).val < 0 + 16; have h' : (i 0).val < 16 := (i 0).isLt; omega⟩
      | ⟨1, _⟩ => ⟨Nat.zero_le _, by show (i 1).val < 0 + 16; have h' : (i 1).val < 16 := (i 1).isLt; omega⟩
      | ⟨2, _⟩ => ⟨by show 0 ≤ (i 2).val; omega, by show (i 2).val < 0 + 1; omega⟩)]
    exact congrArg w (funext fun a => match a with
      | ⟨0, _⟩ => Fin.ext (by show (i 0).val - 0 = (i 0).val; omega)
      | ⟨1, _⟩ => Fin.ext (by show (i 1).val - 0 = (i 1).val; omega)
      | ⟨2, _⟩ => Fin.ext (by show (i 2).val - 0 = 0; omega))
  · rw [if_neg h, dif_neg (fun hh => h (by
      have h0 := hh ⟨2, by decide⟩
      have h1 : 0 ≤ (i 2).val := h0.1
      have h2 : (i 2).val < 0 + 1 := h0.2
      omega))]

/-! ### `sM` -/

omit [FloatOps F] in
theorem sM_ld_rS0 (f : (cc0_scratch0 : Ref sig .tc).ty.Contents (Elt F)) (j : S1x16x16.Idx) :
    (sM : Memref sig .tc .vmem S3x16x16 .f32).view.readAt (Elt F) (Rect.unit (s := S3x16x16) ![0, 0, 0] S1x16x16.size inb_S3x16x16_S1x16x16_0_0_0).toLoadRect f j
      = f (ix3 (0 : Fin 3) (j 1) (j 2)) :=
  (readAt_unit_apply (Elt F) cc0_scratch0 _ _ _ f j).trans (congrArg f (funext fun a => match a with
    | ⟨0, _⟩ => Fin.ext (by show 0 + (j 0).val = 0; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem sM_st_rS0 (f : (cc0_scratch0 : Ref sig .tc).ty.Contents (Elt F)) (w : S1x16x16.Idx → Elt F .f32) (i : S3x16x16.Idx) :
    (((sM : Memref sig .tc .vmem S3x16x16 .f32).access (Rect.unit (s := S3x16x16) ![0, 0, 0] S1x16x16.size inb_S3x16x16_S1x16x16_0_0_0) : View sig .tc _ _ _).write (Elt F) f w Finset.univ) i
      = if (i 0).val = 0 then w (ix3 (0 : Fin 1) (i 1) (i 2)) else f i := by
  refine (write_unit_apply (Elt F) cc0_scratch0 _ _ _ f w i).trans ?_
  by_cases h : (i 0).val = 0
  · rw [if_pos h, dif_pos (fun a => match a with
      | ⟨0, _⟩ => ⟨by show 0 ≤ (i 0).val; omega, by show (i 0).val < 0 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 0 ≤ (i 0).val := h0.1
      have h2 : (i 0).val < 0 + 1 := h0.2
      omega))]

omit [FloatOps F] in
theorem sM_ld_rS1 (f : (cc0_scratch0 : Ref sig .tc).ty.Contents (Elt F)) (j : S1x16x16.Idx) :
    (sM : Memref sig .tc .vmem S3x16x16 .f32).view.readAt (Elt F) (Rect.unit (s := S3x16x16) ![1, 0, 0] S1x16x16.size inb_S3x16x16_S1x16x16_1_0_0).toLoadRect f j
      = f (ix3 (1 : Fin 3) (j 1) (j 2)) :=
  (readAt_unit_apply (Elt F) cc0_scratch0 _ _ _ f j).trans (congrArg f (funext fun a => match a with
    | ⟨0, _⟩ => Fin.ext (by show 1 + (j 0).val = 1; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem sM_st_rS1 (f : (cc0_scratch0 : Ref sig .tc).ty.Contents (Elt F)) (w : S1x16x16.Idx → Elt F .f32) (i : S3x16x16.Idx) :
    (((sM : Memref sig .tc .vmem S3x16x16 .f32).access (Rect.unit (s := S3x16x16) ![1, 0, 0] S1x16x16.size inb_S3x16x16_S1x16x16_1_0_0) : View sig .tc _ _ _).write (Elt F) f w Finset.univ) i
      = if (i 0).val = 1 then w (ix3 (0 : Fin 1) (i 1) (i 2)) else f i := by
  refine (write_unit_apply (Elt F) cc0_scratch0 _ _ _ f w i).trans ?_
  by_cases h : (i 0).val = 1
  · rw [if_pos h, dif_pos (fun a => match a with
      | ⟨0, _⟩ => ⟨by show 1 ≤ (i 0).val; omega, by show (i 0).val < 1 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 1 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 1 ≤ (i 0).val := h0.1
      have h2 : (i 0).val < 1 + 1 := h0.2
      omega))]

omit [FloatOps F] in
theorem sM_ld_rS2 (f : (cc0_scratch0 : Ref sig .tc).ty.Contents (Elt F)) (j : S1x16x16.Idx) :
    (sM : Memref sig .tc .vmem S3x16x16 .f32).view.readAt (Elt F) (Rect.unit (s := S3x16x16) ![2, 0, 0] S1x16x16.size inb_S3x16x16_S1x16x16_2_0_0).toLoadRect f j
      = f (ix3 (2 : Fin 3) (j 1) (j 2)) :=
  (readAt_unit_apply (Elt F) cc0_scratch0 _ _ _ f j).trans (congrArg f (funext fun a => match a with
    | ⟨0, _⟩ => Fin.ext (by show 2 + (j 0).val = 2; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem sM_st_rS2 (f : (cc0_scratch0 : Ref sig .tc).ty.Contents (Elt F)) (w : S1x16x16.Idx → Elt F .f32) (i : S3x16x16.Idx) :
    (((sM : Memref sig .tc .vmem S3x16x16 .f32).access (Rect.unit (s := S3x16x16) ![2, 0, 0] S1x16x16.size inb_S3x16x16_S1x16x16_2_0_0) : View sig .tc _ _ _).write (Elt F) f w Finset.univ) i
      = if (i 0).val = 2 then w (ix3 (0 : Fin 1) (i 1) (i 2)) else f i := by
  refine (write_unit_apply (Elt F) cc0_scratch0 _ _ _ f w i).trans ?_
  by_cases h : (i 0).val = 2
  · rw [if_pos h, dif_pos (fun a => match a with
      | ⟨0, _⟩ => ⟨by show 2 ≤ (i 0).val; omega, by show (i 0).val < 2 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 2 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 2 ≤ (i 0).val := h0.1
      have h2 : (i 0).val < 2 + 1 := h0.2
      omega))]

/-! ### `rM` -/

omit [FloatOps F] in
theorem rM_ld_rS0 (f : (cc0_scratch1 : Ref sig .tc).ty.Contents (Elt F)) (j : S1x16x16.Idx) :
    (rM : Memref sig .tc .vmem S3x16x16 .f32).view.readAt (Elt F) (Rect.unit (s := S3x16x16) ![0, 0, 0] S1x16x16.size inb_S3x16x16_S1x16x16_0_0_0).toLoadRect f j
      = f (ix3 (0 : Fin 3) (j 1) (j 2)) :=
  (readAt_unit_apply (Elt F) cc0_scratch1 _ _ _ f j).trans (congrArg f (funext fun a => match a with
    | ⟨0, _⟩ => Fin.ext (by show 0 + (j 0).val = 0; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem rM_st_rS0 (f : (cc0_scratch1 : Ref sig .tc).ty.Contents (Elt F)) (w : S1x16x16.Idx → Elt F .f32) (i : S3x16x16.Idx) :
    (((rM : Memref sig .tc .vmem S3x16x16 .f32).access (Rect.unit (s := S3x16x16) ![0, 0, 0] S1x16x16.size inb_S3x16x16_S1x16x16_0_0_0) : View sig .tc _ _ _).write (Elt F) f w Finset.univ) i
      = if (i 0).val = 0 then w (ix3 (0 : Fin 1) (i 1) (i 2)) else f i := by
  refine (write_unit_apply (Elt F) cc0_scratch1 _ _ _ f w i).trans ?_
  by_cases h : (i 0).val = 0
  · rw [if_pos h, dif_pos (fun a => match a with
      | ⟨0, _⟩ => ⟨by show 0 ≤ (i 0).val; omega, by show (i 0).val < 0 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 0 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 0 ≤ (i 0).val := h0.1
      have h2 : (i 0).val < 0 + 1 := h0.2
      omega))]

omit [FloatOps F] in
theorem rM_ld_rS1 (f : (cc0_scratch1 : Ref sig .tc).ty.Contents (Elt F)) (j : S1x16x16.Idx) :
    (rM : Memref sig .tc .vmem S3x16x16 .f32).view.readAt (Elt F) (Rect.unit (s := S3x16x16) ![1, 0, 0] S1x16x16.size inb_S3x16x16_S1x16x16_1_0_0).toLoadRect f j
      = f (ix3 (1 : Fin 3) (j 1) (j 2)) :=
  (readAt_unit_apply (Elt F) cc0_scratch1 _ _ _ f j).trans (congrArg f (funext fun a => match a with
    | ⟨0, _⟩ => Fin.ext (by show 1 + (j 0).val = 1; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem rM_st_rS1 (f : (cc0_scratch1 : Ref sig .tc).ty.Contents (Elt F)) (w : S1x16x16.Idx → Elt F .f32) (i : S3x16x16.Idx) :
    (((rM : Memref sig .tc .vmem S3x16x16 .f32).access (Rect.unit (s := S3x16x16) ![1, 0, 0] S1x16x16.size inb_S3x16x16_S1x16x16_1_0_0) : View sig .tc _ _ _).write (Elt F) f w Finset.univ) i
      = if (i 0).val = 1 then w (ix3 (0 : Fin 1) (i 1) (i 2)) else f i := by
  refine (write_unit_apply (Elt F) cc0_scratch1 _ _ _ f w i).trans ?_
  by_cases h : (i 0).val = 1
  · rw [if_pos h, dif_pos (fun a => match a with
      | ⟨0, _⟩ => ⟨by show 1 ≤ (i 0).val; omega, by show (i 0).val < 1 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 1 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 1 ≤ (i 0).val := h0.1
      have h2 : (i 0).val < 1 + 1 := h0.2
      omega))]

omit [FloatOps F] in
theorem rM_ld_rS2 (f : (cc0_scratch1 : Ref sig .tc).ty.Contents (Elt F)) (j : S1x16x16.Idx) :
    (rM : Memref sig .tc .vmem S3x16x16 .f32).view.readAt (Elt F) (Rect.unit (s := S3x16x16) ![2, 0, 0] S1x16x16.size inb_S3x16x16_S1x16x16_2_0_0).toLoadRect f j
      = f (ix3 (2 : Fin 3) (j 1) (j 2)) :=
  (readAt_unit_apply (Elt F) cc0_scratch1 _ _ _ f j).trans (congrArg f (funext fun a => match a with
    | ⟨0, _⟩ => Fin.ext (by show 2 + (j 0).val = 2; have h : (j 0).val < 1 := (j 0).isLt; omega)
    | ⟨1, _⟩ => Fin.ext (by show 0 + (j 1).val = (j 1).val; omega)
    | ⟨2, _⟩ => Fin.ext (by show 0 + (j 2).val = (j 2).val; omega)))

omit [FloatOps F] in
theorem rM_st_rS2 (f : (cc0_scratch1 : Ref sig .tc).ty.Contents (Elt F)) (w : S1x16x16.Idx → Elt F .f32) (i : S3x16x16.Idx) :
    (((rM : Memref sig .tc .vmem S3x16x16 .f32).access (Rect.unit (s := S3x16x16) ![2, 0, 0] S1x16x16.size inb_S3x16x16_S1x16x16_2_0_0) : View sig .tc _ _ _).write (Elt F) f w Finset.univ) i
      = if (i 0).val = 2 then w (ix3 (0 : Fin 1) (i 1) (i 2)) else f i := by
  refine (write_unit_apply (Elt F) cc0_scratch1 _ _ _ f w i).trans ?_
  by_cases h : (i 0).val = 2
  · rw [if_pos h, dif_pos (fun a => match a with
      | ⟨0, _⟩ => ⟨by show 2 ≤ (i 0).val; omega, by show (i 0).val < 2 + 1; omega⟩
      | ⟨1, _⟩ => ⟨Nat.zero_le _, by show (i 1).val < 0 + 16; have h' : (i 1).val < 16 := (i 1).isLt; omega⟩
      | ⟨2, _⟩ => ⟨Nat.zero_le _, by show (i 2).val < 0 + 16; have h' : (i 2).val < 16 := (i 2).isLt; omega⟩)]
    exact congrArg w (funext fun a => match a with
      | ⟨0, _⟩ => Fin.ext (by show (i 0).val - 2 = 0; omega)
      | ⟨1, _⟩ => Fin.ext (by show (i 1).val - 0 = (i 1).val; omega)
      | ⟨2, _⟩ => Fin.ext (by show (i 2).val - 0 = (i 2).val; omega))
  · rw [if_neg h, dif_neg (fun hh => h (by
      have h0 := hh ⟨0, by decide⟩
      have h1 : 2 ≤ (i 0).val := h0.1
      have h2 : (i 0).val < 2 + 1 := h0.2
      omega))]

end Cert.KernelIdealProof

end
-- ==== Proof.Slots.lean ====
/-
The three slots of the outgoing and of the landing buffer: slot `a` is the plane `[a, :, :]` of a 3×16×16 buffer.
The slots' index sets partition the buffer's, so the whole buffer's points-to is the three slots' together; a slot's
points-to depends on the contents on that plane only; a transfer of slot `a` into slot `a` lands each element at
the same buffer index; and the kernel's six face stores leave the outgoing buffer holding the three faces.
-/
import proofs.«900804_g7700000000000805_dist_halo3d_v7x_xyz2x2x2_s16_bf16_1_alg».proof.Proof.Dats
import proofs.«900804_g7700000000000805_dist_halo3d_v7x_xyz2x2x2_s16_bf16_1_alg».proof.Proof.ViewIdx

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! ## Membership in a slot -/

/-- The plane `[k, :, :]` of a 3×16×16 shape: the indices whose first coordinate is `k`. -/
theorem mem_planeRect (k : Nat) (inb : ∀ a, (![k, 0, 0] : Fin 3 → Nat) a + S1x16x16.size a ≤ S3x16x16.size a)
    (i : S3x16x16.Idx) :
    i ∈ (Rect.unit (s := S3x16x16) ![k, 0, 0] S1x16x16.size inb).set ↔ (i 0).val = k := by
  rw [Rect.mem_set_unit]
  constructor
  · intro h
    have h0 := h ⟨0, by decide⟩
    have h1 : k ≤ (i 0).val := h0.1
    have h2 : (i 0).val < k + 1 := h0.2
    omega
  · intro h a
    match a with
    | ⟨0, _⟩ => exact ⟨by show k ≤ (i 0).val; omega, by show (i 0).val < k + 1; omega⟩
    | ⟨1, _⟩ => exact ⟨Nat.zero_le _, by show (i 1).val < 0 + 16; have h' : (i 1).val < 16 := (i 1).isLt; omega⟩
    | ⟨2, _⟩ => exact ⟨Nat.zero_le _, by show (i 2).val < 0 + 16; have h' : (i 2).val < 16 := (i 2).isLt; omega⟩

omit [FloatOps F] in
theorem mem_rSlot0 (i : S3x16x16.Idx) : i ∈ (rSlot 0 : Memref sig .tc .vmem S16x16 .f32).view.set ↔ (i 0).val = 0 := by
  have hs : (rSlot 0 : Memref sig .tc .vmem S16x16 .f32).view.set = (rS0 : Rect S3x16x16).set :=
    (View.set_reshape _ _).trans (View.set_slice_whole cc0_scratch1 rS0)
  rw [hs]; exact mem_planeRect 0 _ i

omit [FloatOps F] in
theorem mem_sSlot0 (i : S3x16x16.Idx) : i ∈ (sSlot 0 : Memref sig .tc .vmem S16x16 .f32).view.set ↔ (i 0).val = 0 := by
  have hs : (sSlot 0 : Memref sig .tc .vmem S16x16 .f32).view.set = (rS0 : Rect S3x16x16).set :=
    (View.set_reshape _ _).trans (View.set_slice_whole cc0_scratch0 rS0)
  rw [hs]; exact mem_planeRect 0 _ i

omit [FloatOps F] in
theorem mem_rSlot1 (i : S3x16x16.Idx) : i ∈ (rSlot 1 : Memref sig .tc .vmem S16x16 .f32).view.set ↔ (i 0).val = 1 := by
  have hs : (rSlot 1 : Memref sig .tc .vmem S16x16 .f32).view.set = (rS1 : Rect S3x16x16).set :=
    (View.set_reshape _ _).trans (View.set_slice_whole cc0_scratch1 rS1)
  rw [hs]; exact mem_planeRect 1 _ i

omit [FloatOps F] in
theorem mem_sSlot1 (i : S3x16x16.Idx) : i ∈ (sSlot 1 : Memref sig .tc .vmem S16x16 .f32).view.set ↔ (i 0).val = 1 := by
  have hs : (sSlot 1 : Memref sig .tc .vmem S16x16 .f32).view.set = (rS1 : Rect S3x16x16).set :=
    (View.set_reshape _ _).trans (View.set_slice_whole cc0_scratch0 rS1)
  rw [hs]; exact mem_planeRect 1 _ i

omit [FloatOps F] in
theorem mem_rSlot2 (i : S3x16x16.Idx) : i ∈ (rSlot 2 : Memref sig .tc .vmem S16x16 .f32).view.set ↔ (i 0).val = 2 := by
  have hs : (rSlot 2 : Memref sig .tc .vmem S16x16 .f32).view.set = (rS2 : Rect S3x16x16).set :=
    (View.set_reshape _ _).trans (View.set_slice_whole cc0_scratch1 rS2)
  rw [hs]; exact mem_planeRect 2 _ i

omit [FloatOps F] in
theorem mem_sSlot2 (i : S3x16x16.Idx) : i ∈ (sSlot 2 : Memref sig .tc .vmem S16x16 .f32).view.set ↔ (i 0).val = 2 := by
  have hs : (sSlot 2 : Memref sig .tc .vmem S16x16 .f32).view.set = (rS2 : Rect S3x16x16).set :=
    (View.set_reshape _ _).trans (View.set_slice_whole cc0_scratch0 rS2)
  rw [hs]; exact mem_planeRect 2 _ i

/-! ## The buffer's points-to is the three slots' -/

omit [FloatOps F] in
theorem r_split (c : Dev nD) (f : Buf (Elt F) ((c : Thread nD τ).loc cc0_scratch1)) :
    (((c : Thread nD τ).loc cc0_scratch1) ↦{fullShare} f : sProp 𝕄) ⊣⊢ iprop(rPts 0 c f ∗ rPts 1 c f ∗ rPts 2 c f) := by
  have hU : (Finset.univ : Finset (Idx ((c : Thread nD τ).loc cc0_scratch1)))
      = (rSlot 0 : Memref sig .tc .vmem S16x16 .f32).view.set
        ∪ ((rSlot 1 : Memref sig .tc .vmem S16x16 .f32).view.set ∪ (rSlot 2 : Memref sig .tc .vmem S16x16 .f32).view.set) := by
    ext i
    have hi : (i 0).val < 3 := (i 0).isLt
    simp only [Finset.mem_univ, Finset.mem_union, true_iff]
    rw [mem_rSlot0, mem_rSlot1, mem_rSlot2]
    omega
  have d12 : Disjoint (rSlot 1 : Memref sig .tc .vmem S16x16 .f32).view.set (rSlot 2 : Memref sig .tc .vmem S16x16 .f32).view.set :=
    Finset.disjoint_left.mpr fun i h1 h2 => by
      rw [mem_rSlot1] at h1; rw [mem_rSlot2] at h2; omega
  have d0 : Disjoint (rSlot 0 : Memref sig .tc .vmem S16x16 .f32).view.set
      ((rSlot 1 : Memref sig .tc .vmem S16x16 .f32).view.set ∪ (rSlot 2 : Memref sig .tc .vmem S16x16 .f32).view.set) :=
    Finset.disjoint_left.mpr fun i h0 h12 => by
      rw [mem_rSlot0] at h0
      rcases Finset.mem_union.mp h12 with h1 | h2
      · rw [mem_rSlot1] at h1; omega
      · rw [mem_rSlot2] at h2; omega
  have e0 : (((c : Thread nD τ).loc cc0_scratch1) ↦[(rSlot 0 : Memref sig .tc .vmem S16x16 .f32).view.set ∪ ((rSlot 1 : Memref sig .tc .vmem S16x16 .f32).view.set ∪ (rSlot 2 : Memref sig .tc .vmem S16x16 .f32).view.set)]{fullShare} f : sProp 𝕄)
      ⊣⊢ iprop((((c : Thread nD τ).loc cc0_scratch1) ↦[(rSlot 0 : Memref sig .tc .vmem S16x16 .f32).view.set]{fullShare} f) ∗ (((c : Thread nD τ).loc cc0_scratch1) ↦[(rSlot 1 : Memref sig .tc .vmem S16x16 .f32).view.set ∪ (rSlot 2 : Memref sig .tc .vmem S16x16 .f32).view.set]{fullShare} f)) :=
    Region.is_union d0
  have e1 : (((c : Thread nD τ).loc cc0_scratch1) ↦[(rSlot 1 : Memref sig .tc .vmem S16x16 .f32).view.set ∪ (rSlot 2 : Memref sig .tc .vmem S16x16 .f32).view.set]{fullShare} f : sProp 𝕄)
      ⊣⊢ iprop((((c : Thread nD τ).loc cc0_scratch1) ↦[(rSlot 1 : Memref sig .tc .vmem S16x16 .f32).view.set]{fullShare} f) ∗ (((c : Thread nD τ).loc cc0_scratch1) ↦[(rSlot 2 : Memref sig .tc .vmem S16x16 .f32).view.set]{fullShare} f)) :=
    Region.is_union d12
  rw [hU]
  exact e0.trans (sep_congr_right e1)

omit [FloatOps F] in
theorem s_split (c : Dev nD) (f : Buf (Elt F) ((c : Thread nD τ).loc cc0_scratch0)) :
    (((c : Thread nD τ).loc cc0_scratch0) ↦{fullShare} f : sProp 𝕄) ⊣⊢ iprop(sPts 0 c f ∗ sPts 1 c f ∗ sPts 2 c f) := by
  have hU : (Finset.univ : Finset (Idx ((c : Thread nD τ).loc cc0_scratch0)))
      = (sSlot 0 : Memref sig .tc .vmem S16x16 .f32).view.set
        ∪ ((sSlot 1 : Memref sig .tc .vmem S16x16 .f32).view.set ∪ (sSlot 2 : Memref sig .tc .vmem S16x16 .f32).view.set) := by
    ext i
    have hi : (i 0).val < 3 := (i 0).isLt
    simp only [Finset.mem_univ, Finset.mem_union, true_iff]
    rw [mem_sSlot0, mem_sSlot1, mem_sSlot2]
    omega
  have d12 : Disjoint (sSlot 1 : Memref sig .tc .vmem S16x16 .f32).view.set (sSlot 2 : Memref sig .tc .vmem S16x16 .f32).view.set :=
    Finset.disjoint_left.mpr fun i h1 h2 => by
      rw [mem_sSlot1] at h1; rw [mem_sSlot2] at h2; omega
  have d0 : Disjoint (sSlot 0 : Memref sig .tc .vmem S16x16 .f32).view.set
      ((sSlot 1 : Memref sig .tc .vmem S16x16 .f32).view.set ∪ (sSlot 2 : Memref sig .tc .vmem S16x16 .f32).view.set) :=
    Finset.disjoint_left.mpr fun i h0 h12 => by
      rw [mem_sSlot0] at h0
      rcases Finset.mem_union.mp h12 with h1 | h2
      · rw [mem_sSlot1] at h1; omega
      · rw [mem_sSlot2] at h2; omega
  have e0 : (((c : Thread nD τ).loc cc0_scratch0) ↦[(sSlot 0 : Memref sig .tc .vmem S16x16 .f32).view.set ∪ ((sSlot 1 : Memref sig .tc .vmem S16x16 .f32).view.set ∪ (sSlot 2 : Memref sig .tc .vmem S16x16 .f32).view.set)]{fullShare} f : sProp 𝕄)
      ⊣⊢ iprop((((c : Thread nD τ).loc cc0_scratch0) ↦[(sSlot 0 : Memref sig .tc .vmem S16x16 .f32).view.set]{fullShare} f) ∗ (((c : Thread nD τ).loc cc0_scratch0) ↦[(sSlot 1 : Memref sig .tc .vmem S16x16 .f32).view.set ∪ (sSlot 2 : Memref sig .tc .vmem S16x16 .f32).view.set]{fullShare} f)) :=
    Region.is_union d0
  have e1 : (((c : Thread nD τ).loc cc0_scratch0) ↦[(sSlot 1 : Memref sig .tc .vmem S16x16 .f32).view.set ∪ (sSlot 2 : Memref sig .tc .vmem S16x16 .f32).view.set]{fullShare} f : sProp 𝕄)
      ⊣⊢ iprop((((c : Thread nD τ).loc cc0_scratch0) ↦[(sSlot 1 : Memref sig .tc .vmem S16x16 .f32).view.set]{fullShare} f) ∗ (((c : Thread nD τ).loc cc0_scratch0) ↦[(sSlot 2 : Memref sig .tc .vmem S16x16 .f32).view.set]{fullShare} f)) :=
    Region.is_union d12
  rw [hU]
  exact e0.trans (sep_congr_right e1)

/-! ## A slot's points-to sees the contents on its plane only -/

omit [FloatOps F] in
theorem rPts_congr (a : Fin 3) (c : Dev nD) (f g : Buf (Elt F) ((c : Thread nD τ).loc cc0_scratch1))
    (h : ∀ i : S3x16x16.Idx, (i 0).val = a.val → f i = g i) : rPts (F := F) a c f = rPts a c g := by
  match a with
  | 0 => exact Region.is_congr fun i hi => h i ((mem_rSlot0 i).mp hi)
  | 1 => exact Region.is_congr fun i hi => h i ((mem_rSlot1 i).mp hi)
  | 2 => exact Region.is_congr fun i hi => h i ((mem_rSlot2 i).mp hi)

omit [FloatOps F] in
theorem sPts_congr (a : Fin 3) (c : Dev nD) (f g : Buf (Elt F) ((c : Thread nD τ).loc cc0_scratch0))
    (h : ∀ i : S3x16x16.Idx, (i 0).val = a.val → f i = g i) : sPts (F := F) a c f = sPts a c g := by
  match a with
  | 0 => exact Region.is_congr fun i hi => h i ((mem_sSlot0 i).mp hi)
  | 1 => exact Region.is_congr fun i hi => h i ((mem_sSlot1 i).mp hi)
  | 2 => exact Region.is_congr fun i hi => h i ((mem_sSlot2 i).mp hi)

/-! ## A transfer of slot `a` into slot `a` lands each element at the same buffer index -/

omit [FloatOps F] in
/-- Both slots sit on the plane `[0, :, :]` of buffers of one shape: what is read under an index of the source slot is
    written under the same index of the destination slot. -/
theorem landing_apply0 (c c' : Dev nD) (fd : Buf (Elt F) ((rSlot 0 : Memref sig .tc .vmem S16x16 .f32).view.loc (c' : Thread nD τ)))
    (fs : Buf (Elt F) ((sSlot 0 : Memref sig .tc .vmem S16x16 .f32).view.loc (c : Thread nD τ))) (i : S3x16x16.Idx) (hi : (i 0).val = 0) :
    ((rSlot 0 : Memref sig .tc .vmem S16x16 .f32).view.write (Elt F) fd ((sSlot 0 : Memref sig .tc .vmem S16x16 .f32).view.read (Elt F) fs) Finset.univ) i = fs i := by
  obtain ⟨x, rfl⟩ := View.exists_emb_of_mem_set _ ((mem_rSlot0 i).mpr hi)
  rw [View.write_emb_of_mem _ _ (Finset.mem_univ x)]
  rfl

omit [FloatOps F] in
/-- The transfer device `c` makes along axis 0 leaves, in slot 0 of its neighbour's landing buffer, what that neighbour is
    to receive there: the neighbour's neighbour along the axis is `c` again. -/
theorem landing0 (c : Dev nD) (fd : Buf (Elt F) ((rSlot 0 : Memref sig .tc .vmem S16x16 .f32).view.loc (nb 0 c : Thread nD τ)))
    (fs : Buf (Elt F) ((sSlot 0 : Memref sig .tc .vmem S16x16 .f32).view.loc (c : Thread nD τ)))
    (hfs : ∀ i : S3x16x16.Idx, (i 0).val = 0 → fs i = sendAll m ρ c i) :
    ((rSlot 0 : Memref sig .tc .vmem S16x16 .f32).view.loc (nb 0 c : Thread nD τ) ↦[(rSlot 0 : Memref sig .tc .vmem S16x16 .f32).view.set]{fullShare}
        ((rSlot 0 : Memref sig .tc .vmem S16x16 .f32).view.write (Elt F) fd ((sSlot 0 : Memref sig .tc .vmem S16x16 .f32).view.read (Elt F) fs) Finset.univ) : sProp 𝕄)
      ⊢ rPts 0 (nb 0 c) (recvAll m ρ (nb 0 c)) := by
  refine Entails.of_eq (Region.is_congr fun i hi => ?_)
  have h0 : (i 0).val = 0 := (mem_rSlot0 i).mp hi
  rw [landing_apply0 c (nb 0 c) fd fs i h0, hfs i h0]
  show sendAll m ρ c i = sendAll m ρ (nb ⟨(i 0).val, (i 0).isLt⟩ (nb 0 c)) i
  rw [show (⟨(i 0).val, (i 0).isLt⟩ : Fin 3) = 0 from Fin.ext h0, nb_nb]

omit [FloatOps F] in
/-- Both slots sit on the plane `[1, :, :]` of buffers of one shape: what is read under an index of the source slot is
    written under the same index of the destination slot. -/
theorem landing_apply1 (c c' : Dev nD) (fd : Buf (Elt F) ((rSlot 1 : Memref sig .tc .vmem S16x16 .f32).view.loc (c' : Thread nD τ)))
    (fs : Buf (Elt F) ((sSlot 1 : Memref sig .tc .vmem S16x16 .f32).view.loc (c : Thread nD τ))) (i : S3x16x16.Idx) (hi : (i 0).val = 1) :
    ((rSlot 1 : Memref sig .tc .vmem S16x16 .f32).view.write (Elt F) fd ((sSlot 1 : Memref sig .tc .vmem S16x16 .f32).view.read (Elt F) fs) Finset.univ) i = fs i := by
  obtain ⟨x, rfl⟩ := View.exists_emb_of_mem_set _ ((mem_rSlot1 i).mpr hi)
  rw [View.write_emb_of_mem _ _ (Finset.mem_univ x)]
  rfl

omit [FloatOps F] in
/-- The transfer device `c` makes along axis 1 leaves, in slot 1 of its neighbour's landing buffer, what that neighbour is
    to receive there: the neighbour's neighbour along the axis is `c` again. -/
theorem landing1 (c : Dev nD) (fd : Buf (Elt F) ((rSlot 1 : Memref sig .tc .vmem S16x16 .f32).view.loc (nb 1 c : Thread nD τ)))
    (fs : Buf (Elt F) ((sSlot 1 : Memref sig .tc .vmem S16x16 .f32).view.loc (c : Thread nD τ)))
    (hfs : ∀ i : S3x16x16.Idx, (i 0).val = 1 → fs i = sendAll m ρ c i) :
    ((rSlot 1 : Memref sig .tc .vmem S16x16 .f32).view.loc (nb 1 c : Thread nD τ) ↦[(rSlot 1 : Memref sig .tc .vmem S16x16 .f32).view.set]{fullShare}
        ((rSlot 1 : Memref sig .tc .vmem S16x16 .f32).view.write (Elt F) fd ((sSlot 1 : Memref sig .tc .vmem S16x16 .f32).view.read (Elt F) fs) Finset.univ) : sProp 𝕄)
      ⊢ rPts 1 (nb 1 c) (recvAll m ρ (nb 1 c)) := by
  refine Entails.of_eq (Region.is_congr fun i hi => ?_)
  have h0 : (i 0).val = 1 := (mem_rSlot1 i).mp hi
  rw [landing_apply1 c (nb 1 c) fd fs i h0, hfs i h0]
  show sendAll m ρ c i = sendAll m ρ (nb ⟨(i 0).val, (i 0).isLt⟩ (nb 1 c)) i
  rw [show (⟨(i 0).val, (i 0).isLt⟩ : Fin 3) = 1 from Fin.ext h0, nb_nb]

omit [FloatOps F] in
/-- Both slots sit on the plane `[2, :, :]` of buffers of one shape: what is read under an index of the source slot is
    written under the same index of the destination slot. -/
theorem landing_apply2 (c c' : Dev nD) (fd : Buf (Elt F) ((rSlot 2 : Memref sig .tc .vmem S16x16 .f32).view.loc (c' : Thread nD τ)))
    (fs : Buf (Elt F) ((sSlot 2 : Memref sig .tc .vmem S16x16 .f32).view.loc (c : Thread nD τ))) (i : S3x16x16.Idx) (hi : (i 0).val = 2) :
    ((rSlot 2 : Memref sig .tc .vmem S16x16 .f32).view.write (Elt F) fd ((sSlot 2 : Memref sig .tc .vmem S16x16 .f32).view.read (Elt F) fs) Finset.univ) i = fs i := by
  obtain ⟨x, rfl⟩ := View.exists_emb_of_mem_set _ ((mem_rSlot2 i).mpr hi)
  rw [View.write_emb_of_mem _ _ (Finset.mem_univ x)]
  rfl

omit [FloatOps F] in
/-- The transfer device `c` makes along axis 2 leaves, in slot 2 of its neighbour's landing buffer, what that neighbour is
    to receive there: the neighbour's neighbour along the axis is `c` again. -/
theorem landing2 (c : Dev nD) (fd : Buf (Elt F) ((rSlot 2 : Memref sig .tc .vmem S16x16 .f32).view.loc (nb 2 c : Thread nD τ)))
    (fs : Buf (Elt F) ((sSlot 2 : Memref sig .tc .vmem S16x16 .f32).view.loc (c : Thread nD τ)))
    (hfs : ∀ i : S3x16x16.Idx, (i 0).val = 2 → fs i = sendAll m ρ c i) :
    ((rSlot 2 : Memref sig .tc .vmem S16x16 .f32).view.loc (nb 2 c : Thread nD τ) ↦[(rSlot 2 : Memref sig .tc .vmem S16x16 .f32).view.set]{fullShare}
        ((rSlot 2 : Memref sig .tc .vmem S16x16 .f32).view.write (Elt F) fd ((sSlot 2 : Memref sig .tc .vmem S16x16 .f32).view.read (Elt F) fs) Finset.univ) : sProp 𝕄)
      ⊢ rPts 2 (nb 2 c) (recvAll m ρ (nb 2 c)) := by
  refine Entails.of_eq (Region.is_congr fun i hi => ?_)
  have h0 : (i 0).val = 2 := (mem_rSlot2 i).mp hi
  rw [landing_apply2 c (nb 2 c) fd fs i h0, hfs i h0]
  show sendAll m ρ c i = sendAll m ρ (nb ⟨(i 0).val, (i 0).isLt⟩ (nb 2 c)) i
  rw [show (⟨(i 0).val, (i 0).isLt⟩ : Fin 3) = 2 from Fin.ext h0, nb_nb]

/-! ## The faces the kernel stores

A plane of the block is loaded as a `[1,16,16]`, `[16,1,16]` or `[16,16,1]` vector, cast to `[16,16]` and back to
`[1,16,16]`; a shape cast keeps the row-major position, so entry `(u, p, q)` of the stored vector is entry `(p, q)` of
the plane. -/

omit [FloatOps F] in
theorem cast_1ab (v : S1x16x16.Idx → Elt F .f32) (u : Fin 1) (p q : Fin 16) :
    shapeCast S1x16x16 (shapeCast S16x16 v shapeCasts_S1x16x16_S16x16) shapeCasts_S16x16_S1x16x16 (ix3 u p q) = v (ix3 (0 : Fin 1) p q) :=
  (shapeCast_ab_1ab_apply _ _ u p q).trans (shapeCast_1ab_ab_apply v _ p q)

omit [FloatOps F] in
theorem cast_a1b (v : S16x1x16.Idx → Elt F .f32) (u : Fin 1) (p q : Fin 16) :
    shapeCast S1x16x16 (shapeCast S16x16 v shapeCasts_S16x1x16_S16x16) shapeCasts_S16x16_S1x16x16 (ix3 u p q) = v (ix3 p (0 : Fin 1) q) :=
  (shapeCast_ab_1ab_apply _ _ u p q).trans (shapeCast_apply v _ (ix2 p q) (ix3 p (0 : Fin 1) q) (by
    rw [Shape.rowMajor_val_three, Shape.rowMajor_val_two]
    show (p.val * 1 + 0) * 16 + q.val = p.val * 16 + q.val
    omega))

omit [FloatOps F] in
theorem cast_ab1 (v : S16x16x1.Idx → Elt F .f32) (u : Fin 1) (p q : Fin 16) :
    shapeCast S1x16x16 (shapeCast S16x16 v shapeCasts_S16x16x1_S16x16) shapeCasts_S16x16_S1x16x16 (ix3 u p q) = v (ix3 p q (0 : Fin 1)) :=
  (shapeCast_ab_1ab_apply _ _ u p q).trans (shapeCast_apply v _ (ix2 p q) (ix3 p q (0 : Fin 1)) (by
    rw [Shape.rowMajor_val_three, Shape.rowMajor_val_two]
    show (p.val * 16 + q.val) * 1 + 0 = p.val * 16 + q.val
    omega))

omit [FloatOps F] in
theorem facePos_lo (a : Fin 3) (c : Dev nD) (h : coord a c = 0) : facePos a c = 15 := if_pos h
omit [FloatOps F] in
theorem facePos_hi (a : Fin 3) (c : Dev nD) (h : coord a c = 1) : facePos a c = 0 := if_neg (by omega)

omit [FloatOps F] in
theorem sendAll_slot0 (c : Dev nD) (p q : Fin 16) : sendAll m ρ c (ix3 (0 : Fin 3) p q) = xblk m ρ c (ix3 (facePos 0 c) p q) := by
  show xblk m ρ c (planeIdx (0 : Fin 3) (facePos 0 c) p q) = _
  exact congrArg _ (funext fun a => match a with | ⟨0, _⟩ => rfl | ⟨1, _⟩ => rfl | ⟨2, _⟩ => rfl)
omit [FloatOps F] in
theorem sendAll_slot1 (c : Dev nD) (p q : Fin 16) : sendAll m ρ c (ix3 (1 : Fin 3) p q) = xblk m ρ c (ix3 p (facePos 1 c) q) := by
  show xblk m ρ c (planeIdx (1 : Fin 3) (facePos 1 c) p q) = _
  exact congrArg _ (funext fun a => match a with | ⟨0, _⟩ => rfl | ⟨1, _⟩ => rfl | ⟨2, _⟩ => rfl)
omit [FloatOps F] in
theorem sendAll_slot2 (c : Dev nD) (p q : Fin 16) : sendAll m ρ c (ix3 (2 : Fin 3) p q) = xblk m ρ c (ix3 p q (facePos 2 c)) := by
  show xblk m ρ c (planeIdx (2 : Fin 3) (facePos 2 c) p q) = _
  exact congrArg _ (funext fun a => match a with | ⟨0, _⟩ => rfl | ⟨1, _⟩ => rfl | ⟨2, _⟩ => rfl)

omit [FloatOps F] in
theorem pay1_apply (v : Vec F S1x16x16 .f32) (u : Fin 1) (p q : Fin 16) : k0_pay1 v (ix3 u p q) = v (ix3 (0 : Fin 1) p q) := cast_1ab v u p q

omit [FloatOps F] in
theorem face0_lo_at (c : Dev nD) (h : coord 0 c = 0) (u : Fin 1) (p q : Fin 16) :
    k0_pay1 ((xM : Memref sig .tc .vmem S16x16x16 .f32).view.readAt (Elt F) rX15.toLoadRect (xblk m ρ c)) (ix3 u p q)
      = sendAll m ρ c (ix3 (0 : Fin 3) p q) := by
  refine (pay1_apply _ u p q).trans ?_
  refine (xM_ld_rX15 (xblk m ρ c) (ix3 (0 : Fin 1) p q)).trans ?_
  refine Eq.trans ?_ (sendAll_slot0 m ρ c p q).symm
  rw [facePos_lo 0 c h]

omit [FloatOps F] in
theorem face0_lo (c : Dev nD) (h : coord 0 c = 0) (j : S1x16x16.Idx) :
    k0_pay1 ((xM : Memref sig .tc .vmem S16x16x16 .f32).view.readAt (Elt F) rX15.toLoadRect (xblk m ρ c)) j
      = sendAll m ρ c (ix3 (0 : Fin 3) (j 1) (j 2)) := by
  have e := eq_ix3 j
  have := face0_lo_at m ρ c h (j 0) (j 1) (j 2)
  conv_lhs => rw [e]
  exact this

omit [FloatOps F] in
theorem pay2_apply (v : Vec F S1x16x16 .f32) (u : Fin 1) (p q : Fin 16) : k0_pay2 v (ix3 u p q) = v (ix3 (0 : Fin 1) p q) := cast_1ab v u p q

omit [FloatOps F] in
theorem face0_hi_at (c : Dev nD) (h : coord 0 c = 1) (u : Fin 1) (p q : Fin 16) :
    k0_pay2 ((xM : Memref sig .tc .vmem S16x16x16 .f32).view.readAt (Elt F) rX0.toLoadRect (xblk m ρ c)) (ix3 u p q)
      = sendAll m ρ c (ix3 (0 : Fin 3) p q) := by
  refine (pay2_apply _ u p q).trans ?_
  refine (xM_ld_rX0 (xblk m ρ c) (ix3 (0 : Fin 1) p q)).trans ?_
  refine Eq.trans ?_ (sendAll_slot0 m ρ c p q).symm
  rw [facePos_hi 0 c h]

omit [FloatOps F] in
theorem face0_hi (c : Dev nD) (h : coord 0 c = 1) (j : S1x16x16.Idx) :
    k0_pay2 ((xM : Memref sig .tc .vmem S16x16x16 .f32).view.readAt (Elt F) rX0.toLoadRect (xblk m ρ c)) j
      = sendAll m ρ c (ix3 (0 : Fin 3) (j 1) (j 2)) := by
  have e := eq_ix3 j
  have := face0_hi_at m ρ c h (j 0) (j 1) (j 2)
  conv_lhs => rw [e]
  exact this

omit [FloatOps F] in
theorem pay3_apply (v : Vec F S16x1x16 .f32) (u : Fin 1) (p q : Fin 16) : k0_pay3 v (ix3 u p q) = v (ix3 p (0 : Fin 1) q) := cast_a1b v u p q

omit [FloatOps F] in
theorem face1_lo_at (c : Dev nD) (h : coord 1 c = 0) (u : Fin 1) (p q : Fin 16) :
    k0_pay3 ((xM : Memref sig .tc .vmem S16x16x16 .f32).view.readAt (Elt F) rY15.toLoadRect (xblk m ρ c)) (ix3 u p q)
      = sendAll m ρ c (ix3 (1 : Fin 3) p q) := by
  refine (pay3_apply _ u p q).trans ?_
  refine (xM_ld_rY15 (xblk m ρ c) (ix3 p (0 : Fin 1) q)).trans ?_
  refine Eq.trans ?_ (sendAll_slot1 m ρ c p q).symm
  rw [facePos_lo 1 c h]

omit [FloatOps F] in
theorem face1_lo (c : Dev nD) (h : coord 1 c = 0) (j : S1x16x16.Idx) :
    k0_pay3 ((xM : Memref sig .tc .vmem S16x16x16 .f32).view.readAt (Elt F) rY15.toLoadRect (xblk m ρ c)) j
      = sendAll m ρ c (ix3 (1 : Fin 3) (j 1) (j 2)) := by
  have e := eq_ix3 j
  have := face1_lo_at m ρ c h (j 0) (j 1) (j 2)
  conv_lhs => rw [e]
  exact this

omit [FloatOps F] in
theorem pay4_apply (v : Vec F S16x1x16 .f32) (u : Fin 1) (p q : Fin 16) : k0_pay4 v (ix3 u p q) = v (ix3 p (0 : Fin 1) q) := cast_a1b v u p q

omit [FloatOps F] in
theorem face1_hi_at (c : Dev nD) (h : coord 1 c = 1) (u : Fin 1) (p q : Fin 16) :
    k0_pay4 ((xM : Memref sig .tc .vmem S16x16x16 .f32).view.readAt (Elt F) rY0.toLoadRect (xblk m ρ c)) (ix3 u p q)
      = sendAll m ρ c (ix3 (1 : Fin 3) p q) := by
  refine (pay4_apply _ u p q).trans ?_
  refine (xM_ld_rY0 (xblk m ρ c) (ix3 p (0 : Fin 1) q)).trans ?_
  refine Eq.trans ?_ (sendAll_slot1 m ρ c p q).symm
  rw [facePos_hi 1 c h]

omit [FloatOps F] in
theorem face1_hi (c : Dev nD) (h : coord 1 c = 1) (j : S1x16x16.Idx) :
    k0_pay4 ((xM : Memref sig .tc .vmem S16x16x16 .f32).view.readAt (Elt F) rY0.toLoadRect (xblk m ρ c)) j
      = sendAll m ρ c (ix3 (1 : Fin 3) (j 1) (j 2)) := by
  have e := eq_ix3 j
  have := face1_hi_at m ρ c h (j 0) (j 1) (j 2)
  conv_lhs => rw [e]
  exact this

omit [FloatOps F] in
theorem pay5_apply (v : Vec F S16x16x1 .f32) (u : Fin 1) (p q : Fin 16) : k0_pay5 v (ix3 u p q) = v (ix3 p q (0 : Fin 1)) := cast_ab1 v u p q

omit [FloatOps F] in
theorem face2_lo_at (c : Dev nD) (h : coord 2 c = 0) (u : Fin 1) (p q : Fin 16) :
    k0_pay5 ((xM : Memref sig .tc .vmem S16x16x16 .f32).view.readAt (Elt F) rZ15.toLoadRect (xblk m ρ c)) (ix3 u p q)
      = sendAll m ρ c (ix3 (2 : Fin 3) p q) := by
  refine (pay5_apply _ u p q).trans ?_
  refine (xM_ld_rZ15 (xblk m ρ c) (ix3 p q (0 : Fin 1))).trans ?_
  refine Eq.trans ?_ (sendAll_slot2 m ρ c p q).symm
  rw [facePos_lo 2 c h]

omit [FloatOps F] in
theorem face2_lo (c : Dev nD) (h : coord 2 c = 0) (j : S1x16x16.Idx) :
    k0_pay5 ((xM : Memref sig .tc .vmem S16x16x16 .f32).view.readAt (Elt F) rZ15.toLoadRect (xblk m ρ c)) j
      = sendAll m ρ c (ix3 (2 : Fin 3) (j 1) (j 2)) := by
  have e := eq_ix3 j
  have := face2_lo_at m ρ c h (j 0) (j 1) (j 2)
  conv_lhs => rw [e]
  exact this

omit [FloatOps F] in
theorem pay6_apply (v : Vec F S16x16x1 .f32) (u : Fin 1) (p q : Fin 16) : k0_pay6 v (ix3 u p q) = v (ix3 p q (0 : Fin 1)) := cast_ab1 v u p q

omit [FloatOps F] in
theorem face2_hi_at (c : Dev nD) (h : coord 2 c = 1) (u : Fin 1) (p q : Fin 16) :
    k0_pay6 ((xM : Memref sig .tc .vmem S16x16x16 .f32).view.readAt (Elt F) rZ0.toLoadRect (xblk m ρ c)) (ix3 u p q)
      = sendAll m ρ c (ix3 (2 : Fin 3) p q) := by
  refine (pay6_apply _ u p q).trans ?_
  refine (xM_ld_rZ0 (xblk m ρ c) (ix3 p q (0 : Fin 1))).trans ?_
  refine Eq.trans ?_ (sendAll_slot2 m ρ c p q).symm
  rw [facePos_hi 2 c h]

omit [FloatOps F] in
theorem face2_hi (c : Dev nD) (h : coord 2 c = 1) (j : S1x16x16.Idx) :
    k0_pay6 ((xM : Memref sig .tc .vmem S16x16x16 .f32).view.readAt (Elt F) rZ0.toLoadRect (xblk m ρ c)) j
      = sendAll m ρ c (ix3 (2 : Fin 3) (j 1) (j 2)) := by
  have e := eq_ix3 j
  have := face2_hi_at m ρ c h (j 0) (j 1) (j 2)
  conv_lhs => rw [e]
  exact this

/-! ## After the three stores the outgoing buffer holds the three faces -/

omit [FloatOps F] in
theorem sendAll_of_stores (c : Dev nD) (f : (cc0_scratch0 : Ref sig .tc).ty.Contents (Elt F)) (w0 w1 w2 : S1x16x16.Idx → Elt F .f32)
    (h0 : ∀ j, w0 j = sendAll m ρ c (ix3 (0 : Fin 3) (j 1) (j 2)))
    (h1 : ∀ j, w1 j = sendAll m ρ c (ix3 (1 : Fin 3) (j 1) (j 2)))
    (h2 : ∀ j, w2 j = sendAll m ρ c (ix3 (2 : Fin 3) (j 1) (j 2))) :
    (sM : Memref sig .tc .vmem S3x16x16 .f32).view.writes (Elt F) f [⟨rS2, w2⟩, ⟨rS1, w1⟩, ⟨rS0, w0⟩] = sendAll m ρ c := by
  funext i
  show (((sM : Memref sig .tc .vmem S3x16x16 .f32).access rS2 : View sig .tc _ _ _).write (Elt F)
      ((((sM : Memref sig .tc .vmem S3x16x16 .f32).access rS1 : View sig .tc _ _ _).write (Elt F)
        ((((sM : Memref sig .tc .vmem S3x16x16 .f32).access rS0 : View sig .tc _ _ _).write (Elt F) f w0 Finset.univ)) w1 Finset.univ)) w2 Finset.univ) i = _
  rw [sM_st_rS2, sM_st_rS1, sM_st_rS0]
  have hi : (i 0).val < 3 := (i 0).isLt
  have e : ∀ a : Fin 3, (i 0).val = a.val → (ix3 a (i 1) (i 2) : S3x16x16.Idx) = i := fun a ha => by
    funext d
    match d with
    | ⟨0, _⟩ => exact Fin.ext ha.symm
    | ⟨1, _⟩ => rfl
    | ⟨2, _⟩ => rfl
  by_cases c2 : (i 0).val = 2
  · rw [if_pos c2, h2]; exact congrArg _ (e 2 c2)
  · rw [if_neg c2]
    by_cases c1 : (i 0).val = 1
    · rw [if_pos c1, h1]; exact congrArg _ (e 1 c1)
    · have c0 : (i 0).val = 0 := by omega
      rw [if_neg c1, if_pos c0, h0]; exact congrArg _ (e 0 c0)

/-! ## The splits spelt through the slots' own views, and through the whole memref's view; the join -/

omit [FloatOps F] in
theorem r_split' (c : Dev nD) (f : Buf (Elt F) ((c : Thread nD τ).loc cc0_scratch1)) :
    (((c : Thread nD τ).loc cc0_scratch1) ↦{fullShare} f : sProp 𝕄) ⊣⊢
      iprop(((rSlot 0 : Memref sig .tc .vmem S16x16 .f32).view.loc (c : Thread nD τ) ↦[(rSlot 0 : Memref sig .tc .vmem S16x16 .f32).view.set]{fullShare} f)
        ∗ ((rSlot 1 : Memref sig .tc .vmem S16x16 .f32).view.loc (c : Thread nD τ) ↦[(rSlot 1 : Memref sig .tc .vmem S16x16 .f32).view.set]{fullShare} f)
        ∗ ((rSlot 2 : Memref sig .tc .vmem S16x16 .f32).view.loc (c : Thread nD τ) ↦[(rSlot 2 : Memref sig .tc .vmem S16x16 .f32).view.set]{fullShare} f)) := r_split c f

omit [FloatOps F] in
theorem rM_set : (rM : Memref sig .tc .vmem S3x16x16 .f32).view.set = Finset.univ := View.set_whole _

omit [FloatOps F] in
theorem r_splitM (c : Dev nD) (f : Buf (Elt F) ((c : Thread nD τ).loc cc0_scratch1)) :
    ((rM : Memref sig .tc .vmem S3x16x16 .f32).view.loc (c : Thread nD τ) ↦[(rM : Memref sig .tc .vmem S3x16x16 .f32).view.set]{fullShare} f : sProp 𝕄) ⊣⊢ iprop(rPts 0 c f ∗ rPts 1 c f ∗ rPts 2 c f) := by
  rw [rM_set]; exact r_split c f

omit [FloatOps F] in
theorem r_splitM' (c : Dev nD) (f : Buf (Elt F) ((c : Thread nD τ).loc cc0_scratch1)) :
    ((rM : Memref sig .tc .vmem S3x16x16 .f32).view.loc (c : Thread nD τ) ↦[(rM : Memref sig .tc .vmem S3x16x16 .f32).view.set]{fullShare} f : sProp 𝕄) ⊣⊢
      iprop(((rSlot 0 : Memref sig .tc .vmem S16x16 .f32).view.loc (c : Thread nD τ) ↦[(rSlot 0 : Memref sig .tc .vmem S16x16 .f32).view.set]{fullShare} f)
        ∗ ((rSlot 1 : Memref sig .tc .vmem S16x16 .f32).view.loc (c : Thread nD τ) ↦[(rSlot 1 : Memref sig .tc .vmem S16x16 .f32).view.set]{fullShare} f)
        ∗ ((rSlot 2 : Memref sig .tc .vmem S16x16 .f32).view.loc (c : Thread nD τ) ↦[(rSlot 2 : Memref sig .tc .vmem S16x16 .f32).view.set]{fullShare} f)) := r_splitM c f

omit [FloatOps F] in
/-- Three slots at three different contents are the whole buffer at the contents pieced together plane by plane. -/
theorem r_join (c : Dev nD) (f0 f1 f2 : Buf (Elt F) ((c : Thread nD τ).loc cc0_scratch1)) :
    iprop(rPts 0 c f0 ∗ rPts 1 c f1 ∗ rPts 2 c f2) ⊢ (∃ f, ((c : Thread nD τ).loc cc0_scratch1) ↦{fullShare} f : sProp 𝕄) := by
  let g : Buf (Elt F) ((c : Thread nD τ).loc cc0_scratch1) :=
    fun i : S3x16x16.Idx => if (i 0).val = 0 then f0 i else if (i 0).val = 1 then f1 i else f2 i
  have g0 : rPts (F := F) 0 c f0 = rPts 0 c g := rPts_congr 0 c f0 g fun i hi => by
    have hi' : (i 0).val = 0 := hi
    show f0 i = if (i 0).val = 0 then f0 i else if (i 0).val = 1 then f1 i else f2 i
    rw [if_pos hi']
  have g1 : rPts (F := F) 1 c f1 = rPts 1 c g := rPts_congr 1 c f1 g fun i hi => by
    have hi' : (i 0).val = 1 := hi
    show f1 i = if (i 0).val = 0 then f0 i else if (i 0).val = 1 then f1 i else f2 i
    rw [if_neg (by omega), if_pos hi']
  have g2 : rPts (F := F) 2 c f2 = rPts 2 c g := rPts_congr 2 c f2 g fun i hi => by
    have hi' : (i 0).val = 2 := hi
    show f2 i = if (i 0).val = 0 then f0 i else if (i 0).val = 1 then f1 i else f2 i
    rw [if_neg (by omega), if_neg (by omega)]
  rw [g0, g1, g2]
  exact (r_split c g).mpr.trans (exists_intro (Φ := fun f => (((c : Thread nD τ).loc cc0_scratch1) ↦{fullShare} f : sProp 𝕄)) g)

omit [FloatOps F] in
theorem s_split' (c : Dev nD) (f : Buf (Elt F) ((c : Thread nD τ).loc cc0_scratch0)) :
    (((c : Thread nD τ).loc cc0_scratch0) ↦{fullShare} f : sProp 𝕄) ⊣⊢
      iprop(((sSlot 0 : Memref sig .tc .vmem S16x16 .f32).view.loc (c : Thread nD τ) ↦[(sSlot 0 : Memref sig .tc .vmem S16x16 .f32).view.set]{fullShare} f)
        ∗ ((sSlot 1 : Memref sig .tc .vmem S16x16 .f32).view.loc (c : Thread nD τ) ↦[(sSlot 1 : Memref sig .tc .vmem S16x16 .f32).view.set]{fullShare} f)
        ∗ ((sSlot 2 : Memref sig .tc .vmem S16x16 .f32).view.loc (c : Thread nD τ) ↦[(sSlot 2 : Memref sig .tc .vmem S16x16 .f32).view.set]{fullShare} f)) := s_split c f

omit [FloatOps F] in
theorem sM_set : (sM : Memref sig .tc .vmem S3x16x16 .f32).view.set = Finset.univ := View.set_whole _

omit [FloatOps F] in
theorem s_splitM (c : Dev nD) (f : Buf (Elt F) ((c : Thread nD τ).loc cc0_scratch0)) :
    ((sM : Memref sig .tc .vmem S3x16x16 .f32).view.loc (c : Thread nD τ) ↦[(sM : Memref sig .tc .vmem S3x16x16 .f32).view.set]{fullShare} f : sProp 𝕄) ⊣⊢ iprop(sPts 0 c f ∗ sPts 1 c f ∗ sPts 2 c f) := by
  rw [sM_set]; exact s_split c f

omit [FloatOps F] in
theorem s_splitM' (c : Dev nD) (f : Buf (Elt F) ((c : Thread nD τ).loc cc0_scratch0)) :
    ((sM : Memref sig .tc .vmem S3x16x16 .f32).view.loc (c : Thread nD τ) ↦[(sM : Memref sig .tc .vmem S3x16x16 .f32).view.set]{fullShare} f : sProp 𝕄) ⊣⊢
      iprop(((sSlot 0 : Memref sig .tc .vmem S16x16 .f32).view.loc (c : Thread nD τ) ↦[(sSlot 0 : Memref sig .tc .vmem S16x16 .f32).view.set]{fullShare} f)
        ∗ ((sSlot 1 : Memref sig .tc .vmem S16x16 .f32).view.loc (c : Thread nD τ) ↦[(sSlot 1 : Memref sig .tc .vmem S16x16 .f32).view.set]{fullShare} f)
        ∗ ((sSlot 2 : Memref sig .tc .vmem S16x16 .f32).view.loc (c : Thread nD τ) ↦[(sSlot 2 : Memref sig .tc .vmem S16x16 .f32).view.set]{fullShare} f)) := s_splitM c f

omit [FloatOps F] in
/-- Three slots at three different contents are the whole buffer at the contents pieced together plane by plane. -/
theorem s_join (c : Dev nD) (f0 f1 f2 : Buf (Elt F) ((c : Thread nD τ).loc cc0_scratch0)) :
    iprop(sPts 0 c f0 ∗ sPts 1 c f1 ∗ sPts 2 c f2) ⊢ (∃ f, ((c : Thread nD τ).loc cc0_scratch0) ↦{fullShare} f : sProp 𝕄) := by
  let g : Buf (Elt F) ((c : Thread nD τ).loc cc0_scratch0) :=
    fun i : S3x16x16.Idx => if (i 0).val = 0 then f0 i else if (i 0).val = 1 then f1 i else f2 i
  have g0 : sPts (F := F) 0 c f0 = sPts 0 c g := sPts_congr 0 c f0 g fun i hi => by
    have hi' : (i 0).val = 0 := hi
    show f0 i = if (i 0).val = 0 then f0 i else if (i 0).val = 1 then f1 i else f2 i
    rw [if_pos hi']
  have g1 : sPts (F := F) 1 c f1 = sPts 1 c g := sPts_congr 1 c f1 g fun i hi => by
    have hi' : (i 0).val = 1 := hi
    show f1 i = if (i 0).val = 0 then f0 i else if (i 0).val = 1 then f1 i else f2 i
    rw [if_neg (by omega), if_pos hi']
  have g2 : sPts (F := F) 2 c f2 = sPts 2 c g := sPts_congr 2 c f2 g fun i hi => by
    have hi' : (i 0).val = 2 := hi
    show f2 i = if (i 0).val = 0 then f0 i else if (i 0).val = 1 then f1 i else f2 i
    rw [if_neg (by omega), if_neg (by omega)]
  rw [g0, g1, g2]
  exact (s_split c g).mpr.trans (exists_intro (Φ := fun f => (((c : Thread nD τ).loc cc0_scratch0) ↦{fullShare} f : sProp 𝕄)) g)

/-! ## A load of slot `a` through the whole landing buffer touches slot `a` only -/

omit [FloatOps F] in
theorem rS0_sub : (rM : Memref sig .tc .vmem S3x16x16 .f32).view.setOn (rS0.toLoadRect).set ⊆ (rSlot 0 : Memref sig .tc .vmem S16x16 .f32).view.set := by
  intro i hi
  obtain ⟨y, hy, rfl⟩ := Finset.mem_map.mp hi
  exact (mem_rSlot0 _).mpr ((mem_planeRect 0 _ y).mp hy)

omit [FloatOps F] in
theorem rS1_sub : (rM : Memref sig .tc .vmem S3x16x16 .f32).view.setOn (rS1.toLoadRect).set ⊆ (rSlot 1 : Memref sig .tc .vmem S16x16 .f32).view.set := by
  intro i hi
  obtain ⟨y, hy, rfl⟩ := Finset.mem_map.mp hi
  exact (mem_rSlot1 _).mpr ((mem_planeRect 1 _ y).mp hy)

omit [FloatOps F] in
theorem rS2_sub : (rM : Memref sig .tc .vmem S3x16x16 .f32).view.setOn (rS2.toLoadRect).set ⊆ (rSlot 2 : Memref sig .tc .vmem S16x16 .f32).view.set := by
  intro i hi
  obtain ⟨y, hy, rfl⟩ := Finset.mem_map.mp hi
  exact (mem_rSlot2 _).mpr ((mem_planeRect 2 _ y).mp hy)

/-! ## The splits with the whole buffer spelt through its memref's view and the slots through theirs; the join of three slots so spelt -/

omit [FloatOps F] in
theorem r_splitV (c : Dev nD) (f : Buf (Elt F) ((c : Thread nD τ).loc cc0_scratch1)) :
    ((rM : Memref sig .tc .vmem S3x16x16 .f32).view.loc (c : Thread nD τ) ↦[(rM : Memref sig .tc .vmem S3x16x16 .f32).view.set]{fullShare} f : sProp 𝕄) ⊣⊢
      iprop(((rSlot 0 : Memref sig .tc .vmem S16x16 .f32).view.loc (c : Thread nD τ) ↦[(rSlot 0 : Memref sig .tc .vmem S16x16 .f32).view.set]{fullShare} f)
        ∗ ((rSlot 1 : Memref sig .tc .vmem S16x16 .f32).view.loc (c : Thread nD τ) ↦[(rSlot 1 : Memref sig .tc .vmem S16x16 .f32).view.set]{fullShare} f)
        ∗ ((rSlot 2 : Memref sig .tc .vmem S16x16 .f32).view.loc (c : Thread nD τ) ↦[(rSlot 2 : Memref sig .tc .vmem S16x16 .f32).view.set]{fullShare} f)) := r_splitM c f

omit [FloatOps F] in
theorem r_join' (c : Dev nD) (f0 f1 f2 : Buf (Elt F) ((c : Thread nD τ).loc cc0_scratch1)) :
    iprop(((rSlot 0 : Memref sig .tc .vmem S16x16 .f32).view.loc (c : Thread nD τ) ↦[(rSlot 0 : Memref sig .tc .vmem S16x16 .f32).view.set]{fullShare} f0)
        ∗ ((rSlot 1 : Memref sig .tc .vmem S16x16 .f32).view.loc (c : Thread nD τ) ↦[(rSlot 1 : Memref sig .tc .vmem S16x16 .f32).view.set]{fullShare} f1)
        ∗ ((rSlot 2 : Memref sig .tc .vmem S16x16 .f32).view.loc (c : Thread nD τ) ↦[(rSlot 2 : Memref sig .tc .vmem S16x16 .f32).view.set]{fullShare} f2))
      ⊢ (∃ f, ((c : Thread nD τ).loc cc0_scratch1) ↦{fullShare} f : sProp 𝕄) := r_join c f0 f1 f2

omit [FloatOps F] in
theorem s_splitV (c : Dev nD) (f : Buf (Elt F) ((c : Thread nD τ).loc cc0_scratch0)) :
    ((sM : Memref sig .tc .vmem S3x16x16 .f32).view.loc (c : Thread nD τ) ↦[(sM : Memref sig .tc .vmem S3x16x16 .f32).view.set]{fullShare} f : sProp 𝕄) ⊣⊢
      iprop(((sSlot 0 : Memref sig .tc .vmem S16x16 .f32).view.loc (c : Thread nD τ) ↦[(sSlot 0 : Memref sig .tc .vmem S16x16 .f32).view.set]{fullShare} f)
        ∗ ((sSlot 1 : Memref sig .tc .vmem S16x16 .f32).view.loc (c : Thread nD τ) ↦[(sSlot 1 : Memref sig .tc .vmem S16x16 .f32).view.set]{fullShare} f)
        ∗ ((sSlot 2 : Memref sig .tc .vmem S16x16 .f32).view.loc (c : Thread nD τ) ↦[(sSlot 2 : Memref sig .tc .vmem S16x16 .f32).view.set]{fullShare} f)) := s_splitM c f

omit [FloatOps F] in
theorem s_join' (c : Dev nD) (f0 f1 f2 : Buf (Elt F) ((c : Thread nD τ).loc cc0_scratch0)) :
    iprop(((sSlot 0 : Memref sig .tc .vmem S16x16 .f32).view.loc (c : Thread nD τ) ↦[(sSlot 0 : Memref sig .tc .vmem S16x16 .f32).view.set]{fullShare} f0)
        ∗ ((sSlot 1 : Memref sig .tc .vmem S16x16 .f32).view.loc (c : Thread nD τ) ↦[(sSlot 1 : Memref sig .tc .vmem S16x16 .f32).view.set]{fullShare} f1)
        ∗ ((sSlot 2 : Memref sig .tc .vmem S16x16 .f32).view.loc (c : Thread nD τ) ↦[(sSlot 2 : Memref sig .tc .vmem S16x16 .f32).view.set]{fullShare} f2))
      ⊢ (∃ f, ((c : Thread nD τ).loc cc0_scratch0) ↦{fullShare} f : sProp 𝕄) := s_join c f0 f1 f2

end Cert.KernelIdealProof

end
-- ==== Proof.BodyPre.lean ====
/-
What one device's body starts from, and the rules of its protocol steps at a symbolic device: the three barrier
signals' payloads with the neighbour relation resolved (the neighbour of my neighbour along an axis is me), the three
transfers (the face in slot a of the outgoing buffer lands in slot a of the neighbour's landing buffer), and the
closed form of the output buffer after the local stencil and the three plane updates.
-/
import proofs.«900804_g7700000000000805_dist_halo3d_v7x_xyz2x2x2_s16_bf16_1_alg».proof.Proof.Dats
import proofs.«900804_g7700000000000805_dist_halo3d_v7x_xyz2x2x2_s16_bf16_1_alg».proof.Proof.Levels
import proofs.«900804_g7700000000000805_dist_halo3d_v7x_xyz2x2x2_s16_bf16_1_alg».proof.Proof.Slots
import Idealize.ShloMosaic.Lib.Tactic

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- What the body starts from at the one grid point, at names `K` for the cells' invariants. -/
def bodyPre (K : Dev nD × Fin 7 → ℕ) (c : Dev nD) : sProp 𝕄 :=
  iprop((ghost m ρ K c ∗ creds c ∗ levAts L lv ∗ scratches c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

omit [FloatOps F] in
theorem hz3 : (![0, 0, 0] : Fin 3 → Nat) = fun _ => 0 := funext fun a => by fin_cases a <;> rfl
omit [FloatOps F] in
/-- A store through the whole block leaves its payload. -/
theorem oM_wfull (f w : (cc0_stg1_0 : Ref sig .tc).ty.Contents (Elt F)) :
    ((oM : Memref sig .tc .vmem S16x16x16 .f32).view.slice rFull).write (Elt F) f w Finset.univ = w :=
  Memref.write_access_unit_zero_univ (Elt F) cc0_stg1_0 hz3 _ f w
omit [FloatOps F] in
/-- A load through the whole block reads the contents. -/
theorem xM_rfull (x : (cc0_stg0_0 : Ref sig .tc).ty.Contents (Elt F)) :
    (xM : Memref sig .tc .vmem S16x16x16 .f32).view.readAt (Elt F) rFull.toLoadRect x = x :=
  Memref.readAt_unit_zero (Elt F) cc0_stg0_0 hz3 _ x

omit [FloatOps F] in
theorem sep3_intro {A B C : sProp 𝕄} : (BI.sep A (BI.sep B C) : sProp 𝕄) ⊢ iprop(A ∗ B ∗ C) := .rfl

omit [FloatOps F] in
theorem xM_pts (c : Dev nD) (f) : ((xM : Memref sig .tc .vmem S16x16x16 .f32).view.loc (c : Thread nD τ) ↦[(xM : Memref sig .tc .vmem S16x16x16 .f32).view.set]{fullShare} f : sProp 𝕄) = (((c : Thread nD τ).loc cc0_stg0_0) ↦{fullShare} f) := by rw [View.set_whole]
omit [FloatOps F] in
theorem oM_pts (c : Dev nD) (f) : ((oM : Memref sig .tc .vmem S16x16x16 .f32).view.loc (c : Thread nD τ) ↦[(oM : Memref sig .tc .vmem S16x16x16 .f32).view.set]{fullShare} f : sProp 𝕄) = (((c : Thread nD τ).loc cc0_stg1_0) ↦{fullShare} f) := by rw [View.set_whole]
omit [FloatOps F] in
theorem sM_pts (c : Dev nD) (f) : ((sM : Memref sig .tc .vmem S3x16x16 .f32).view.loc (c : Thread nD τ) ↦[(sM : Memref sig .tc .vmem S3x16x16 .f32).view.set]{fullShare} f : sProp 𝕄) = (((c : Thread nD τ).loc cc0_scratch0) ↦{fullShare} f) := by rw [View.set_whole]

/-! ## The barrier signals: what duty `a` of the neighbour's barrier cell hands over is slot `a` of MY landing buffer -/

omit [FloatOps F] in
theorem payload_barN0 (c : Dev nD) : (sched (F := F) m ρ).payload (barCell (nb 0 c)) 0 0
    = iprop((∃ f, ((rSlot 0 : Memref sig .tc .vmem S16x16 .f32).view.loc (c : Thread nD τ) ↦[(rSlot 0 : Memref sig .tc .vmem S16x16 .f32).view.set]{fullShare} f : sProp 𝕄)) ∗ reached ER (recvCell 0 c) 0) := by
  rw [payload_bar]; unfold barPay rPts; rw [nb_nb]

omit [FloatOps F] in
theorem payload_barN1 (c : Dev nD) : (sched (F := F) m ρ).payload (barCell (nb 1 c)) 0 1
    = iprop((∃ f, ((rSlot 1 : Memref sig .tc .vmem S16x16 .f32).view.loc (c : Thread nD τ) ↦[(rSlot 1 : Memref sig .tc .vmem S16x16 .f32).view.set]{fullShare} f : sProp 𝕄)) ∗ reached ER (recvCell 1 c) 0) := by
  rw [payload_bar]; unfold barPay rPts; rw [nb_nb]

omit [FloatOps F] in
theorem payload_barN2 (c : Dev nD) : (sched (F := F) m ρ).payload (barCell (nb 2 c)) 0 2
    = iprop((∃ f, ((rSlot 2 : Memref sig .tc .vmem S16x16 .f32).view.loc (c : Thread nD τ) ↦[(rSlot 2 : Memref sig .tc .vmem S16x16 .f32).view.set]{fullShare} f : sProp 𝕄)) ∗ reached ER (recvCell 2 c) 0) := by
  rw [payload_bar]; unfold barPay rPts; rw [nb_nb]

/-! ## The transfers -/

/-- The transfer along axis 0 under the rounds rules: the face in slot 0 of the outgoing buffer lands in slot 0 of the
    neighbour's landing buffer, paying the neighbour's receive duty and this device's send duty. -/
theorem wp_send_ax0 (K : Dev nD × Fin 7 → ℕ) (c n : Dev nD) (hn : n = nb 0 c)
    {hsc : ((rSlot 0 : Memref sig (Dev.tc n : Thread nD τ).2.kind .vmem S16x16 .f32)).view.ref.isScScratch = false}
    {hsrc : (sSlot 0 : Memref sig .tc .vmem S16x16 .f32).view.WordExact} {hdst : (rSlot 0 : Memref sig .tc .vmem S16x16 .f32).view.WordExact}
    {hsem : DmaTarget.Typed .vmem (.dma (recvS 0)) (.remote (Dev.tc n : Thread nD τ) (rSlot 0 : Memref sig .tc .vmem S16x16 .f32) (.dma (sendS 0)) hsc)}
    {α : Type} {Q : α → sProp 𝕄} {k : PUnit → Prog (TpuEff nD τ sig (Elt F) Λ₀ .tc) α}
    (fsrc : Buf (Elt F) ((sSlot 0 : Memref sig .tc .vmem S16x16 .f32).view.loc (c : Thread nD τ))) (hfs : ∀ i : S3x16x16.Idx, (i 0).val = 0 → fsrc i = sendAll m ρ c i)
    (fn : Buf (Elt F) ((rSlot 0 : Memref sig .tc .vmem S16x16 .f32).view.loc (nb 0 c : Thread nD τ))) (O : CellTallies nD τ sig Unit) (W : Waits sig Unit) :
    iprop(cellInv ER (sched m ρ) (K (c, 1)) (sendCell 0 c) ∗ cellInv ER (sched m ρ) (K (nb 0 c, 4)) (recvCell 0 (nb 0 c))
        ∗ ((sSlot 0 : Memref sig .tc .vmem S16x16 .f32).view.loc (c : Thread nD τ) ↦[(sSlot 0 : Memref sig .tc .vmem S16x16 .f32).view.set]{fullShare} fsrc)
        ∗ ((rSlot 0 : Memref sig .tc .vmem S16x16 .f32).view.loc (nb 0 c : Thread nD τ) ↦[(rSlot 0 : Memref sig .tc .vmem S16x16 .f32).view.set]{fullShare} fn)
        ∗ owes (c : Thread nD τ) (O + tallyAt (recvCell 0 (nb 0 c)) () N) W
        ∗ dutyTok ER (sendCell 0 c) 0 0 ∗ reached ER (sendCell 0 c) 0
        ∗ dutyTok ER (recvCell 0 (nb 0 c)) 0 0 ∗ reached ER (recvCell 0 (nb 0 c)) 0)
      ⊢ iprop(((cred (tallyAt (sendCell 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot 0 : Memref sig .tc .vmem S16x16 .f32) (.remote (Dev.tc n : Thread nD τ) (rSlot 0 : Memref sig .tc .vmem S16x16 .f32) (.dma (sendS 0)) hsc) (.dma (recvS 0)) hsrc hdst hsem) k) Q) := by
  subst hn
  exact Rounds.wp_send_pointsTo 𝒱₀ ER (sched m ρ) (c : Thread nD τ) none (κ₁ := K (c, 1)) (κ₂ := K (nb 0 c, 4))
    (r₁ := 0) (r₂ := 0) (d₁ := 0) (d₂ := 0) (fd := fn)
    (by rw [duties_send]; exact Finset.mem_singleton_self _) (by rw [duties_recv]; exact Finset.mem_singleton_self _)
    () () N rfl (amount_send m ρ c 0 0) (amount_recv m ρ (nb 0 c) 0 0) O rfl (W := W)
    (by rw [payload_send]; unfold sendPay sPts; iintro H; iexists fsrc; iexact H)
    (by rw [payload_recv]; unfold recvPay; exact landing0 m ρ c fn fsrc hfs)

/-- The transfer along axis 1 under the rounds rules: the face in slot 1 of the outgoing buffer lands in slot 1 of the
    neighbour's landing buffer, paying the neighbour's receive duty and this device's send duty. -/
theorem wp_send_ax1 (K : Dev nD × Fin 7 → ℕ) (c n : Dev nD) (hn : n = nb 1 c)
    {hsc : ((rSlot 1 : Memref sig (Dev.tc n : Thread nD τ).2.kind .vmem S16x16 .f32)).view.ref.isScScratch = false}
    {hsrc : (sSlot 1 : Memref sig .tc .vmem S16x16 .f32).view.WordExact} {hdst : (rSlot 1 : Memref sig .tc .vmem S16x16 .f32).view.WordExact}
    {hsem : DmaTarget.Typed .vmem (.dma (recvS 1)) (.remote (Dev.tc n : Thread nD τ) (rSlot 1 : Memref sig .tc .vmem S16x16 .f32) (.dma (sendS 1)) hsc)}
    {α : Type} {Q : α → sProp 𝕄} {k : PUnit → Prog (TpuEff nD τ sig (Elt F) Λ₀ .tc) α}
    (fsrc : Buf (Elt F) ((sSlot 1 : Memref sig .tc .vmem S16x16 .f32).view.loc (c : Thread nD τ))) (hfs : ∀ i : S3x16x16.Idx, (i 0).val = 1 → fsrc i = sendAll m ρ c i)
    (fn : Buf (Elt F) ((rSlot 1 : Memref sig .tc .vmem S16x16 .f32).view.loc (nb 1 c : Thread nD τ))) (O : CellTallies nD τ sig Unit) (W : Waits sig Unit) :
    iprop(cellInv ER (sched m ρ) (K (c, 2)) (sendCell 1 c) ∗ cellInv ER (sched m ρ) (K (nb 1 c, 5)) (recvCell 1 (nb 1 c))
        ∗ ((sSlot 1 : Memref sig .tc .vmem S16x16 .f32).view.loc (c : Thread nD τ) ↦[(sSlot 1 : Memref sig .tc .vmem S16x16 .f32).view.set]{fullShare} fsrc)
        ∗ ((rSlot 1 : Memref sig .tc .vmem S16x16 .f32).view.loc (nb 1 c : Thread nD τ) ↦[(rSlot 1 : Memref sig .tc .vmem S16x16 .f32).view.set]{fullShare} fn)
        ∗ owes (c : Thread nD τ) (O + tallyAt (recvCell 1 (nb 1 c)) () N) W
        ∗ dutyTok ER (sendCell 1 c) 0 0 ∗ reached ER (sendCell 1 c) 0
        ∗ dutyTok ER (recvCell 1 (nb 1 c)) 0 0 ∗ reached ER (recvCell 1 (nb 1 c)) 0)
      ⊢ iprop(((cred (tallyAt (sendCell 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot 1 : Memref sig .tc .vmem S16x16 .f32) (.remote (Dev.tc n : Thread nD τ) (rSlot 1 : Memref sig .tc .vmem S16x16 .f32) (.dma (sendS 1)) hsc) (.dma (recvS 1)) hsrc hdst hsem) k) Q) := by
  subst hn
  exact Rounds.wp_send_pointsTo 𝒱₀ ER (sched m ρ) (c : Thread nD τ) none (κ₁ := K (c, 2)) (κ₂ := K (nb 1 c, 5))
    (r₁ := 0) (r₂ := 0) (d₁ := 0) (d₂ := 0) (fd := fn)
    (by rw [duties_send]; exact Finset.mem_singleton_self _) (by rw [duties_recv]; exact Finset.mem_singleton_self _)
    () () N rfl (amount_send m ρ c 1 0) (amount_recv m ρ (nb 1 c) 1 0) O rfl (W := W)
    (by rw [payload_send]; unfold sendPay sPts; iintro H; iexists fsrc; iexact H)
    (by rw [payload_recv]; unfold recvPay; exact landing1 m ρ c fn fsrc hfs)

/-- The transfer along axis 2 under the rounds rules: the face in slot 2 of the outgoing buffer lands in slot 2 of the
    neighbour's landing buffer, paying the neighbour's receive duty and this device's send duty. -/
theorem wp_send_ax2 (K : Dev nD × Fin 7 → ℕ) (c n : Dev nD) (hn : n = nb 2 c)
    {hsc : ((rSlot 2 : Memref sig (Dev.tc n : Thread nD τ).2.kind .vmem S16x16 .f32)).view.ref.isScScratch = false}
    {hsrc : (sSlot 2 : Memref sig .tc .vmem S16x16 .f32).view.WordExact} {hdst : (rSlot 2 : Memref sig .tc .vmem S16x16 .f32).view.WordExact}
    {hsem : DmaTarget.Typed .vmem (.dma (recvS 2)) (.remote (Dev.tc n : Thread nD τ) (rSlot 2 : Memref sig .tc .vmem S16x16 .f32) (.dma (sendS 2)) hsc)}
    {α : Type} {Q : α → sProp 𝕄} {k : PUnit → Prog (TpuEff nD τ sig (Elt F) Λ₀ .tc) α}
    (fsrc : Buf (Elt F) ((sSlot 2 : Memref sig .tc .vmem S16x16 .f32).view.loc (c : Thread nD τ))) (hfs : ∀ i : S3x16x16.Idx, (i 0).val = 2 → fsrc i = sendAll m ρ c i)
    (fn : Buf (Elt F) ((rSlot 2 : Memref sig .tc .vmem S16x16 .f32).view.loc (nb 2 c : Thread nD τ))) (O : CellTallies nD τ sig Unit) (W : Waits sig Unit) :
    iprop(cellInv ER (sched m ρ) (K (c, 3)) (sendCell 2 c) ∗ cellInv ER (sched m ρ) (K (nb 2 c, 6)) (recvCell 2 (nb 2 c))
        ∗ ((sSlot 2 : Memref sig .tc .vmem S16x16 .f32).view.loc (c : Thread nD τ) ↦[(sSlot 2 : Memref sig .tc .vmem S16x16 .f32).view.set]{fullShare} fsrc)
        ∗ ((rSlot 2 : Memref sig .tc .vmem S16x16 .f32).view.loc (nb 2 c : Thread nD τ) ↦[(rSlot 2 : Memref sig .tc .vmem S16x16 .f32).view.set]{fullShare} fn)
        ∗ owes (c : Thread nD τ) (O + tallyAt (recvCell 2 (nb 2 c)) () N) W
        ∗ dutyTok ER (sendCell 2 c) 0 0 ∗ reached ER (sendCell 2 c) 0
        ∗ dutyTok ER (recvCell 2 (nb 2 c)) 0 0 ∗ reached ER (recvCell 2 (nb 2 c)) 0)
      ⊢ iprop(((cred (tallyAt (sendCell 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sSlot 2 : Memref sig .tc .vmem S16x16 .f32) (.remote (Dev.tc n : Thread nD τ) (rSlot 2 : Memref sig .tc .vmem S16x16 .f32) (.dma (sendS 2)) hsc) (.dma (recvS 2)) hsrc hdst hsem) k) Q) := by
  subst hn
  exact Rounds.wp_send_pointsTo 𝒱₀ ER (sched m ρ) (c : Thread nD τ) none (κ₁ := K (c, 3)) (κ₂ := K (nb 2 c, 6))
    (r₁ := 0) (r₂ := 0) (d₁ := 0) (d₂ := 0) (fd := fn)
    (by rw [duties_send]; exact Finset.mem_singleton_self _) (by rw [duties_recv]; exact Finset.mem_singleton_self _)
    () () N rfl (amount_send m ρ c 2 0) (amount_recv m ρ (nb 2 c) 2 0) O rfl (W := W)
    (by rw [payload_send]; unfold sendPay sPts; iintro H; iexists fsrc; iexact H)
    (by rw [payload_recv]; unfold recvPay; exact landing2 m ρ c fn fsrc hfs)

/-! ## The output buffer after the whole-block store and three plane updates, each reading the plane it updates -/

section Chain
variable {sg : RefSig} {κ : Kind} {sp : Space} {s : Shape} {e : EltTy} {Val : EltTy → Type} [∀ e, Nonempty (Val e)]

/-- Four stores through one view — the whole block, then three rectangles, each payload a function of the load of its
    own rectangle from what the stores before it left — leave the nested writes over the first store's payload,
    whatever the buffer held before. -/
theorem writes_chain3 (v : View sg κ sp s e) (rF r1 r2 r3 : Rect s)
    (g : v.ty.Contents Val) (w0 : rF.shape.Idx → Val e)
    (hw : ∀ f f' : v.ty.Contents Val, (v.slice rF).write Val f w0 Finset.univ = (v.slice rF).write Val f' w0 Finset.univ)
    (P1 : (r1.shape.Idx → Val e) → (r1.shape.Idx → Val e)) (P2 : (r2.shape.Idx → Val e) → (r2.shape.Idx → Val e))
    (P3 : (r3.shape.Idx → Val e) → (r3.shape.Idx → Val e)) :
    v.writes Val g
      [⟨r3, P3 (v.readCov [⟨r2, P2 (v.readCov [⟨r1, P1 (v.readCov [⟨rF, w0⟩] r1.toLoadRect)⟩, ⟨rF, w0⟩] r2.toLoadRect)⟩,
                            ⟨r1, P1 (v.readCov [⟨rF, w0⟩] r1.toLoadRect)⟩, ⟨rF, w0⟩] r3.toLoadRect)⟩,
       ⟨r2, P2 (v.readCov [⟨r1, P1 (v.readCov [⟨rF, w0⟩] r1.toLoadRect)⟩, ⟨rF, w0⟩] r2.toLoadRect)⟩,
       ⟨r1, P1 (v.readCov [⟨rF, w0⟩] r1.toLoadRect)⟩, ⟨rF, w0⟩]
      = (v.slice r3).write Val
          ((v.slice r2).write Val ((v.slice r1).write Val ((v.slice rF).write Val g w0 Finset.univ)
              (P1 (v.readAt Val r1.toLoadRect ((v.slice rF).write Val g w0 Finset.univ))) Finset.univ)
            (P2 (v.readAt Val r2.toLoadRect ((v.slice r1).write Val ((v.slice rF).write Val g w0 Finset.univ)
              (P1 (v.readAt Val r1.toLoadRect ((v.slice rF).write Val g w0 Finset.univ))) Finset.univ))) Finset.univ)
          (P3 (v.readAt Val r3.toLoadRect
            ((v.slice r2).write Val ((v.slice r1).write Val ((v.slice rF).write Val g w0 Finset.univ)
              (P1 (v.readAt Val r1.toLoadRect ((v.slice rF).write Val g w0 Finset.univ))) Finset.univ)
            (P2 (v.readAt Val r2.toLoadRect ((v.slice r1).write Val ((v.slice rF).write Val g w0 Finset.univ)
              (P1 (v.readAt Val r1.toLoadRect ((v.slice rF).write Val g w0 Finset.univ))) Finset.univ))) Finset.univ))) Finset.univ := by
  unfold View.readCov
  simp only [View.writes_cons, View.writes_nil]
  rw [hw v.junk g]

end Chain

end Cert.KernelIdealProof

end
-- ==== Proof.BodyAll.lean ====
/-
The body on every device: the eight devices' runs collected, and the pipeline's body obligation at the one grid
point, which hands the launch's invariant to the run and takes back what it leaves.
-/
import proofs.«900804_g7700000000000805_dist_halo3d_v7x_xyz2x2x2_s16_bf16_1_alg».proof.Proof.Body0
import proofs.«900804_g7700000000000805_dist_halo3d_v7x_xyz2x2x2_s16_bf16_1_alg».proof.Proof.Body1
import proofs.«900804_g7700000000000805_dist_halo3d_v7x_xyz2x2x2_s16_bf16_1_alg».proof.Proof.Body2
import proofs.«900804_g7700000000000805_dist_halo3d_v7x_xyz2x2x2_s16_bf16_1_alg».proof.Proof.Body3
import proofs.«900804_g7700000000000805_dist_halo3d_v7x_xyz2x2x2_s16_bf16_1_alg».proof.Proof.Body4
import proofs.«900804_g7700000000000805_dist_halo3d_v7x_xyz2x2x2_s16_bf16_1_alg».proof.Proof.Body5
import proofs.«900804_g7700000000000805_dist_halo3d_v7x_xyz2x2x2_s16_bf16_1_alg».proof.Proof.Body6
import proofs.«900804_g7700000000000805_dist_halo3d_v7x_xyz2x2x2_s16_bf16_1_alg».proof.Proof.Body7
import Idealize.ShloMosaic.Lib.Tactic

noncomputable section

namespace Cert.KernelIdealProof

open Cert.KernelIdeal Cert.KernelIdeal.Gen

open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The body from its invariant, on any device of the mesh. -/
theorem sound_body (K : Dev nD × Fin 7 → ℕ) (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  fin_cases c
  · exact sound_body_0 m ρ K Kt
  · exact sound_body_1 m ρ K Kt
  · exact sound_body_2 m ρ K Kt
  · exact sound_body_3 m ρ K Kt
  · exact sound_body_4 m ρ K Kt
  · exact sound_body_5 m ρ K Kt
  · exact sound_body_6 m ρ K Kt
  · exact sound_body_7 m ρ K Kt

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

/-- info: 'Cert.KernelIdealProof.body_obligation' depends on axioms: [propext, Classical.choice, Quot.sound] -/
#guard_msgs in #print axioms body_obligation

end Cert.KernelIdealProof

end
-- ==== Proof.Launch.lean ====
/-
The launch of the halo exchange: the protocol's cells and duty tokens minted at launch and dealt to the devices that
pay them (duty `a` of a barrier cell and the receive duty on axis `a` go to the neighbour along `a`), every cell's
invariant allocated for all devices in one step, the launch credit (a barrier's three units, a face per receive cell),
the launch theorem's side conditions, and the run with the two final arrays read off.
-/
import proofs.«900804_g7700000000000805_dist_halo3d_v7x_xyz2x2x2_s16_bf16_1_alg».proof.Proof.Dats
import proofs.«900804_g7700000000000805_dist_halo3d_v7x_xyz2x2x2_s16_bf16_1_alg».proof.Proof.Levels

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens minted at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def haloCells : Finset (GSem nD τ sig) := Finset.univ.map ⟨kcell, kcell_injective⟩

/-- A device's own cells' nine duties: the barrier's three, one per send cell, one per receive cell. -/
abbrev tokKey : Fin 9 → SemLoc sig × Fin 3 := fun
  | 0 => (.reg barS, 0) | 1 => (.reg barS, 1) | 2 => (.reg barS, 2)
  | 3 => (.dma (sendS 0), 0) | 4 => (.dma (sendS 1), 0) | 5 => (.dma (sendS 2), 0)
  | 6 => (.dma (recvS 0), 0) | 7 => (.dma (recvS 1), 0) | 8 => (.dma (recvS 2), 0)
theorem tokKey_injective : Function.Injective tokKey := by decide
abbrev tokOf (cj : Dev nD × Fin 9) : GSem nD τ sig × ℕ × Fin 3 := (((cj.1 : Thread nD τ), (tokKey cj.2).1), 0, (tokKey cj.2).2)
theorem tokOf_injective : Function.Injective (tokOf : Dev nD × Fin 9 → GSem nD τ sig × ℕ × Fin 3) := by
  rintro ⟨c, j⟩ ⟨c', j'⟩ h
  have h1 : c = c' := by have := congrArg (fun x : GSem nD τ sig × ℕ × Fin 3 => x.1.1.1) h; exact this
  subst h1
  have h2 : tokKey j = tokKey j' :=
    Prod.ext (congrArg (fun x : GSem nD τ sig × ℕ × Fin 3 => x.1.2) h) (congrArg (fun x : GSem nD τ sig × ℕ × Fin 3 => x.2.2) h)
  rw [tokKey_injective h2]
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`. -/
def G (c : Dev nD) : sProp 𝕄 :=
  iprop((bigSep Finset.univ fun k : Fin 7 => roundState ER (sched m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (sched m ρ) haloCells haloToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The six DMA semaphores are the kernel's own; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0
        ∗ semVal (recvCell 0 c) 0 ∗ semVal (recvCell 1 c) 0 ∗ semVal (recvCell 2 c) 0) := by
  rw [Pipeline.ownSems0_eq_of_list c osem [0, 1, 2, 3, 4, 5] (by decide) (by decide)]; rfl
omit [FloatOps F] in
/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

omit [FloatOps F] in
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (sched m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (sched m ρ) (K ck) (kcell ck) : sProp 𝕄)) ⊢ cellInv ER (sched m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(posns c ∗ payToks c)

omit [FloatOps F] in
theorem ghost_intro (K : Dev nD × Fin 7 → ℕ) (c : Dev nD) : iprop(records m ρ K ∗ linear c) ⊢ G' m ρ c := by
  unfold records linear G' ghost invs marks
  iintro ⟨⟨#HI, #HR⟩, Hpos, Htok⟩
  iexists K
  isplitr
  · isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nb 0 c, 0)); iexact HI
    isplitr; · iapply (inv_at m ρ K (nb 1 c, 0)); iexact HI
    isplitr; · iapply (inv_at m ρ K (nb 2 c, 0)); iexact HI
    isplitr; · iapply (inv_at m ρ K (nb 0 c, 4)); iexact HI
    isplitr; · iapply (inv_at m ρ K (nb 1 c, 5)); iexact HI
    iapply (inv_at m ρ K (nb 2 c, 6)); iexact HI
  isplitl [Hpos]; · iexact Hpos
  isplitr
  · isplitr; · iapply (reached_at (F := F) (nb 0 c, 0)); iexact HR
    isplitr; · iapply (reached_at (F := F) (nb 1 c, 0)); iexact HR
    isplitr; · iapply (reached_at (F := F) (nb 2 c, 0)); iexact HR
    isplitr; · iapply (reached_at (F := F) (nb 0 c, 4)); iexact HR
    isplitr; · iapply (reached_at (F := F) (nb 1 c, 5)); iexact HR
    isplitr; · iapply (reached_at (F := F) (nb 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt along the axes: duty `a` of a barrier cell and the receive duty on axis `a` go to the neighbour
    along `a`; the send duties stay. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell 0 c) 0 0 : sProp 𝕄)),
    bigSep_univ_equiv (flip 1) (fun c : Dev nD => (dutyTok ER (recvCell 1 c) 0 0 : sProp 𝕄)),
    bigSep_univ_equiv (flip 2) (fun c : Dev nD => (dutyTok ER (recvCell 2 c) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup_ghost :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (sched m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (sched m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear posns; rw [bigSep_fin7])))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup_ghost m ρ))

/-! ## The launch credit -/

omit [FloatOps F] in
/-- Every device owing each neighbour's barrier cell a unit and each neighbour's receive cell a face, the launch deals
    device `c` three units on its barrier cell and a face on each receive cell. -/
theorem creds_intro (c : Dev nD) : (Pipeline.launchCred O₀ c : sProp 𝕄) ⊢ creds c := by
  have e3 : (tallyAt (barCell c) () 3 : CellTallies nD τ sig Unit)
      = tallyAt (barCell c) () 1 + (tallyAt (barCell c) () 1 + tallyAt (barCell c) () 1) := by rw [tallyAt_add, tallyAt_add]
  show (Pipeline.launchCred (fun d : Dev nD => ((((tallyAt (recvCell 2 (nb 2 d)) () N + tallyAt (recvCell 1 (nb 1 d)) () N)
      + tallyAt (recvCell 0 (nb 0 d)) () N) + tallyAt (barCell (nb 2 d)) () 1) + tallyAt (barCell (nb 1 d)) () 1)
      + tallyAt (barCell (nb 0 d)) () 1) c : sProp 𝕄) ⊢ creds c
  rw [Pipeline.launchCred_add, Pipeline.launchCred_add, Pipeline.launchCred_add, Pipeline.launchCred_add, Pipeline.launchCred_add]
  iintro ⟨⟨⟨⟨⟨H2, H1⟩, H0⟩, HB2⟩, HB1⟩, HB0⟩
  ihave C2 := (Pipeline.launchCred_tallyAt (.dma (recvS 2)) (nb 2) (nb 2) (nb_nb 2) (nb_nb 2) () N c) $$ H2
  ihave C1 := (Pipeline.launchCred_tallyAt (.dma (recvS 1)) (nb 1) (nb 1) (nb_nb 1) (nb_nb 1) () N c) $$ H1
  ihave C0 := (Pipeline.launchCred_tallyAt (.dma (recvS 0)) (nb 0) (nb 0) (nb_nb 0) (nb_nb 0) () N c) $$ H0
  ihave D2 := (Pipeline.launchCred_tallyAt (.reg barS) (nb 2) (nb 2) (nb_nb 2) (nb_nb 2) () 1 c) $$ HB2
  ihave D1 := (Pipeline.launchCred_tallyAt (.reg barS) (nb 1) (nb 1) (nb_nb 1) (nb_nb 1) () 1 c) $$ HB1
  ihave D0 := (Pipeline.launchCred_tallyAt (.reg barS) (nb 0) (nb 0) (nb_nb 0) (nb_nb 0) () 1 c) $$ HB0
  unfold creds
  isplitl [D0 D1 D2]
  · rw [e3]
    iapply (cred_add _ _).2
    isplitl [D0]; · iexact D0
    iapply (cred_add _ _).2
    isplitl [D1]; · iexact D1
    iexact D2
  isplitl [C0]; · iexact C0
  isplitl [C1]; · iexact C1
  iexact C2

/-! ## The launch theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratches
  iintro ⟨Hr, H1, H2, H3, H4, H5, H6⟩
  isplitr; · iempintro
  isplitr [Hr]
  · isplitl [H1]; · iexact H1
    isplitl [H2]; · iexact H2
    isplitl [H3]; · iexact H3
    isplitl [H4]; · iexact H4
    isplitl [H5]; · iexact H5
    iexact H6
  iexact Hr

omit [FloatOps F] in
/-- A DMA cell that is no receive cell sits at level 0. -/
theorem lv_dma_zero (t : Thread nD τ) (q : DmaSem sig)
    (h : ¬ ((SemLoc.dma q : SemLoc sig) = .dma (recvS 0) ∨ (SemLoc.dma q : SemLoc sig) = .dma (recvS 1) ∨ (SemLoc.dma q : SemLoc sig) = .dma (recvS 2))) :
    lv (t, .dma q) () = 0 := by
  unfold lv; rw [if_neg (fun h => by cases h), if_neg h]

theorem waits (c : Dev nD) : (levAts L lv : sProp 𝕄) ⊢ Pipeline.cellsWaits cfgs (dats m ρ) () 0 c :=
  Pipeline.cellsWaits_intro cfgs (dats m ρ) () 0 c fun w s t =>
    mayWait_stage c _ (lv_dma_zero _ _ (by fin_cases w <;> fin_cases s <;> decide)) _ (by
      rcases t with ⟨_ | _, ht⟩
      · exact Or.inl rfl
      · exact Or.inr rfl)

/-! ## The run -/

/-- After the run every window's array holds what the proof data says. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- On the mesh of eight devices, for any float values, from any memory with zero counters, given the body's obligation
    on every device: every weakly fair execution of the program — the devices handshaking with their three neighbours on
    the barrier semaphore, then exchanging faces — terminates, and every final state has each window's array at the
    proof data's final contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_halo m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdealProof.run_main' depends on axioms: [propext, Classical.choice, Quot.sound] -/
#guard_msgs in #print axioms run_main

/-- The input array after the run holds what it held. -/
theorem finalA_x (c : Dev nD) : (dats m ρ 0 c).arrAt (0 : Fin 2) cfg0.N = (s₀ m ρ).mem (win0_0.arr.view.loc (c : Thread nD τ)) :=
  (dats (F := F) m ρ 0 c).arrAt_in (0 : Fin 2) rfl _

/-- The result array after the run holds what the body left in the output staging buffer: the window is the whole array,
    written back at the one point. -/
theorem finalA_out (c : Dev nD) : (dats m ρ 0 c).arrAt (1 : Fin 2) cfg0.N = outAt m ρ c := by
  have h : (win0_1.blk t₀).view.read (Elt F) ((dats m ρ 0 c).arrAt (1 : Fin 2) cfg0.N) = outAt m ρ c := by
    rw [show cfg0.N = (t₀ : Fin cfg0.N).val + 1 from rfl, (dats m ρ 0 c).arrAt_succ (1 : Fin 2) t₀]
    rw [flush0_1 t₀, if_pos rfl]
    exact View.read_write_univ _ _
  rw [← h]
  exact (Memref.read_access_unit_zero (Elt F) main_v1 (by funext a; fin_cases a <;> rfl) _ _).symm

/-- The run with both final arrays read: the result array at the kernel's value on each device, the argument unchanged. -/
theorem run_out (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ c
        ∧ r.2.mem ((c.tc : Thread nD τ).loc main_arg0) = m ((c.tc : Thread nD τ).loc main_arg0)) :=
  (θ_run defs _ _).mono (fun _ h c => ⟨(h c (1 : Fin 2)).trans (finalA_out m ρ c), (h c (0 : Fin 2)).trans (finalA_x m ρ c)⟩)
    (run_main m ρ hbody)

/-- info: 'Cert.KernelIdealProof.run_out' depends on axioms: [propext, Classical.choice, Quot.sound] -/
#guard_msgs in #print axioms run_out

end Cert.KernelIdealProof

end
-- ==== Proof.Pays.lean ====
/-
The kernel's pure vector terms read at an index, at the exact (extended-real) instance.

A block is a 16×16×16 array.  Shifting it by one along an axis with a zero plane filled in at the far end is a
two-piece concatenation of a slice and a constant plane; read at (i, j, k) it is the neighbour's entry when the
neighbour lies in the block and the constant otherwise.  The local stencil is the sum of the six shifted blocks
less six times the block, replaced by zero where a coordinate sits on the global boundary of the mesh (position
15·b on an axis where the device's mesh coordinate is b ∈ {0, 1}).  A received face is masked the same way on its
two in-plane coordinates and added to the plane that faces the sender.
-/
import proofs.«900804_g7700000000000805_dist_halo3d_v7x_xyz2x2x2_s16_bf16_1_alg».proof.Proof.Gen.KernelIdeal.Skeleton
import Idealize.ShloMosaic.Lib.ValueLayout
import Idealize.ShloMosaic.Lib.WordArith
import Idealize.ShloMosaic.PureOps.Ideal.Laws

noncomputable section

namespace Cert.KernelIdealProof

open Cert.KernelIdeal Cert.KernelIdeal.Gen

open Idealize.ShloMosaic
open Idealize.ShloMosaic.ValueIdx

/-! ## A block shifted by one along an axis, a constant plane filled in -/

section Shift
variable {α : Type}

/-- Along axis 0 towards larger positions: entry (i, j, k) is the block's at (i + 1, j, k), the constant at i = 15. -/
theorem shiftUp0_apply (x : S16x16x16.Idx → α) (z : α) (hs : S16x16x16.Slices ![1, 0, 0] S15x16x16)
    (hc : Shape.Concatenates [S15x16x16, S1x16x16] S16x16x16 0) (i j k : Fin 16) :
    concatenate S16x16x16 0 [⟨S15x16x16, extractStridedSlice S15x16x16 ![1, 0, 0] x hs⟩, ⟨S1x16x16, broadcast S1x16x16 z⟩] hc (ix3 i j k)
      = if h : i.val + 1 < 16 then x (ix3 ⟨i.val + 1, h⟩ j k) else z := by
  by_cases h : i.val + 1 < 16
  · rw [dif_pos h]
    refine (concatenate_pair_apply_left 0 _ _ hc (ix3 i j k) rfl (ix3 (⟨i.val, by omega⟩ : Fin 15) j k)
      (fun b => match b with | ⟨0, _⟩ => rfl | ⟨1, _⟩ => rfl | ⟨2, _⟩ => rfl)).trans ?_
    exact extractStridedSlice_apply _ x hs _ _ (fun a => match a with
      | ⟨0, _⟩ => by show i.val + 1 = 1 + i.val; omega
      | ⟨1, _⟩ => by show j.val = 0 + j.val; omega
      | ⟨2, _⟩ => by show k.val = 0 + k.val; omega)
  · rw [dif_neg h]
    exact concatenate_pair_apply_right 0 _ _ hc (ix3 i j k) rfl rfl (ix3 (0 : Fin 1) j k)
      (fun b hb => match b, hb with | ⟨0, _⟩, hb => absurd rfl hb | ⟨1, _⟩, _ => rfl | ⟨2, _⟩, _ => rfl)
      (by show 0 + 15 = i.val; omega)

/-- Along axis 0 towards smaller positions: entry (i, j, k) is the block's at (i - 1, j, k), the constant at i = 0. -/
theorem shiftDn0_apply (x : S16x16x16.Idx → α) (z : α) (hs : S16x16x16.Slices ![0, 0, 0] S15x16x16)
    (hc : Shape.Concatenates [S1x16x16, S15x16x16] S16x16x16 0) (i j k : Fin 16) :
    concatenate S16x16x16 0 [⟨S1x16x16, broadcast S1x16x16 z⟩, ⟨S15x16x16, extractStridedSlice S15x16x16 ![0, 0, 0] x hs⟩] hc (ix3 i j k)
      = if h : 0 < i.val then x (ix3 ⟨i.val - 1, by omega⟩ j k) else z := by
  by_cases h : 0 < i.val
  · rw [dif_pos h]
    refine (concatenate_pair_apply_right 0 _ _ hc (ix3 i j k) rfl rfl (ix3 (⟨i.val - 1, by omega⟩ : Fin 15) j k)
      (fun b hb => match b, hb with | ⟨0, _⟩, hb => absurd rfl hb | ⟨1, _⟩, _ => rfl | ⟨2, _⟩, _ => rfl)
      (by show i.val - 1 + 1 = i.val; omega)).trans ?_
    exact extractStridedSlice_apply _ x hs _ _ (fun a => match a with
      | ⟨0, _⟩ => by show i.val - 1 = 0 + (i.val - 1); omega
      | ⟨1, _⟩ => by show j.val = 0 + j.val; omega
      | ⟨2, _⟩ => by show k.val = 0 + k.val; omega)
  · rw [dif_neg h]
    exact concatenate_pair_apply_left 0 _ _ hc (ix3 i j k) rfl (ix3 (0 : Fin 1) j k)
      (fun b => match b with | ⟨0, _⟩ => by show 0 = i.val; omega | ⟨1, _⟩ => rfl | ⟨2, _⟩ => rfl)

/-- Along axis 1 towards larger positions. -/
theorem shiftUp1_apply (x : S16x16x16.Idx → α) (z : α) (hs : S16x16x16.Slices ![0, 1, 0] S16x15x16)
    (hc : Shape.Concatenates [S16x15x16, S16x1x16] S16x16x16 1) (i j k : Fin 16) :
    concatenate S16x16x16 1 [⟨S16x15x16, extractStridedSlice S16x15x16 ![0, 1, 0] x hs⟩, ⟨S16x1x16, broadcast S16x1x16 z⟩] hc (ix3 i j k)
      = if h : j.val + 1 < 16 then x (ix3 i ⟨j.val + 1, h⟩ k) else z := by
  by_cases h : j.val + 1 < 16
  · rw [dif_pos h]
    refine (concatenate_pair_apply_left 1 _ _ hc (ix3 i j k) rfl (ix3 i (⟨j.val, by omega⟩ : Fin 15) k)
      (fun b => match b with | ⟨0, _⟩ => rfl | ⟨1, _⟩ => rfl | ⟨2, _⟩ => rfl)).trans ?_
    exact extractStridedSlice_apply _ x hs _ _ (fun a => match a with
      | ⟨0, _⟩ => by show i.val = 0 + i.val; omega
      | ⟨1, _⟩ => by show j.val + 1 = 1 + j.val; omega
      | ⟨2, _⟩ => by show k.val = 0 + k.val; omega)
  · rw [dif_neg h]
    exact concatenate_pair_apply_right 1 _ _ hc (ix3 i j k) rfl rfl (ix3 i (0 : Fin 1) k)
      (fun b hb => match b, hb with | ⟨0, _⟩, _ => rfl | ⟨1, _⟩, hb => absurd rfl hb | ⟨2, _⟩, _ => rfl)
      (by show 0 + 15 = j.val; omega)

/-- Along axis 1 towards smaller positions. -/
theorem shiftDn1_apply (x : S16x16x16.Idx → α) (z : α) (hs : S16x16x16.Slices ![0, 0, 0] S16x15x16)
    (hc : Shape.Concatenates [S16x1x16, S16x15x16] S16x16x16 1) (i j k : Fin 16) :
    concatenate S16x16x16 1 [⟨S16x1x16, broadcast S16x1x16 z⟩, ⟨S16x15x16, extractStridedSlice S16x15x16 ![0, 0, 0] x hs⟩] hc (ix3 i j k)
      = if h : 0 < j.val then x (ix3 i ⟨j.val - 1, by omega⟩ k) else z := by
  by_cases h : 0 < j.val
  · rw [dif_pos h]
    refine (concatenate_pair_apply_right 1 _ _ hc (ix3 i j k) rfl rfl (ix3 i (⟨j.val - 1, by omega⟩ : Fin 15) k)
      (fun b hb => match b, hb with | ⟨0, _⟩, _ => rfl | ⟨1, _⟩, hb => absurd rfl hb | ⟨2, _⟩, _ => rfl)
      (by show j.val - 1 + 1 = j.val; omega)).trans ?_
    exact extractStridedSlice_apply _ x hs _ _ (fun a => match a with
      | ⟨0, _⟩ => by show i.val = 0 + i.val; omega
      | ⟨1, _⟩ => by show j.val - 1 = 0 + (j.val - 1); omega
      | ⟨2, _⟩ => by show k.val = 0 + k.val; omega)
  · rw [dif_neg h]
    exact concatenate_pair_apply_left 1 _ _ hc (ix3 i j k) rfl (ix3 i (0 : Fin 1) k)
      (fun b => match b with | ⟨0, _⟩ => rfl | ⟨1, _⟩ => by show 0 = j.val; omega | ⟨2, _⟩ => rfl)

/-- Along axis 2 towards larger positions. -/
theorem shiftUp2_apply (x : S16x16x16.Idx → α) (z : α) (hs : S16x16x16.Slices ![0, 0, 1] S16x16x15)
    (hc : Shape.Concatenates [S16x16x15, S16x16x1] S16x16x16 2) (i j k : Fin 16) :
    concatenate S16x16x16 2 [⟨S16x16x15, extractStridedSlice S16x16x15 ![0, 0, 1] x hs⟩, ⟨S16x16x1, broadcast S16x16x1 z⟩] hc (ix3 i j k)
      = if h : k.val + 1 < 16 then x (ix3 i j ⟨k.val + 1, h⟩) else z := by
  by_cases h : k.val + 1 < 16
  · rw [dif_pos h]
    refine (concatenate_pair_apply_left 2 _ _ hc (ix3 i j k) rfl (ix3 i j (⟨k.val, by omega⟩ : Fin 15))
      (fun b => match b with | ⟨0, _⟩ => rfl | ⟨1, _⟩ => rfl | ⟨2, _⟩ => rfl)).trans ?_
    exact extractStridedSlice_apply _ x hs _ _ (fun a => match a with
      | ⟨0, _⟩ => by show i.val = 0 + i.val; omega
      | ⟨1, _⟩ => by show j.val = 0 + j.val; omega
      | ⟨2, _⟩ => by show k.val + 1 = 1 + k.val; omega)
  · rw [dif_neg h]
    exact concatenate_pair_apply_right 2 _ _ hc (ix3 i j k) rfl rfl (ix3 i j (0 : Fin 1))
      (fun b hb => match b, hb with | ⟨0, _⟩, _ => rfl | ⟨1, _⟩, _ => rfl | ⟨2, _⟩, hb => absurd rfl hb)
      (by show 0 + 15 = k.val; omega)

/-- Along axis 2 towards smaller positions. -/
theorem shiftDn2_apply (x : S16x16x16.Idx → α) (z : α) (hs : S16x16x16.Slices ![0, 0, 0] S16x16x15)
    (hc : Shape.Concatenates [S16x16x1, S16x16x15] S16x16x16 2) (i j k : Fin 16) :
    concatenate S16x16x16 2 [⟨S16x16x1, broadcast S16x16x1 z⟩, ⟨S16x16x15, extractStridedSlice S16x16x15 ![0, 0, 0] x hs⟩] hc (ix3 i j k)
      = if h : 0 < k.val then x (ix3 i j ⟨k.val - 1, by omega⟩) else z := by
  by_cases h : 0 < k.val
  · rw [dif_pos h]
    refine (concatenate_pair_apply_right 2 _ _ hc (ix3 i j k) rfl rfl (ix3 i j (⟨k.val - 1, by omega⟩ : Fin 15))
      (fun b hb => match b, hb with | ⟨0, _⟩, _ => rfl | ⟨1, _⟩, _ => rfl | ⟨2, _⟩, hb => absurd rfl hb)
      (by show k.val - 1 + 1 = k.val; omega)).trans ?_
    exact extractStridedSlice_apply _ x hs _ _ (fun a => match a with
      | ⟨0, _⟩ => by show i.val = 0 + i.val; omega
      | ⟨1, _⟩ => by show j.val = 0 + j.val; omega
      | ⟨2, _⟩ => by show k.val - 1 = 0 + (k.val - 1); omega)
  · rw [dif_neg h]
    exact concatenate_pair_apply_left 2 _ _ hc (ix3 i j k) rfl (ix3 i j (0 : Fin 1))
      (fun b => match b with | ⟨0, _⟩ => rfl | ⟨1, _⟩ => rfl | ⟨2, _⟩ => by show 0 = k.val; omega)

end Shift

/-! ## The boundary bit -/

/-- The comparison of a position below 16 with fifteen times a mesh coordinate below 2, as a one-bit word. -/
theorem cmpi_pos_bnd (n b : ℕ) (hn : n < 16) (hb : b < 2) :
    IntOp.cmpi .eq (BitVec.ofNat 32 n) (Scalar.muli (BitVec.ofNat 32 b) 15#32) = BitVec.ofBool (decide (n = 15 * b)) := by
  interval_cases b <;> interval_cases n <;> decide

theorem select_ofBool {α : Type} (p : Bool) (a b : α) : Scalar.select (BitVec.ofBool p) a b = if p = true then a else b := by
  cases p
  · exact if_neg (by decide)
  · exact if_pos rfl

theorem ori_apply {s : Shape} {w : ℕ} (x y : IVec s w) (i : s.Idx) : ori x y i = IntOp.ori (x i) (y i) := rfl
theorem cmpi_apply {s : Shape} {w : ℕ} (p : CmpIPredicate) (x y : IVec s w) (i : s.Idx) : cmpi p x y i = IntOp.cmpi p (x i) (y i) := rfl

theorem zero_bit : (0#1 : BitVec 1) = BitVec.ofBool false := rfl
/-- The zero word of the kernel's text is the extended real 0. -/
theorem ofBits_zero : (FloatOps.ofBits (F := Ideal) .f32 0#32) = (0 : EReal) := Ideal.ofBits_zero_f32

/-! ## The local stencil -/

/-- The literal 6.0 of the kernel's text, as the exact instance reads it. -/
abbrev six : EReal := Ideal.ofBits .f32 0x40C00000#32

/-- A block's entry one step along an axis, zero outside the block. -/
def up0 (x : S16x16x16.Idx → EReal) (i j k : Fin 16) : EReal := if h : i.val + 1 < 16 then x (ix3 ⟨i.val + 1, h⟩ j k) else 0
def dn0 (x : S16x16x16.Idx → EReal) (i j k : Fin 16) : EReal := if h : 0 < i.val then x (ix3 ⟨i.val - 1, by omega⟩ j k) else 0
def up1 (x : S16x16x16.Idx → EReal) (i j k : Fin 16) : EReal := if h : j.val + 1 < 16 then x (ix3 i ⟨j.val + 1, h⟩ k) else 0
def dn1 (x : S16x16x16.Idx → EReal) (i j k : Fin 16) : EReal := if h : 0 < j.val then x (ix3 i ⟨j.val - 1, by omega⟩ k) else 0
def up2 (x : S16x16x16.Idx → EReal) (i j k : Fin 16) : EReal := if h : k.val + 1 < 16 then x (ix3 i j ⟨k.val + 1, h⟩) else 0
def dn2 (x : S16x16x16.Idx → EReal) (i j k : Fin 16) : EReal := if h : 0 < k.val then x (ix3 i j ⟨k.val - 1, by omega⟩) else 0

/-- The seven-point stencil of a block with zeros outside it, in the kernel's own association. -/
def locStencil (x : S16x16x16.Idx → EReal) (i j k : Fin 16) : EReal :=
  (((((up0 x i j k + dn0 x i j k) + up1 x i j k) + dn1 x i j k) + up2 x i j k) + dn2 x i j k) - six * x (ix3 i j k)

theorem pay7_apply (b0 b1 b2 : ℕ) (h0 : b0 < 2) (h1 : b1 < 2) (h2 : b2 < 2) (x : Vec Ideal S16x16x16 .f32) (i j k : Fin 16) :
    k0_pay7 (F := Ideal) (BitVec.ofNat 32 b0) (BitVec.ofNat 32 b1) (BitVec.ofNat 32 b2) x (ix3 i j k)
      = if i.val = 15 * b0 ∨ j.val = 15 * b1 ∨ k.val = 15 * b2 then 0 else locStencil x i j k := by
  unfold k0_pay7
  dsimp only
  rw [shapeCast_self]
  simp only [select_apply, ori_apply, cmpi_apply, broadcast_apply, subf_apply, addf_apply, mulf_apply,
    shiftUp0_apply, shiftDn0_apply, shiftUp1_apply, shiftDn1_apply, shiftUp2_apply, shiftDn2_apply]
  have e0 : iota Kind.tc S16x16x16 32 [0] iota_S16x16x16_d0_w32 (ix3 i j k) = BitVec.ofNat 32 i.val := iota_single_apply _ _ _ _ _ _
  have e1 : iota Kind.tc S16x16x16 32 [1] iota_S16x16x16_d1_w32 (ix3 i j k) = BitVec.ofNat 32 j.val := iota_single_apply _ _ _ _ _ _
  have e2 : iota Kind.tc S16x16x16 32 [2] iota_S16x16x16_d2_w32 (ix3 i j k) = BitVec.ofNat 32 k.val := iota_single_apply _ _ _ _ _ _
  rw [e0, e1, e2, cmpi_pos_bnd _ _ i.isLt h0, cmpi_pos_bnd _ _ j.isLt h1, cmpi_pos_bnd _ _ k.isLt h2, zero_bit,
    WordArith.ori_ofBool, WordArith.ori_ofBool, WordArith.ori_ofBool, select_ofBool]
  simp only [ofBits_zero, Bool.false_or, Bool.or_eq_true, decide_eq_true_eq, or_assoc]
  rfl

/-! ## Shape casts that drop or add a unit axis in the middle or at the end -/

section Casts
variable {α : Type}

theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

end Casts

/-! ## A received face, zeroed where an in-plane coordinate sits on the global boundary -/

/-- The face entry (p, q) kept unless p is at position 15·b or q at 15·b'. -/
def masked (b b' : ℕ) (r : S1x16x16.Idx → EReal) (p q : Fin 16) : EReal :=
  if p.val = 15 * b ∨ q.val = 15 * b' then 0 else r (ix3 (0 : Fin 1) p q)

theorem pay8_apply (b1 b2 : ℕ) (h1 : b1 < 2) (h2 : b2 < 2) (r : Vec Ideal S1x16x16 .f32) (p q : Fin 16) :
    k0_pay8 (F := Ideal) (BitVec.ofNat 32 b1) (BitVec.ofNat 32 b2) r (ix2 p q) = masked b1 b2 r p q := by
  unfold k0_pay8
  dsimp only
  simp only [select_apply, ori_apply, cmpi_apply, broadcast_apply, shapeCast_1ab_ab_apply]
  have e0 : iota Kind.tc S16x16 32 [0] iota_S16x16_d0_w32 (ix2 p q) = BitVec.ofNat 32 p.val := iota_single_apply _ _ _ _ _ _
  have e1 : iota Kind.tc S16x16 32 [1] iota_S16x16_d1_w32 (ix2 p q) = BitVec.ofNat 32 q.val := iota_single_apply _ _ _ _ _ _
  rw [e0, e1, cmpi_pos_bnd _ _ p.isLt h1, cmpi_pos_bnd _ _ q.isLt h2, WordArith.ori_ofBool, select_ofBool]
  simp only [ofBits_zero, Bool.or_eq_true, decide_eq_true_eq]
  rfl

theorem pay11_apply (b0 b2 : ℕ) (h0 : b0 < 2) (h2 : b2 < 2) (r : Vec Ideal S1x16x16 .f32) (p q : Fin 16) :
    k0_pay11 (F := Ideal) (BitVec.ofNat 32 b0) (BitVec.ofNat 32 b2) r (ix2 p q) = masked b0 b2 r p q := by
  unfold k0_pay11
  dsimp only
  simp only [select_apply, ori_apply, cmpi_apply, broadcast_apply, shapeCast_1ab_ab_apply]
  have e0 : iota Kind.tc S16x16 32 [0] iota_S16x16_d0_w32 (ix2 p q) = BitVec.ofNat 32 p.val := iota_single_apply _ _ _ _ _ _
  have e1 : iota Kind.tc S16x16 32 [1] iota_S16x16_d1_w32 (ix2 p q) = BitVec.ofNat 32 q.val := iota_single_apply _ _ _ _ _ _
  rw [e0, e1, cmpi_pos_bnd _ _ p.isLt h0, cmpi_pos_bnd _ _ q.isLt h2, WordArith.ori_ofBool, select_ofBool]
  simp only [ofBits_zero, Bool.or_eq_true, decide_eq_true_eq]
  rfl

theorem pay14_apply (b0 b1 : ℕ) (h0 : b0 < 2) (h1 : b1 < 2) (r : Vec Ideal S1x16x16 .f32) (p q : Fin 16) :
    k0_pay14 (F := Ideal) (BitVec.ofNat 32 b0) (BitVec.ofNat 32 b1) r (ix2 p q) = masked b0 b1 r p q := by
  unfold k0_pay14
  dsimp only
  simp only [select_apply, ori_apply, cmpi_apply, broadcast_apply, shapeCast_1ab_ab_apply]
  have e0 : iota Kind.tc S16x16 32 [0] iota_S16x16_d0_w32 (ix2 p q) = BitVec.ofNat 32 p.val := iota_single_apply _ _ _ _ _ _
  have e1 : iota Kind.tc S16x16 32 [1] iota_S16x16_d1_w32 (ix2 p q) = BitVec.ofNat 32 q.val := iota_single_apply _ _ _ _ _ _
  rw [e0, e1, cmpi_pos_bnd _ _ p.isLt h0, cmpi_pos_bnd _ _ q.isLt h1, WordArith.ori_ofBool, select_ofBool]
  simp only [ofBits_zero, Bool.or_eq_true, decide_eq_true_eq]
  rfl

/-! ## The plane that faces the sender, the masked face added -/

theorem pay10_apply (v : FVec Ideal S16x16 .f32) (o : Vec Ideal S1x16x16 .f32) (u : Fin 1) (p q : Fin 16) :
    k0_pay10 (F := Ideal) v o (ix3 u p q) = o (ix3 (0 : Fin 1) p q) + v (ix2 p q) := by
  unfold k0_pay10
  rw [shapeCast_ab_1ab_apply, addf_apply, shapeCast_1ab_ab_apply]

theorem pay9_apply (b1 b2 : ℕ) (h1 : b1 < 2) (h2 : b2 < 2) (r o : Vec Ideal S1x16x16 .f32) (u : Fin 1) (p q : Fin 16) :
    k0_pay9 (F := Ideal) (BitVec.ofNat 32 b1) (BitVec.ofNat 32 b2) r o (ix3 u p q) = o (ix3 (0 : Fin 1) p q) + masked b1 b2 r p q := by
  unfold k0_pay9
  rw [shapeCast_ab_1ab_apply, addf_apply, shapeCast_1ab_ab_apply, pay8_apply b1 b2 h1 h2]

theorem pay12_apply (b0 b2 : ℕ) (h0 : b0 < 2) (h2 : b2 < 2) (r : Vec Ideal S1x16x16 .f32) (o : Vec Ideal S16x1x16 .f32) (p : Fin 16) (u : Fin 1) (q : Fin 16) :
    k0_pay12 (F := Ideal) (BitVec.ofNat 32 b0) (BitVec.ofNat 32 b2) r o (ix3 p u q) = o (ix3 p (0 : Fin 1) q) + masked b0 b2 r p q := by
  unfold k0_pay12
  rw [shapeCast_ab_a1b_apply, addf_apply, shapeCast_a1b_ab_apply, pay11_apply b0 b2 h0 h2]

theorem pay13_apply (b0 b2 : ℕ) (h0 : b0 < 2) (h2 : b2 < 2) (r : Vec Ideal S1x16x16 .f32) (o : Vec Ideal S16x1x16 .f32) (p : Fin 16) (u : Fin 1) (q : Fin 16) :
    k0_pay13 (F := Ideal) (BitVec.ofNat 32 b0) (BitVec.ofNat 32 b2) r o (ix3 p u q) = o (ix3 p (0 : Fin 1) q) + masked b0 b2 r p q := by
  unfold k0_pay13
  rw [shapeCast_ab_a1b_apply, addf_apply, shapeCast_a1b_ab_apply, pay11_apply b0 b2 h0 h2]

theorem pay15_apply (b0 b1 : ℕ) (h0 : b0 < 2) (h1 : b1 < 2) (r : Vec Ideal S1x16x16 .f32) (o : Vec Ideal S16x16x1 .f32) (p q : Fin 16) (u : Fin 1) :
    k0_pay15 (F := Ideal) (BitVec.ofNat 32 b0) (BitVec.ofNat 32 b1) r o (ix3 p q u) = o (ix3 p q (0 : Fin 1)) + masked b0 b1 r p q := by
  unfold k0_pay15
  rw [shapeCast_ab_ab1_apply, addf_apply, shapeCast_ab1_ab_apply, pay14_apply b0 b1 h0 h1]

theorem pay16_apply (b0 b1 : ℕ) (h0 : b0 < 2) (h1 : b1 < 2) (r : Vec Ideal S1x16x16 .f32) (o : Vec Ideal S16x16x1 .f32) (p q : Fin 16) (u : Fin 1) :
    k0_pay16 (F := Ideal) (BitVec.ofNat 32 b0) (BitVec.ofNat 32 b1) r o (ix3 p q u) = o (ix3 p q (0 : Fin 1)) + masked b0 b1 r p q := by
  unfold k0_pay16
  rw [shapeCast_ab_ab1_apply, addf_apply, shapeCast_ab1_ab_apply, pay14_apply b0 b1 h0 h1]

/-! ## The coordinate words -/

theorem word0 (c : Dev nD) : Scalar.remsi (Scalar.divsi (Dev.word c) 4#32) 2#32 = BitVec.ofNat 32 (c.val / 4) := by revert c; decide +kernel
theorem word1 (c : Dev nD) : Scalar.remsi (Scalar.divsi (Dev.word c) 2#32) 2#32 = BitVec.ofNat 32 (c.val / 2 % 2) := by revert c; decide +kernel
theorem word2 (c : Dev nD) : Scalar.remsi (Scalar.divsi (Dev.word c) 1#32) 2#32 = BitVec.ofNat 32 (c.val % 2) := by revert c; decide +kernel
theorem coord0_lt (c : Dev nD) : c.val / 4 < 2 := by revert c; decide
theorem coord1_lt (c : Dev nD) : c.val / 2 % 2 < 2 := by omega
theorem coord2_lt (c : Dev nD) : c.val % 2 < 2 := by omega

end Cert.KernelIdealProof

end
-- ==== Proof.KVDefs.lean ====
/-
The planes that face a neighbour, and what the kernel adds there: the received face, zero where the face's own
in-plane coordinates lie on the global boundary.
-/
import proofs.«900804_g7700000000000805_dist_halo3d_v7x_xyz2x2x2_s16_bf16_1_alg».proof.Proof.Dats
import proofs.«900804_g7700000000000805_dist_halo3d_v7x_xyz2x2x2_s16_bf16_1_alg».proof.Proof.Pays

noncomputable section

namespace Cert.KernelIdealProof

open Cert.KernelIdeal Cert.KernelIdeal.Gen

open Idealize.ShloMosaic
open Idealize.ShloMosaic.TcCoe
open Idealize.SL.Sem
open Idealize.ShloMosaic.ValueIdx

variable (m : (ℓ : Loc nD τ sig) → Buf (Elt Ideal) ℓ) (ρ : Dev nD → PrngReg)

/-- The position, on an axis where the device's mesh coordinate is `b`, of the plane that faces the neighbour. -/
def face (b : ℕ) : ℕ := if b = 0 then 15 else 0

/-- What is added at local index `(i, j, k)` from the face received along axis 0, -/
def E0 (c : Dev nD) (i j k : Fin 16) : EReal :=
  if i.val = face (c.val / 4) then masked (c.val / 2 % 2) (c.val % 2) (ldR rS0 (recvAll (F := Ideal) m ρ c)) j k else 0
/-- along axis 1, -/
def E1 (c : Dev nD) (i j k : Fin 16) : EReal :=
  if j.val = face (c.val / 2 % 2) then masked (c.val / 4) (c.val % 2) (ldR rS1 (recvAll (F := Ideal) m ρ c)) i k else 0
/-- and along axis 2. -/
def E2 (c : Dev nD) (i j k : Fin 16) : EReal :=
  if k.val = face (c.val % 2) then masked (c.val / 4) (c.val / 2 % 2) (ldR rS2 (recvAll (F := Ideal) m ρ c)) i j else 0

end Cert.KernelIdealProof

end
-- ==== Proof.KernelValueAx.lean ====
/-
The output staging buffer after each of the kernel's four stores, read at an index: the local stencil of the
device's block, then, axis by axis, the neighbour's face — zeroed where an in-plane coordinate sits on the global
boundary — added on the plane that faces that neighbour.
-/
import proofs.«900804_g7700000000000805_dist_halo3d_v7x_xyz2x2x2_s16_bf16_1_alg».proof.Proof.Dats
import proofs.«900804_g7700000000000805_dist_halo3d_v7x_xyz2x2x2_s16_bf16_1_alg».proof.Proof.ViewIdx
import proofs.«900804_g7700000000000805_dist_halo3d_v7x_xyz2x2x2_s16_bf16_1_alg».proof.Proof.Pays
import proofs.«900804_g7700000000000805_dist_halo3d_v7x_xyz2x2x2_s16_bf16_1_alg».proof.Proof.KVDefs

noncomputable section

namespace Cert.KernelIdealProof

open Cert.KernelIdeal Cert.KernelIdeal.Gen

open Idealize.ShloMosaic
open Idealize.ShloMosaic.TcCoe
open Idealize.SL.Sem
open Idealize.ShloMosaic.ValueIdx

/-! ## The landing buffer -/

section AnyInstance
variable {F : FTy → Type} [FloatOps F]
variable (m : (ℓ : Loc nD τ sig) → Buf (Elt F) ℓ) (ρ : Dev nD → PrngReg)

/-- Slot `a` of the landing buffer holds the face the neighbour along `a` sends. -/
theorem recvAll_apply (a : Fin 3) (p q : Fin 16) (c : Dev nD) :
    recvAll m ρ c (ix3 a p q) = xblk m ρ (nb a c) (planeIdx a (facePos a (nb a c)) p q) := rfl

end AnyInstance

/-! ## The four stores, at an index, at the exact instance -/

section AtIdeal
variable (m : (ℓ : Loc nD τ sig) → Buf (Elt Ideal) ℓ) (ρ : Dev nD → PrngReg)

/-- The output staging buffer after the first, second, third and last store, as functions into the extended reals. -/
abbrev o0 (c : Dev nD) : S16x16x16.Idx → EReal := out0 (F := Ideal) m ρ c
abbrev o1 (c : Dev nD) : S16x16x16.Idx → EReal := out1 (F := Ideal) m ρ c
abbrev o2 (c : Dev nD) : S16x16x16.Idx → EReal := out2 (F := Ideal) m ρ c
abbrev o3 (c : Dev nD) : S16x16x16.Idx → EReal := outAt (F := Ideal) m ρ c

theorem out1_apply (c : Dev nD) (i j k : Fin 16) :
    o1 m ρ c (ix3 i j k) = o0 m ρ c (ix3 i j k) + E0 m ρ c i j k := by
  show out1 (F := Ideal) m ρ c (ix3 i j k) = _
  unfold out1 E0
  by_cases hc : coord 0 c = 0
  · have hc' : c.val / 4 = 0 := hc
    rw [if_pos hc, hc', show face 0 = 15 from rfl]
    refine (oM_st_rX15 _ _ _).trans ?_
    by_cases hi : i.val = 15
    · rw [if_pos hi, if_pos hi]
      show k0_pay9 (F := Ideal) (Scalar.remsi (Scalar.divsi (Dev.word c) 2#32) 2#32) (Scalar.remsi (Scalar.divsi (Dev.word c) 1#32) 2#32)
        (ldR rS0 (recvAll m ρ c)) (ldO rX15 (out0 m ρ c)) (ix3 (0 : Fin 1) j k) = _
      rw [word1, word2, pay9_apply _ _ (coord1_lt c) (coord2_lt c)]
      obtain rfl : i = 15 := Fin.ext hi
      exact congrArg (· + masked (c.val / 2 % 2) (c.val % 2) (ldR rS0 (recvAll (F := Ideal) m ρ c)) j k) (oM_ld_rX15 _ _)
    · rw [if_neg hi, if_neg hi, add_zero]
  · have hc' : c.val / 4 = 1 := by have := coord0_lt c; have h' : c.val / 4 ≠ 0 := hc; omega
    rw [if_neg hc, hc', show face 1 = 0 from rfl]
    refine (oM_st_rX0 _ _ _).trans ?_
    by_cases hi : i.val = 0
    · rw [if_pos hi, if_pos hi]
      show k0_pay10 (F := Ideal) (k0_pay8 (Scalar.remsi (Scalar.divsi (Dev.word c) 2#32) 2#32) (Scalar.remsi (Scalar.divsi (Dev.word c) 1#32) 2#32)
        (ldR rS0 (recvAll m ρ c))) (ldO rX0 (out0 m ρ c)) (ix3 (0 : Fin 1) j k) = _
      rw [word1, word2, pay10_apply, pay8_apply _ _ (coord1_lt c) (coord2_lt c)]
      obtain rfl : i = 0 := Fin.ext hi
      exact congrArg (· + masked (c.val / 2 % 2) (c.val % 2) (ldR rS0 (recvAll (F := Ideal) m ρ c)) j k) (oM_ld_rX0 _ _)
    · rw [if_neg hi, if_neg hi, add_zero]

theorem out2_apply (c : Dev nD) (i j k : Fin 16) :
    o2 m ρ c (ix3 i j k) = o1 m ρ c (ix3 i j k) + E1 m ρ c i j k := by
  show out2 (F := Ideal) m ρ c (ix3 i j k) = _
  unfold out2 E1
  by_cases hc : coord 1 c = 0
  · have hc' : c.val / 2 % 2 = 0 := hc
    rw [if_pos hc, hc', show face 0 = 15 from rfl]
    refine (oM_st_rY15 _ _ _).trans ?_
    by_cases hj : j.val = 15
    · rw [if_pos hj, if_pos hj]
      show k0_pay12 (F := Ideal) (Scalar.remsi (Scalar.divsi (Dev.word c) 4#32) 2#32) (Scalar.remsi (Scalar.divsi (Dev.word c) 1#32) 2#32)
        (ldR rS1 (recvAll m ρ c)) (ldO rY15 (out1 m ρ c)) (ix3 i (0 : Fin 1) k) = _
      rw [word0, word2, pay12_apply _ _ (coord0_lt c) (coord2_lt c)]
      obtain rfl : j = 15 := Fin.ext hj
      exact congrArg (· + masked (c.val / 4) (c.val % 2) (ldR rS1 (recvAll (F := Ideal) m ρ c)) i k) (oM_ld_rY15 _ _)
    · rw [if_neg hj, if_neg hj, add_zero]
  · have hc' : c.val / 2 % 2 = 1 := by have := coord1_lt c; have h' : c.val / 2 % 2 ≠ 0 := hc; omega
    rw [if_neg hc, hc', show face 1 = 0 from rfl]
    refine (oM_st_rY0 _ _ _).trans ?_
    by_cases hj : j.val = 0
    · rw [if_pos hj, if_pos hj]
      show k0_pay13 (F := Ideal) (Scalar.remsi (Scalar.divsi (Dev.word c) 4#32) 2#32) (Scalar.remsi (Scalar.divsi (Dev.word c) 1#32) 2#32)
        (ldR rS1 (recvAll m ρ c)) (ldO rY0 (out1 m ρ c)) (ix3 i (0 : Fin 1) k) = _
      rw [word0, word2, pay13_apply _ _ (coord0_lt c) (coord2_lt c)]
      obtain rfl : j = 0 := Fin.ext hj
      exact congrArg (· + masked (c.val / 4) (c.val % 2) (ldR rS1 (recvAll (F := Ideal) m ρ c)) i k) (oM_ld_rY0 _ _)
    · rw [if_neg hj, if_neg hj, add_zero]

theorem out3_apply (c : Dev nD) (i j k : Fin 16) :
    o3 m ρ c (ix3 i j k) = o2 m ρ c (ix3 i j k) + E2 m ρ c i j k := by
  show outAt (F := Ideal) m ρ c (ix3 i j k) = _
  unfold outAt E2
  by_cases hc : coord 2 c = 0
  · have hc' : c.val % 2 = 0 := hc
    rw [if_pos hc, hc', show face 0 = 15 from rfl]
    refine (oM_st_rZ15 _ _ _).trans ?_
    by_cases hk : k.val = 15
    · rw [if_pos hk, if_pos hk]
      show k0_pay15 (F := Ideal) (Scalar.remsi (Scalar.divsi (Dev.word c) 4#32) 2#32) (Scalar.remsi (Scalar.divsi (Dev.word c) 2#32) 2#32)
        (ldR rS2 (recvAll m ρ c)) (ldO rZ15 (out2 m ρ c)) (ix3 i j (0 : Fin 1)) = _
      rw [word0, word1, pay15_apply _ _ (coord0_lt c) (coord1_lt c)]
      obtain rfl : k = 15 := Fin.ext hk
      exact congrArg (· + masked (c.val / 4) (c.val / 2 % 2) (ldR rS2 (recvAll (F := Ideal) m ρ c)) i j) (oM_ld_rZ15 _ _)
    · rw [if_neg hk, if_neg hk, add_zero]
  · have hc' : c.val % 2 = 1 := by have := coord2_lt c; have h' : c.val % 2 ≠ 0 := hc; omega
    rw [if_neg hc, hc', show face 1 = 0 from rfl]
    refine (oM_st_rZ0 _ _ _).trans ?_
    by_cases hk : k.val = 0
    · rw [if_pos hk, if_pos hk]
      show k0_pay16 (F := Ideal) (Scalar.remsi (Scalar.divsi (Dev.word c) 4#32) 2#32) (Scalar.remsi (Scalar.divsi (Dev.word c) 2#32) 2#32)
        (ldR rS2 (recvAll m ρ c)) (ldO rZ0 (out2 m ρ c)) (ix3 i j (0 : Fin 1)) = _
      rw [word0, word1, pay16_apply _ _ (coord0_lt c) (coord1_lt c)]
      obtain rfl : k = 0 := Fin.ext hk
      exact congrArg (· + masked (c.val / 4) (c.val / 2 % 2) (ldR rS2 (recvAll (F := Ideal) m ρ c)) i j) (oM_ld_rZ0 _ _)
    · rw [if_neg hk, if_neg hk, add_zero]

/-- The kernel's result at an index: the local stencil and the three received faces, added in the kernel's order. -/
theorem outAt_apply (c : Dev nD) (i j k : Fin 16) :
    o3 m ρ c (ix3 i j k) = o0 m ρ c (ix3 i j k) + E0 m ρ c i j k + E1 m ρ c i j k + E2 m ρ c i j k := by
  rw [out3_apply, out2_apply, out1_apply]

/-- The landing-buffer loads read the slots. -/
theorem ldR0_apply (c : Dev nD) (p q : Fin 16) :
    ldR rS0 (recvAll (F := Ideal) m ρ c) (ix3 (0 : Fin 1) p q) = recvAll (F := Ideal) m ρ c (ix3 (0 : Fin 3) p q) := rM_ld_rS0 _ _
theorem ldR1_apply (c : Dev nD) (p q : Fin 16) :
    ldR rS1 (recvAll (F := Ideal) m ρ c) (ix3 (0 : Fin 1) p q) = recvAll (F := Ideal) m ρ c (ix3 (1 : Fin 3) p q) := rM_ld_rS1 _ _
theorem ldR2_apply (c : Dev nD) (p q : Fin 16) :
    ldR rS2 (recvAll (F := Ideal) m ρ c) (ix3 (0 : Fin 1) p q) = recvAll (F := Ideal) m ρ c (ix3 (2 : Fin 3) p q) := rM_ld_rS2 _ _

end AtIdeal

end Cert.KernelIdealProof

end
-- ==== Proof.RefValue.lean ====
import proofs.«900804_g7700000000000805_dist_halo3d_v7x_xyz2x2x2_s16_bf16_1_alg».proof.Proof.Gen.ReferenceIdeal.Run
import proofs.«900804_g7700000000000805_dist_halo3d_v7x_xyz2x2x2_s16_bf16_1_alg».proof.Proof.Gen.ReferenceIdeal.Read
import Idealize.ShloMosaic.Lib.ValueIdx
import Idealize.ShloMosaic.Lib.Layout
import Idealize.ShloMosaic.Lib.Pipeline.Value
import Idealize.ShloMosaic.PureOps.Ideal
import Idealize.ShloMosaic.PureOps.Ideal.Laws

noncomputable section

namespace Cert.RefValue

open Cert.ReferenceIdeal Cert.ReferenceIdeal.Gen Idealize.ShloMosaic Idealize.ShloMosaic.TcCoe Idealize.SL.Sem Idealize.ShloMosaic.StableHlo

/-- An index of the 32×32×32 array from its three coordinates. -/
abbrev ix3 (a b c : Fin 32) : S32x32x32.Idx := fun d => match d with | ⟨0, _⟩ => a | ⟨1, _⟩ => b | ⟨2, _⟩ => c

/-- The seven-point stencil on the whole 32×32×32 array: zero on the boundary, and at an interior point the sum of
    the six neighbours (added left to right: the two along axis 0, then axis 1, then axis 2) less six times the
    point's own value. -/
def stencil (U : S32x32x32.Idx → EReal) : S32x32x32.Idx → EReal := fun i =>
  if h : 0 < (i 0).val ∧ (i 0).val < 31 ∧ 0 < (i 1).val ∧ (i 1).val < 31 ∧ 0 < (i 2).val ∧ (i 2).val < 31 then
    U (ix3 ⟨(i 0).val - 1, by omega⟩ (i 1) (i 2)) + U (ix3 ⟨(i 0).val + 1, by omega⟩ (i 1) (i 2))
      + U (ix3 (i 0) ⟨(i 1).val - 1, by omega⟩ (i 2)) + U (ix3 (i 0) ⟨(i 1).val + 1, by omega⟩ (i 2))
      + U (ix3 (i 0) (i 1) ⟨(i 2).val - 1, by omega⟩) + U (ix3 (i 0) (i 1) ⟨(i 2).val + 1, by omega⟩)
      - (Ideal.ofBits .f32 0x40C00000#32 * U i)
  else 0

/-- The stencil at a boundary index. -/
theorem stencil_boundary (U : S32x32x32.Idx → EReal) (i : S32x32x32.Idx)
    (h : ¬(0 < (i 0).val ∧ (i 0).val < 31 ∧ 0 < (i 1).val ∧ (i 1).val < 31 ∧ 0 < (i 2).val ∧ (i 2).val < 31)) :
    stencil U i = 0 := by
  unfold stencil; rw [dif_neg h]

/-- The stencil at an interior index, by coordinates. -/
theorem stencil_interior (U : S32x32x32.Idx → EReal) (a b c : Fin 32)
    (ha0 : 0 < a.val) (ha1 : a.val < 31) (hb0 : 0 < b.val) (hb1 : b.val < 31) (hc0 : 0 < c.val) (hc1 : c.val < 31) :
    stencil U (ix3 a b c)
      = U (ix3 ⟨a.val - 1, by omega⟩ b c) + U (ix3 ⟨a.val + 1, by omega⟩ b c)
        + U (ix3 a ⟨b.val - 1, by omega⟩ c) + U (ix3 a ⟨b.val + 1, by omega⟩ c)
        + U (ix3 a b ⟨c.val - 1, by omega⟩) + U (ix3 a b ⟨c.val + 1, by omega⟩)
        - (Ideal.ofBits .f32 0x40C00000#32 * U (ix3 a b c)) := by
  unfold stencil
  rw [dif_pos (show 0 < ((ix3 a b c) 0).val ∧ ((ix3 a b c) 0).val < 31 ∧ 0 < ((ix3 a b c) 1).val ∧ ((ix3 a b c) 1).val < 31
      ∧ 0 < ((ix3 a b c) 2).val ∧ ((ix3 a b c) 2).val < 31 from ⟨ha0, ha1, hb0, hb1, hc0, hc1⟩)]

/-! ## A fold of pointwise overwrites, read at one index -/

/-- A left fold whose steps leave index `i` alone on the elements that miss it (`¬ P n`), over a list that misses it
    throughout, leaves index `i` at its initial value. -/
theorem foldl_miss {ι α β : Type} (step : (ι → α) → β → (ι → α)) (i : ι) (P : β → Prop)
    (hmiss : ∀ r n, ¬ P n → step r n i = r i) :
    ∀ (l : List β) (x : ι → α), (∀ n ∈ l, ¬ P n) → l.foldl step x i = x i
  | [], _, _ => rfl
  | n :: l, x, h => by
    rw [List.foldl_cons, foldl_miss step i P hmiss l _ (fun n' hn' => h n' (List.mem_cons_of_mem _ hn'))]
    exact hmiss x n (h n (List.mem_cons_self ..))

/-- A left fold whose steps leave index `i` alone on the elements that miss it and write the one value `a` there on
    the elements that hit it (`P n`), over a list with a hit, ends with `a` at index `i`. -/
theorem foldl_hit {ι α β : Type} (step : (ι → α) → β → (ι → α)) (i : ι) (P : β → Prop) (a : α)
    (hmiss : ∀ r n, ¬ P n → step r n i = r i) (hhit : ∀ r n, P n → step r n i = a) :
    ∀ (l : List β) (x : ι → α), (∃ n ∈ l, P n) → l.foldl step x i = a
  | [], _, h => by obtain ⟨n, hn, _⟩ := h; cases hn
  | n :: l, x, h => by
    rw [List.foldl_cons]
    by_cases hl : ∃ n' ∈ l, P n'
    · exact foldl_hit step i P a hmiss hhit l _ hl
    · have hl' : ∀ n' ∈ l, ¬ P n' := fun n' hn' hp => hl ⟨n', hn', hp⟩
      rw [foldl_miss step i P hmiss l _ hl']
      obtain ⟨n', hn', hp⟩ := h
      rcases List.mem_cons.1 hn' with rfl | hn''
      · exact hhit x n' hp
      · exact absurd hp (hl' n' hn'')

/-! ## The scatter of the interior -/

/-- The scatter's start indices: the constant one on each of the three axes. -/
theorem start_eq (j : S30x30x30.Idx) (a : Fin 3) :
    scatter_S32x32x32_S3_S30x30x30_012_n_012_0.start j (Read.val_main_v19 (F := Ideal)) a = 1 := by
  match a with
  | ⟨0, _⟩ => rfl
  | ⟨1, _⟩ => rfl
  | ⟨2, _⟩ => rfl

theorem window_eq (j : S30x30x30.Idx) (a : Fin 3) :
    scatter_S32x32x32_S3_S30x30x30_012_n_012_0.window j a = (j a).val := by
  match a with
  | ⟨0, _⟩ => rfl
  | ⟨1, _⟩ => rfl
  | ⟨2, _⟩ => rfl

/-- Every update lands inside the array, one further along each axis: at the index the interior slice reads. -/
theorem resultIdx_eq (j : S30x30x30.Idx) :
    scatter_S32x32x32_S3_S30x30x30_012_n_012_0.resultIdx? j (Read.val_main_v19 (F := Ideal)) = some (Read.idx_main_v12 j) := by
  have hb : ∀ a : Fin S32x32x32.rank,
      0 ≤ scatter_S32x32x32_S3_S30x30x30_012_n_012_0.start j (Read.val_main_v19 (F := Ideal)) a
            + scatter_S32x32x32_S3_S30x30x30_012_n_012_0.window j a
      ∧ scatter_S32x32x32_S3_S30x30x30_012_n_012_0.start j (Read.val_main_v19 (F := Ideal)) a
            + scatter_S32x32x32_S3_S30x30x30_012_n_012_0.window j a < S32x32x32.size a := by
    intro a
    rw [start_eq j a, window_eq j a]
    match a with
    | ⟨0, _⟩ => have h0 : (j 0).val < 30 := (j 0).isLt; exact ⟨by omega, by show (1 : Int) + ((j 0).val : Int) < 32; omega⟩
    | ⟨1, _⟩ => have h1 : (j 1).val < 30 := (j 1).isLt; exact ⟨by omega, by show (1 : Int) + ((j 1).val : Int) < 32; omega⟩
    | ⟨2, _⟩ => have h2 : (j 2).val < 30 := (j 2).isLt; exact ⟨by omega, by show (1 : Int) + ((j 2).val : Int) < 32; omega⟩
  unfold ScatterDims.resultIdx?
  rw [dif_pos hb]
  congr 1
  funext a
  apply Fin.ext
  show (scatter_S32x32x32_S3_S30x30x30_012_n_012_0.start j (Read.val_main_v19 (F := Ideal)) a
            + scatter_S32x32x32_S3_S30x30x30_012_n_012_0.window j a).toNat = _
  rw [start_eq j a, window_eq j a]
  match a with
  | ⟨0, _⟩ => show ((1 : Int) + ((j 0).val : Int)).toNat = 1 + (j 0).val; omega
  | ⟨1, _⟩ => show ((1 : Int) + ((j 1).val : Int)).toNat = 1 + (j 1).val; omega
  | ⟨2, _⟩ => show ((1 : Int) + ((j 2).val : Int)).toNat = 1 + (j 2).val; omega

/-- The interior shift is injective. -/
theorem idx_main_v12_inj {j j' : S30x30x30.Idx} (h : Read.idx_main_v12 j = Read.idx_main_v12 j') : j = j' := by
  funext a
  apply Fin.ext
  match a with
  | ⟨0, _⟩ =>
    have := congrArg (fun k : S32x32x32.Idx => (k 0).val) h
    change 1 + (j 0).val = 1 + (j' 0).val at this
    show (j 0).val = (j' 0).val
    omega
  | ⟨1, _⟩ =>
    have := congrArg (fun k : S32x32x32.Idx => (k 1).val) h
    change 1 + (j 1).val = 1 + (j' 1).val at this
    show (j 1).val = (j' 1).val
    omega
  | ⟨2, _⟩ =>
    have := congrArg (fun k : S32x32x32.Idx => (k 2).val) h
    change 1 + (j 2).val = 1 + (j' 2).val at this
    show (j 2).val = (j' 2).val
    omega

/-- The scatter of `upd` into `x` at start (1, 1, 1), read at an interior index. -/
theorem scatter_interior (x : S32x32x32.Idx → EReal) (upd : S30x30x30.Idx → EReal) (j : S30x30x30.Idx) :
    Host.scatter scatter_S32x32x32_S3_S30x30x30_012_n_012_0 (fun _ b => b) x (Read.val_main_v19 (F := Ideal)) upd (Read.idx_main_v12 j)
      = upd j := by
  unfold Host.scatter
  refine foldl_hit _ (Read.idx_main_v12 j)
    (fun n => scatter_S32x32x32_S3_S30x30x30_012_n_012_0.resultIdx? (S30x30x30.rowMajor.symm n) (Read.val_main_v19 (F := Ideal)) = some (Read.idx_main_v12 j))
    (upd j) ?_ ?_ _ x ⟨S30x30x30.rowMajor j, List.mem_finRange _, ?_⟩
  · intro r n hn
    rw [resultIdx_eq] at hn ⊢
    have hne : Read.idx_main_v12 j ≠ Read.idx_main_v12 (S30x30x30.rowMajor.symm n) := fun e => hn (congrArg some e.symm)
    show (if Read.idx_main_v12 j = Read.idx_main_v12 (S30x30x30.rowMajor.symm n) then _ else r (Read.idx_main_v12 j)) = _
    rw [if_neg hne]
  · intro r n hn
    rw [resultIdx_eq] at hn ⊢
    have he : S30x30x30.rowMajor.symm n = j := idx_main_v12_inj (Option.some.inj hn)
    show (if Read.idx_main_v12 j = Read.idx_main_v12 (S30x30x30.rowMajor.symm n) then upd (S30x30x30.rowMajor.symm n) else _) = _
    rw [he, if_pos rfl]
  · rw [Equiv.symm_apply_apply, resultIdx_eq]

/-- The same scatter read at an index no update lands on. -/
theorem scatter_boundary (x : S32x32x32.Idx → EReal) (upd : S30x30x30.Idx → EReal) (i : S32x32x32.Idx)
    (hi : ∀ j : S30x30x30.Idx, Read.idx_main_v12 j ≠ i) :
    Host.scatter scatter_S32x32x32_S3_S30x30x30_012_n_012_0 (fun _ b => b) x (Read.val_main_v19 (F := Ideal)) upd i = x i := by
  unfold Host.scatter
  refine foldl_miss _ i
    (fun n => scatter_S32x32x32_S3_S30x30x30_012_n_012_0.resultIdx? (S30x30x30.rowMajor.symm n) (Read.val_main_v19 (F := Ideal)) = some i)
    ?_ _ x (fun n _ => ?_)
  · intro r n hn
    rw [resultIdx_eq] at hn ⊢
    have hne : i ≠ Read.idx_main_v12 (S30x30x30.rowMajor.symm n) := fun e => hn (congrArg some e.symm)
    show (if i = Read.idx_main_v12 (S30x30x30.rowMajor.symm n) then _ else r i) = _
    rw [if_neg hne]
  · rw [resultIdx_eq]
    exact fun e => hi _ (Option.some.inj e)

/-- The reference's result is the stencil, index by index. -/
theorem val_main_v20_eq_stencil (U : S32x32x32.Idx → EReal) :
    Read.val_main_v20 (F := Ideal) U = stencil U := by
  funext i
  unfold Read.val_main_v20 stencil
  by_cases h : 0 < (i 0).val ∧ (i 0).val < 31 ∧ 0 < (i 1).val ∧ (i 1).val < 31 ∧ 0 < (i 2).val ∧ (i 2).val < 31
  · rw [dif_pos h]
    obtain ⟨j, rfl⟩ : ∃ j : S30x30x30.Idx, Read.idx_main_v12 j = i := by
      refine ⟨fun a => match a with
        | ⟨0, _⟩ => ⟨(i 0).val - 1, by show _ < 30; omega⟩
        | ⟨1, _⟩ => ⟨(i 1).val - 1, by show _ < 30; omega⟩
        | ⟨2, _⟩ => ⟨(i 2).val - 1, by show _ < 30; omega⟩, ?_⟩
      funext a
      apply Fin.ext
      match a with
      | ⟨0, _⟩ => show 1 + ((i 0).val - 1) = (i 0).val; omega
      | ⟨1, _⟩ => show 1 + ((i 1).val - 1) = (i 1).val; omega
      | ⟨2, _⟩ => show 1 + ((i 2).val - 1) = (i 2).val; omega
    rw [scatter_interior]
    rw [Read.val_main_v15_apply, Read.val_main_v11_apply, Read.val_main_v9_apply, Read.val_main_v7_apply, Read.val_main_v5_apply,
      Read.val_main_v3_apply, Read.val_main_v1_apply, Read.val_main_v2_apply, Read.val_main_v4_apply, Read.val_main_v6_apply,
      Read.val_main_v8_apply, Read.val_main_v10_apply, Read.val_main_v14_apply, Read.val_main_v13_apply, Read.val_main_cst_0_apply,
      Read.val_main_v12_apply]
    simp only [Ideal.addf_def, Ideal.subf_def, Ideal.mulf_def, Ideal.ofBits_def]
    refine congrArg₂ (· - ·) ?_ rfl
    refine congrArg₂ (· + ·) (congrArg₂ (· + ·) (congrArg₂ (· + ·) (congrArg₂ (· + ·) (congrArg₂ (· + ·) ?_ ?_) ?_) ?_) ?_) ?_
    all_goals
      refine congrArg U ?_
      funext a
      apply Fin.ext
      match a with
      | ⟨0, _⟩ => dsimp only [Read.idx_main_v1, Read.idx_main_v2, Read.idx_main_v4, Read.idx_main_v6, Read.idx_main_v8, Read.idx_main_v10, Read.idx_main_v12, ix3] <;> omega
      | ⟨1, _⟩ => dsimp only [Read.idx_main_v1, Read.idx_main_v2, Read.idx_main_v4, Read.idx_main_v6, Read.idx_main_v8, Read.idx_main_v10, Read.idx_main_v12, ix3] <;> omega
      | ⟨2, _⟩ => dsimp only [Read.idx_main_v1, Read.idx_main_v2, Read.idx_main_v4, Read.idx_main_v6, Read.idx_main_v8, Read.idx_main_v10, Read.idx_main_v12, ix3] <;> omega
  · rw [dif_neg h]
    rw [scatter_boundary _ _ i (fun j e => h (by
      subst e
      have h0 : (j 0).val < 30 := (j 0).isLt
      have h1 : (j 1).val < 30 := (j 1).isLt
      have h2 : (j 2).val < 30 := (j 2).isLt
      show 0 < 1 + (j 0).val ∧ 1 + (j 0).val < 31 ∧ 0 < 1 + (j 1).val ∧ 1 + (j 1).val < 31 ∧ 0 < 1 + (j 2).val ∧ 1 + (j 2).val < 31
      omega))]
    rw [Read.val_main_v0_apply, Read.val_main_cst_apply]
    exact Ideal.ofBits_zero_f32

theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v20)
          = stencil (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) := by
  refine (θ_run _ _ _).mono (fun r h => ?_) (Cert.ReferenceIdeal.Value.run (F := Ideal) m' g')
  obtain ⟨h20, h0⟩ := h 0
  refine ⟨?_, h0⟩
  rw [h20, Read.val_main_v20_eq]
  exact val_main_v20_eq_stencil _

/-- Device `c`'s 16×16×16 block of a 32×32×32 array, on the 2×2×2 mesh cut once along each axis, read at an index:
    the whole array sixteen times the device's mesh coordinate further along each axis. -/
theorem blockN_apply {α : Type} (c : Fin 8) (X : (⟨3, ![32, 32, 32]⟩ : Shape).Idx → α) (i : (⟨3, ![16, 16, 16]⟩ : Shape).Idx) :
    (Layout.blockN ⟨3, ![16, 16, 16]⟩ ⟨3, ![32, 32, 32]⟩ (Layout.meshBlock [2, 2, 2] ![[0], [1], [2]] c) X) i
      = X (ix3 ⟨16 * (c.val / 4) + (i 0).val, by have h0 : (i 0).val < 16 := (i 0).isLt; have := c.isLt; show _ < 32; omega⟩
               ⟨16 * (c.val / 2 % 2) + (i 1).val, by have h1 : (i 1).val < 16 := (i 1).isLt; show _ < 32; omega⟩
               ⟨16 * (c.val % 2) + (i 2).val, by have h2 : (i 2).val < 16 := (i 2).isLt; show _ < 32; omega⟩) := by
  rw [Layout.blockN_apply]
  refine congrArg X ?_
  funext b
  apply Fin.ext
  rw [Layout.TilesN.idx_val]
  have hc := c.isLt
  match b with
  | ⟨0, _⟩ =>
    show Layout.meshLin [2, 2, 2] c.val [0] * 16 + (i 0).val = 16 * (c.val / 4) + (i 0).val
    show (c.val / 4 % 2 * 1 + 0) * 16 + (i 0).val = 16 * (c.val / 4) + (i 0).val
    omega
  | ⟨1, _⟩ =>
    show Layout.meshLin [2, 2, 2] c.val [1] * 16 + (i 1).val = 16 * (c.val / 2 % 2) + (i 1).val
    show (c.val / 2 % 2 * 1 + 0) * 16 + (i 1).val = 16 * (c.val / 2 % 2) + (i 1).val
    omega
  | ⟨2, _⟩ =>
    show Layout.meshLin [2, 2, 2] c.val [2] * 16 + (i 2).val = 16 * (c.val % 2) + (i 2).val
    show (c.val / 1 % 2 * 1 + 0) * 16 + (i 2).val = 16 * (c.val % 2) + (i 2).val
    omega

end Cert.RefValue

end
-- ==== Proof.KernelValue.lean ====
/-
The kernel's result on device `c` is that device's block of the seven-point stencil of the whole array.
-/
import proofs.«900804_g7700000000000805_dist_halo3d_v7x_xyz2x2x2_s16_bf16_1_alg».proof.Proof.Dats
import proofs.«900804_g7700000000000805_dist_halo3d_v7x_xyz2x2x2_s16_bf16_1_alg».proof.Proof.ViewIdx
import proofs.«900804_g7700000000000805_dist_halo3d_v7x_xyz2x2x2_s16_bf16_1_alg».proof.Proof.Pays
import proofs.«900804_g7700000000000805_dist_halo3d_v7x_xyz2x2x2_s16_bf16_1_alg».proof.Proof.KVDefs
import proofs.«900804_g7700000000000805_dist_halo3d_v7x_xyz2x2x2_s16_bf16_1_alg».proof.Proof.KernelValueAx
import proofs.«900804_g7700000000000805_dist_halo3d_v7x_xyz2x2x2_s16_bf16_1_alg».proof.Proof.RefValue

noncomputable section

namespace Cert.KernelIdealProof

open Cert.KernelIdeal Cert.KernelIdeal.Gen

open Idealize.ShloMosaic
open Idealize.ShloMosaic.TcCoe
open Idealize.SL.Sem
open Idealize.ShloMosaic.ValueIdx

variable (m : (ℓ : Loc nD τ sig) → Buf (Elt Ideal) ℓ) (ρ : Dev nD → PrngReg)

/-! ## The device's block and the received faces, by global coordinates -/

/-- The global coordinate on each axis of local coordinate `t` on device `c`. -/
abbrev g0 (c : Dev nD) (t : Fin 16) : Fin 32 := ⟨16 * (c.val / 4) + t.val, by have hc : c.val < 8 := c.isLt; have := t.isLt; omega⟩
abbrev g1 (c : Dev nD) (t : Fin 16) : Fin 32 := ⟨16 * (c.val / 2 % 2) + t.val, by have := t.isLt; omega⟩
abbrev g2 (c : Dev nD) (t : Fin 16) : Fin 32 := ⟨16 * (c.val % 2) + t.val, by have := t.isLt; omega⟩

/-- The staged block is the device's argument buffer: the input window is the whole array. -/
theorem xblk_eq (c : Dev nD) (i : S16x16x16.Idx) :
    xblk (F := Ideal) m ρ c i = m ((c : Thread nD τ).loc main_arg0) i := by
  unfold xblk
  exact congrFun (Memref.read_access_unit_zero (Elt Ideal) main_arg0 (funext fun a => Nat.zero_mul _) _ _) i

variable (U : (⟨3, ![32, 32, 32]⟩ : Shape).Idx → EReal)
  (hU : ∀ c : Dev nD, m ((c.tc : Thread nD τ).loc main_arg0)
    = Layout.blockN ⟨3, ![16, 16, 16]⟩ ⟨3, ![32, 32, 32]⟩ (Layout.meshBlock [2, 2, 2] ![[0], [1], [2]] c) U)

include hU in
/-- The staged block at a local index is the whole array at the global one. -/
theorem xblk_apply (c : Dev nD) (i j k : Fin 16) :
    xblk (F := Ideal) m ρ c (ix3 i j k) = U (RefValue.ix3 (g0 c i) (g1 c j) (g2 c k)) := by
  rw [xblk_eq]
  exact (congrFun (hU c) (ix3 i j k)).trans (RefValue.blockN_apply c U (ix3 i j k))

theorem planeIdx0 (t p q : Fin 16) : planeIdx 0 t p q = ix3 t p q := by
  funext a; match a with | ⟨0, _⟩ => rfl | ⟨1, _⟩ => rfl | ⟨2, _⟩ => rfl
theorem planeIdx1 (t p q : Fin 16) : planeIdx 1 t p q = ix3 p t q := by
  funext a; match a with | ⟨0, _⟩ => rfl | ⟨1, _⟩ => rfl | ⟨2, _⟩ => rfl
theorem planeIdx2 (t p q : Fin 16) : planeIdx 2 t p q = ix3 p q t := by
  funext a; match a with | ⟨0, _⟩ => rfl | ⟨1, _⟩ => rfl | ⟨2, _⟩ => rfl

/-- Slot `a` of the landing buffer holds the neighbour's face along `a`. -/
theorem recvAll0 (c : Dev nD) (p q : Fin 16) :
    recvAll (F := Ideal) m ρ c (ix3 (0 : Fin 3) p q) = xblk (F := Ideal) m ρ (nb 0 c) (ix3 (facePos 0 (nb 0 c)) p q) := by
  rw [← planeIdx0]; rfl
theorem recvAll1 (c : Dev nD) (p q : Fin 16) :
    recvAll (F := Ideal) m ρ c (ix3 (1 : Fin 3) p q) = xblk (F := Ideal) m ρ (nb 1 c) (ix3 p (facePos 1 (nb 1 c)) q) := by
  rw [← planeIdx1]; rfl
theorem recvAll2 (c : Dev nD) (p q : Fin 16) :
    recvAll (F := Ideal) m ρ c (ix3 (2 : Fin 3) p q) = xblk (F := Ideal) m ρ (nb 2 c) (ix3 p q (facePos 2 (nb 2 c))) := by
  rw [← planeIdx2]; rfl

/-- The neighbours' mesh coordinates. -/
theorem nb0_coords (c : Dev nD) : (nb 0 c).val / 4 = 1 - c.val / 4 ∧ (nb 0 c).val / 2 % 2 = c.val / 2 % 2 ∧ (nb 0 c).val % 2 = c.val % 2 := by
  revert c; decide
theorem nb1_coords (c : Dev nD) : (nb 1 c).val / 4 = c.val / 4 ∧ (nb 1 c).val / 2 % 2 = 1 - c.val / 2 % 2 ∧ (nb 1 c).val % 2 = c.val % 2 := by
  revert c; decide
theorem nb2_coords (c : Dev nD) : (nb 2 c).val / 4 = c.val / 4 ∧ (nb 2 c).val / 2 % 2 = c.val / 2 % 2 ∧ (nb 2 c).val % 2 = 1 - c.val % 2 := by
  revert c; decide

theorem coord0 (c : Dev nD) : coord 0 c = c.val / 4 := rfl
theorem coord1 (c : Dev nD) : coord 1 c = c.val / 2 % 2 := rfl
theorem coord2 (c : Dev nD) : coord 2 c = c.val % 2 := rfl

/-! ## The local stencil -/

theorem out0_apply (c : Dev nD) (i j k : Fin 16) :
    o0 m ρ c (ix3 i j k)
      = if i.val = 15 * (c.val / 4) ∨ j.val = 15 * (c.val / 2 % 2) ∨ k.val = 15 * (c.val % 2) then 0
        else locStencil (xblk (F := Ideal) m ρ c) i j k := by
  show out0 (F := Ideal) m ρ c (ix3 i j k) = _
  unfold out0
  have e0 : w0 c = BitVec.ofNat 32 (c.val / 4) := word0 c
  have e1 : w1 c = BitVec.ofNat 32 (c.val / 2 % 2) := word1 c
  have e2 : w2 c = BitVec.ofNat 32 (c.val % 2) := word2 c
  rw [e0, e1, e2]
  exact pay7_apply _ _ _ (coord0_lt c) (coord1_lt c) (coord2_lt c) _ i j k

/-! ## The values by global coordinates -/

include hU in
theorem xblk_at (c : Dev nD) (i j k : Fin 16) (A B C : Fin 32)
    (hA : A.val = 16 * (c.val / 4) + i.val) (hB : B.val = 16 * (c.val / 2 % 2) + j.val) (hC : C.val = 16 * (c.val % 2) + k.val) :
    xblk (F := Ideal) m ρ c (ix3 i j k) = U (RefValue.ix3 A B C) := by
  rw [xblk_apply m ρ U hU]
  obtain rfl : A = g0 c i := Fin.ext hA
  obtain rfl : B = g1 c j := Fin.ext hB
  obtain rfl : C = g2 c k := Fin.ext hC
  rfl

theorem facePos_val (a : Fin 3) (c : Dev nD) : (facePos a c).val = if coord a c = 0 then 15 else 0 := by
  unfold facePos; split <;> rfl

/-! ### Axis 0 -/

include hU in
theorem up0_val (c : Dev nD) (i j k : Fin 16) (h : i.val + 1 < 16) (A B C : Fin 32)
    (hA : A.val = 16 * (c.val / 4) + i.val + 1) (hB : B.val = 16 * (c.val / 2 % 2) + j.val) (hC : C.val = 16 * (c.val % 2) + k.val) :
    up0 (xblk (F := Ideal) m ρ c) i j k = U (RefValue.ix3 A B C) := by
  unfold up0; rw [dif_pos h]
  exact xblk_at m ρ U hU c ⟨i.val + 1, h⟩ j k A B C (by show _ = 16 * (c.val / 4) + (i.val + 1); omega) hB hC

theorem up0_zero (x : S16x16x16.Idx → EReal) (i j k : Fin 16) (h : ¬ i.val + 1 < 16) : up0 x i j k = 0 := by
  unfold up0; exact dif_neg h

include hU in
theorem dn0_val (c : Dev nD) (i j k : Fin 16) (h : 0 < i.val) (A B C : Fin 32)
    (hA : A.val + 1 = 16 * (c.val / 4) + i.val) (hB : B.val = 16 * (c.val / 2 % 2) + j.val) (hC : C.val = 16 * (c.val % 2) + k.val) :
    dn0 (xblk (F := Ideal) m ρ c) i j k = U (RefValue.ix3 A B C) := by
  unfold dn0; rw [dif_pos h]
  exact xblk_at m ρ U hU c ⟨i.val - 1, by omega⟩ j k A B C (by show _ = 16 * (c.val / 4) + (i.val - 1); omega) hB hC

theorem dn0_zero (x : S16x16x16.Idx → EReal) (i j k : Fin 16) (h : ¬ 0 < i.val) : dn0 x i j k = 0 := by
  unfold dn0; exact dif_neg h

theorem E0_zero (c : Dev nD) (i j k : Fin 16) (h : i.val ≠ face (c.val / 4)) : E0 m ρ c i j k = 0 := by
  unfold E0; exact if_neg h

theorem E0_bdry (c : Dev nD) (i j k : Fin 16)
    (h : i.val = 15 * (c.val / 4) ∨ j.val = 15 * (c.val / 2 % 2) ∨ k.val = 15 * (c.val % 2)) : E0 m ρ c i j k = 0 := by
  have hb := coord0_lt c
  unfold E0 masked face
  split_ifs <;> first | rfl | (exfalso; omega)

include hU in
theorem E0_val (c : Dev nD) (i j k : Fin 16) (hf : i.val = face (c.val / 4)) (hj : j.val ≠ 15 * (c.val / 2 % 2)) (hk : k.val ≠ 15 * (c.val % 2)) (A B C : Fin 32)
    (hA : A.val = if c.val / 4 = 0 then 16 else 15) (hB : B.val = 16 * (c.val / 2 % 2) + j.val) (hC : C.val = 16 * (c.val % 2) + k.val) :
    E0 m ρ c i j k = U (RefValue.ix3 A B C) := by
  obtain ⟨n0, n1, n2⟩ := nb0_coords c
  have hb := coord0_lt c
  unfold E0 masked
  rw [if_pos hf, if_neg (by omega), ldR0_apply, recvAll0]
  refine xblk_at m ρ U hU (nb 0 c) (facePos 0 (nb 0 c)) j k A B C ?_ ?_ ?_
  · rw [facePos_val, coord0, n0, hA]; split_ifs <;> omega
  · rw [n1]; exact hB
  · rw [n2]; exact hC

include hU in
/-- Along axis 0: the two local neighbours, zero outside the block, with what the neighbour sent, are the two global
    neighbours. -/
theorem axis0 (c : Dev nD) (i j k : Fin 16) (hi : i.val ≠ 15 * (c.val / 4)) (hj : j.val ≠ 15 * (c.val / 2 % 2)) (hk : k.val ≠ 15 * (c.val % 2))
    (Am Ap A B C : Fin 32) (hAm : Am.val + 1 = 16 * (c.val / 4) + i.val) (hAp : Ap.val = 16 * (c.val / 4) + i.val + 1)
    (hA : A.val = 16 * (c.val / 4) + i.val) (hB : B.val = 16 * (c.val / 2 % 2) + j.val) (hC : C.val = 16 * (c.val % 2) + k.val) :
    up0 (xblk (F := Ideal) m ρ c) i j k + dn0 (xblk (F := Ideal) m ρ c) i j k + E0 m ρ c i j k
      = U (RefValue.ix3 Am B C) + U (RefValue.ix3 Ap B C) := by
  have hb := coord0_lt c
  have hlt := i.isLt
  rcases (show c.val / 4 = 0 ∨ c.val / 4 = 1 by omega) with hb0 | hb0
  · have hface : face (c.val / 4) = 15 := by unfold face; rw [if_pos hb0]
    by_cases h15 : i.val = 15
    · rw [up0_zero _ i j k (by omega),
        dn0_val m ρ U hU c i j k (by omega) Am B C hAm hB hC,
        E0_val m ρ U hU c i j k (by rw [hface]; exact h15) hj hk Ap B C (by rw [if_pos hb0]; omega) hB hC,
        zero_add]
    · rw [up0_val m ρ U hU c i j k (by omega) Ap B C hAp hB hC,
        dn0_val m ρ U hU c i j k (by omega) Am B C hAm hB hC,
        E0_zero m ρ c i j k (by rw [hface]; exact h15), add_zero]
      exact add_comm _ _
  · have hface : face (c.val / 4) = 0 := by unfold face; rw [if_neg (by omega)]
    by_cases h0 : i.val = 0
    · rw [up0_val m ρ U hU c i j k (by omega) Ap B C hAp hB hC,
        dn0_zero _ i j k (by omega),
        E0_val m ρ U hU c i j k (by rw [hface]; exact h0) hj hk Am B C (by rw [if_neg (by omega)]; omega) hB hC,
        add_zero]
      exact add_comm _ _
    · rw [up0_val m ρ U hU c i j k (by omega) Ap B C hAp hB hC,
        dn0_val m ρ U hU c i j k (by omega) Am B C hAm hB hC,
        E0_zero m ρ c i j k (by rw [hface]; exact h0), add_zero]
      exact add_comm _ _

/-! ### Axis 1 -/

include hU in
theorem up1_val (c : Dev nD) (i j k : Fin 16) (h : j.val + 1 < 16) (A B C : Fin 32)
    (hA : A.val = 16 * (c.val / 4) + i.val) (hB : B.val = 16 * (c.val / 2 % 2) + j.val + 1) (hC : C.val = 16 * (c.val % 2) + k.val) :
    up1 (xblk (F := Ideal) m ρ c) i j k = U (RefValue.ix3 A B C) := by
  unfold up1; rw [dif_pos h]
  exact xblk_at m ρ U hU c i ⟨j.val + 1, h⟩ k A B C hA (by show _ = 16 * (c.val / 2 % 2) + (j.val + 1); omega) hC

theorem up1_zero (x : S16x16x16.Idx → EReal) (i j k : Fin 16) (h : ¬ j.val + 1 < 16) : up1 x i j k = 0 := by
  unfold up1; exact dif_neg h

include hU in
theorem dn1_val (c : Dev nD) (i j k : Fin 16) (h : 0 < j.val) (A B C : Fin 32)
    (hA : A.val = 16 * (c.val / 4) + i.val) (hB : B.val + 1 = 16 * (c.val / 2 % 2) + j.val) (hC : C.val = 16 * (c.val % 2) + k.val) :
    dn1 (xblk (F := Ideal) m ρ c) i j k = U (RefValue.ix3 A B C) := by
  unfold dn1; rw [dif_pos h]
  exact xblk_at m ρ U hU c i ⟨j.val - 1, by omega⟩ k A B C hA (by show _ = 16 * (c.val / 2 % 2) + (j.val - 1); omega) hC

theorem dn1_zero (x : S16x16x16.Idx → EReal) (i j k : Fin 16) (h : ¬ 0 < j.val) : dn1 x i j k = 0 := by
  unfold dn1; exact dif_neg h

theorem E1_zero (c : Dev nD) (i j k : Fin 16) (h : j.val ≠ face (c.val / 2 % 2)) : E1 m ρ c i j k = 0 := by
  unfold E1; exact if_neg h

theorem E1_bdry (c : Dev nD) (i j k : Fin 16)
    (h : i.val = 15 * (c.val / 4) ∨ j.val = 15 * (c.val / 2 % 2) ∨ k.val = 15 * (c.val % 2)) : E1 m ρ c i j k = 0 := by
  have hb := coord1_lt c
  unfold E1 masked face
  split_ifs <;> first | rfl | (exfalso; omega)

include hU in
theorem E1_val (c : Dev nD) (i j k : Fin 16) (hf : j.val = face (c.val / 2 % 2)) (hi : i.val ≠ 15 * (c.val / 4)) (hk : k.val ≠ 15 * (c.val % 2)) (A B C : Fin 32)
    (hA : A.val = 16 * (c.val / 4) + i.val) (hB : B.val = if c.val / 2 % 2 = 0 then 16 else 15) (hC : C.val = 16 * (c.val % 2) + k.val) :
    E1 m ρ c i j k = U (RefValue.ix3 A B C) := by
  obtain ⟨n0, n1, n2⟩ := nb1_coords c
  have hb := coord1_lt c
  unfold E1 masked
  rw [if_pos hf, if_neg (by omega), ldR1_apply, recvAll1]
  refine xblk_at m ρ U hU (nb 1 c) i (facePos 1 (nb 1 c)) k A B C ?_ ?_ ?_
  · rw [n0]; exact hA
  · rw [facePos_val, coord1, n1, hB]; split_ifs <;> omega
  · rw [n2]; exact hC

include hU in
/-- Along axis 1: the two local neighbours, zero outside the block, with what the neighbour sent, are the two global
    neighbours. -/
theorem axis1 (c : Dev nD) (i j k : Fin 16) (hi : i.val ≠ 15 * (c.val / 4)) (hj : j.val ≠ 15 * (c.val / 2 % 2)) (hk : k.val ≠ 15 * (c.val % 2))
    (Am Ap A B C : Fin 32) (hAm : Am.val + 1 = 16 * (c.val / 2 % 2) + j.val) (hAp : Ap.val = 16 * (c.val / 2 % 2) + j.val + 1)
    (hA : A.val = 16 * (c.val / 4) + i.val) (hB : B.val = 16 * (c.val / 2 % 2) + j.val) (hC : C.val = 16 * (c.val % 2) + k.val) :
    up1 (xblk (F := Ideal) m ρ c) i j k + dn1 (xblk (F := Ideal) m ρ c) i j k + E1 m ρ c i j k
      = U (RefValue.ix3 A Am C) + U (RefValue.ix3 A Ap C) := by
  have hb := coord1_lt c
  have hlt := j.isLt
  rcases (show c.val / 2 % 2 = 0 ∨ c.val / 2 % 2 = 1 by omega) with hb0 | hb0
  · have hface : face (c.val / 2 % 2) = 15 := by unfold face; rw [if_pos hb0]
    by_cases h15 : j.val = 15
    · rw [up1_zero _ i j k (by omega),
        dn1_val m ρ U hU c i j k (by omega) A Am C hA hAm hC,
        E1_val m ρ U hU c i j k (by rw [hface]; exact h15) hi hk A Ap C hA (by rw [if_pos hb0]; omega) hC,
        zero_add]
    · rw [up1_val m ρ U hU c i j k (by omega) A Ap C hA hAp hC,
        dn1_val m ρ U hU c i j k (by omega) A Am C hA hAm hC,
        E1_zero m ρ c i j k (by rw [hface]; exact h15), add_zero]
      exact add_comm _ _
  · have hface : face (c.val / 2 % 2) = 0 := by unfold face; rw [if_neg (by omega)]
    by_cases h0 : j.val = 0
    · rw [up1_val m ρ U hU c i j k (by omega) A Ap C hA hAp hC,
        dn1_zero _ i j k (by omega),
        E1_val m ρ U hU c i j k (by rw [hface]; exact h0) hi hk A Am C hA (by rw [if_neg (by omega)]; omega) hC,
        add_zero]
      exact add_comm _ _
    · rw [up1_val m ρ U hU c i j k (by omega) A Ap C hA hAp hC,
        dn1_val m ρ U hU c i j k (by omega) A Am C hA hAm hC,
        E1_zero m ρ c i j k (by rw [hface]; exact h0), add_zero]
      exact add_comm _ _

/-! ### Axis 2 -/

include hU in
theorem up2_val (c : Dev nD) (i j k : Fin 16) (h : k.val + 1 < 16) (A B C : Fin 32)
    (hA : A.val = 16 * (c.val / 4) + i.val) (hB : B.val = 16 * (c.val / 2 % 2) + j.val) (hC : C.val = 16 * (c.val % 2) + k.val + 1) :
    up2 (xblk (F := Ideal) m ρ c) i j k = U (RefValue.ix3 A B C) := by
  unfold up2; rw [dif_pos h]
  exact xblk_at m ρ U hU c i j ⟨k.val + 1, h⟩ A B C hA hB (by show _ = 16 * (c.val % 2) + (k.val + 1); omega)

theorem up2_zero (x : S16x16x16.Idx → EReal) (i j k : Fin 16) (h : ¬ k.val + 1 < 16) : up2 x i j k = 0 := by
  unfold up2; exact dif_neg h

include hU in
theorem dn2_val (c : Dev nD) (i j k : Fin 16) (h : 0 < k.val) (A B C : Fin 32)
    (hA : A.val = 16 * (c.val / 4) + i.val) (hB : B.val = 16 * (c.val / 2 % 2) + j.val) (hC : C.val + 1 = 16 * (c.val % 2) + k.val) :
    dn2 (xblk (F := Ideal) m ρ c) i j k = U (RefValue.ix3 A B C) := by
  unfold dn2; rw [dif_pos h]
  exact xblk_at m ρ U hU c i j ⟨k.val - 1, by omega⟩ A B C hA hB (by show _ = 16 * (c.val % 2) + (k.val - 1); omega)

theorem dn2_zero (x : S16x16x16.Idx → EReal) (i j k : Fin 16) (h : ¬ 0 < k.val) : dn2 x i j k = 0 := by
  unfold dn2; exact dif_neg h

theorem E2_zero (c : Dev nD) (i j k : Fin 16) (h : k.val ≠ face (c.val % 2)) : E2 m ρ c i j k = 0 := by
  unfold E2; exact if_neg h

theorem E2_bdry (c : Dev nD) (i j k : Fin 16)
    (h : i.val = 15 * (c.val / 4) ∨ j.val = 15 * (c.val / 2 % 2) ∨ k.val = 15 * (c.val % 2)) : E2 m ρ c i j k = 0 := by
  have hb := coord2_lt c
  unfold E2 masked face
  split_ifs <;> first | rfl | (exfalso; omega)

include hU in
theorem E2_val (c : Dev nD) (i j k : Fin 16) (hf : k.val = face (c.val % 2)) (hi : i.val ≠ 15 * (c.val / 4)) (hj : j.val ≠ 15 * (c.val / 2 % 2)) (A B C : Fin 32)
    (hA : A.val = 16 * (c.val / 4) + i.val) (hB : B.val = 16 * (c.val / 2 % 2) + j.val) (hC : C.val = if c.val % 2 = 0 then 16 else 15) :
    E2 m ρ c i j k = U (RefValue.ix3 A B C) := by
  obtain ⟨n0, n1, n2⟩ := nb2_coords c
  have hb := coord2_lt c
  unfold E2 masked
  rw [if_pos hf, if_neg (by omega), ldR2_apply, recvAll2]
  refine xblk_at m ρ U hU (nb 2 c) i j (facePos 2 (nb 2 c)) A B C ?_ ?_ ?_
  · rw [n0]; exact hA
  · rw [n1]; exact hB
  · rw [facePos_val, coord2, n2, hC]; split_ifs <;> omega

include hU in
/-- Along axis 2: the two local neighbours, zero outside the block, with what the neighbour sent, are the two global
    neighbours. -/
theorem axis2 (c : Dev nD) (i j k : Fin 16) (hi : i.val ≠ 15 * (c.val / 4)) (hj : j.val ≠ 15 * (c.val / 2 % 2)) (hk : k.val ≠ 15 * (c.val % 2))
    (Am Ap A B C : Fin 32) (hAm : Am.val + 1 = 16 * (c.val % 2) + k.val) (hAp : Ap.val = 16 * (c.val % 2) + k.val + 1)
    (hA : A.val = 16 * (c.val / 4) + i.val) (hB : B.val = 16 * (c.val / 2 % 2) + j.val) (hC : C.val = 16 * (c.val % 2) + k.val) :
    up2 (xblk (F := Ideal) m ρ c) i j k + dn2 (xblk (F := Ideal) m ρ c) i j k + E2 m ρ c i j k
      = U (RefValue.ix3 A B Am) + U (RefValue.ix3 A B Ap) := by
  have hb := coord2_lt c
  have hlt := k.isLt
  rcases (show c.val % 2 = 0 ∨ c.val % 2 = 1 by omega) with hb0 | hb0
  · have hface : face (c.val % 2) = 15 := by unfold face; rw [if_pos hb0]
    by_cases h15 : k.val = 15
    · rw [up2_zero _ i j k (by omega),
        dn2_val m ρ U hU c i j k (by omega) A B Am hA hB hAm,
        E2_val m ρ U hU c i j k (by rw [hface]; exact h15) hi hj A B Ap hA hB (by rw [if_pos hb0]; omega),
        zero_add]
    · rw [up2_val m ρ U hU c i j k (by omega) A B Ap hA hB hAp,
        dn2_val m ρ U hU c i j k (by omega) A B Am hA hB hAm,
        E2_zero m ρ c i j k (by rw [hface]; exact h15), add_zero]
      exact add_comm _ _
  · have hface : face (c.val % 2) = 0 := by unfold face; rw [if_neg (by omega)]
    by_cases h0 : k.val = 0
    · rw [up2_val m ρ U hU c i j k (by omega) A B Ap hA hB hAp,
        dn2_zero _ i j k (by omega),
        E2_val m ρ U hU c i j k (by rw [hface]; exact h0) hi hj A B Am hA hB (by rw [if_neg (by omega)]; omega),
        add_zero]
      exact add_comm _ _
    · rw [up2_val m ρ U hU c i j k (by omega) A B Ap hA hB hAp,
        dn2_val m ρ U hU c i j k (by omega) A B Am hA hB hAm,
        E2_zero m ρ c i j k (by rw [hface]; exact h0), add_zero]
      exact add_comm _ _

/-! ## The result -/

/-- The arithmetic: three pairs regrouped, each pair then replaced by the two global neighbours. -/
theorem regroup (u0 d0 e0 u1 d1 e1 u2 d2 e2 a0 b0 a1 b1 a2 b2 s : EReal)
    (h0 : u0 + d0 + e0 = a0 + b0) (h1 : u1 + d1 + e1 = a1 + b1) (h2 : u2 + d2 + e2 = a2 + b2) :
    ((((((u0 + d0) + u1) + d1) + u2) + d2) - s) + e0 + e1 + e2 = a0 + b0 + a1 + b1 + a2 + b2 - s := by
  rw [sub_eq_add_neg, sub_eq_add_neg]
  have e : ((((((u0 + d0) + u1) + d1) + u2) + d2) + -s) + e0 + e1 + e2
      = (u0 + d0 + e0) + (u1 + d1 + e1) + (u2 + d2 + e2) + -s := by ac_rfl
  rw [e, h0, h1, h2]
  ac_rfl

include hU in
/-- The kernel's result on device `c` is its block of the stencil of the whole array. -/
theorem kernel_value (c : Dev nD) :
    outAt (F := Ideal) m ρ c
      = Layout.blockN ⟨3, ![16, 16, 16]⟩ ⟨3, ![32, 32, 32]⟩ (Layout.meshBlock [2, 2, 2] ![[0], [1], [2]] c) (Cert.RefValue.stencil U) := by
  funext idx
  obtain ⟨i, j, k, rfl⟩ : ∃ i j k : Fin 16, idx = ix3 i j k := ⟨idx 0, idx 1, idx 2, eq_ix3 idx⟩
  refine Eq.trans ?_ (RefValue.blockN_apply c (Cert.RefValue.stencil U) (ix3 i j k)).symm
  show o3 m ρ c (ix3 i j k) = Cert.RefValue.stencil U (RefValue.ix3 (g0 c i) (g1 c j) (g2 c k))
  have hb0 := coord0_lt c
  have hb1 := coord1_lt c
  have hb2 := coord2_lt c
  have hi := i.isLt
  have hj := j.isLt
  have hk := k.isLt
  rw [outAt_apply, out0_apply]
  by_cases hB : i.val = 15 * (c.val / 4) ∨ j.val = 15 * (c.val / 2 % 2) ∨ k.val = 15 * (c.val % 2)
  · rw [if_pos hB, E0_bdry m ρ c i j k hB, E1_bdry m ρ c i j k hB, E2_bdry m ρ c i j k hB, add_zero, add_zero, add_zero]
    refine (RefValue.stencil_boundary U _ ?_).symm
    show ¬(0 < 16 * (c.val / 4) + i.val ∧ 16 * (c.val / 4) + i.val < 31 ∧ 0 < 16 * (c.val / 2 % 2) + j.val
      ∧ 16 * (c.val / 2 % 2) + j.val < 31 ∧ 0 < 16 * (c.val % 2) + k.val ∧ 16 * (c.val % 2) + k.val < 31)
    omega
  · rw [if_neg hB]
    have hi' : i.val ≠ 15 * (c.val / 4) := fun h => hB (Or.inl h)
    have hj' : j.val ≠ 15 * (c.val / 2 % 2) := fun h => hB (Or.inr (Or.inl h))
    have hk' : k.val ≠ 15 * (c.val % 2) := fun h => hB (Or.inr (Or.inr h))
    rw [RefValue.stencil_interior U (g0 c i) (g1 c j) (g2 c k) (by show 0 < 16 * (c.val / 4) + i.val; omega)
      (by show 16 * (c.val / 4) + i.val < 31; omega) (by show 0 < 16 * (c.val / 2 % 2) + j.val; omega)
      (by show 16 * (c.val / 2 % 2) + j.val < 31; omega) (by show 0 < 16 * (c.val % 2) + k.val; omega)
      (by show 16 * (c.val % 2) + k.val < 31; omega)]
    unfold locStencil
    rw [xblk_apply m ρ U hU c i j k]
    refine regroup _ _ _ _ _ _ _ _ _ _ _ _ _ _ _ _
      (axis0 m ρ U hU c i j k hi' hj' hk' _ _ (g0 c i) (g1 c j) (g2 c k) ?_ ?_ rfl rfl rfl)
      (axis1 m ρ U hU c i j k hi' hj' hk' _ _ (g0 c i) (g1 c j) (g2 c k) ?_ ?_ rfl rfl rfl)
      (axis2 m ρ U hU c i j k hi' hj' hk' _ _ (g0 c i) (g1 c j) (g2 c k) ?_ ?_ rfl rfl rfl)
    all_goals first | rfl | (simp only []; omega)

end Cert.KernelIdealProof

end
-- ==== Proof.lean ====
/-
The certificate's claim, assembled. The kernel is a seven-point stencil on a 32×32×32 array cut into 2×2×2 blocks, one per
device, the devices exchanging their blocks' faces; the reference computes the stencil on the whole array on one device.

- The three frames: each program runs (terminates, nothing faulting) and leaves its argument unchanged. For the two kernel
  programs — one printed text read at the word-level and at the ideal float instance — this is the run of the launch
  theorem over the body obligation, with the result's value dropped; for the reference it is its run.
- The idealization rewrote no operation: nothing to preserve.
- The algebraic claim, at the ideal instance: the reference's result is the stencil of its argument; device `c`'s result is
  its 16×16×16 block of that stencil whenever every device's argument is its block of the reference's argument. The two
  meet in one law: on extended reals `+` is commutative and associative, so the block's local stencil with the received
  neighbour faces added on the three planes facing them is the whole array's stencil read at the block's indices; the planes
  on the array's boundary are written zero by both.
-/
import proofs.«900804_g7700000000000805_dist_halo3d_v7x_xyz2x2x2_s16_bf16_1_alg».proof.Defs
import proofs.«900804_g7700000000000805_dist_halo3d_v7x_xyz2x2x2_s16_bf16_1_alg».proof.Proof.Gen.Kernel
import proofs.«900804_g7700000000000805_dist_halo3d_v7x_xyz2x2x2_s16_bf16_1_alg».proof.Proof.Gen.KernelIdeal
import proofs.«900804_g7700000000000805_dist_halo3d_v7x_xyz2x2x2_s16_bf16_1_alg».proof.Proof.Gen.ReferenceIdeal
import proofs.«900804_g7700000000000805_dist_halo3d_v7x_xyz2x2x2_s16_bf16_1_alg».proof.Proof.Gen.Pre_finite_inputs_Kernel
import proofs.«900804_g7700000000000805_dist_halo3d_v7x_xyz2x2x2_s16_bf16_1_alg».proof.Proof.Gen.Pre_finite_inputs_ReferenceIdeal
import proofs.«900804_g7700000000000805_dist_halo3d_v7x_xyz2x2x2_s16_bf16_1_alg».proof.Proof.BodyAll
import proofs.«900804_g7700000000000805_dist_halo3d_v7x_xyz2x2x2_s16_bf16_1_alg».proof.Proof.KBodyAll
import proofs.«900804_g7700000000000805_dist_halo3d_v7x_xyz2x2x2_s16_bf16_1_alg».proof.Proof.Launch
import proofs.«900804_g7700000000000805_dist_halo3d_v7x_xyz2x2x2_s16_bf16_1_alg».proof.Proof.KLaunch
import proofs.«900804_g7700000000000805_dist_halo3d_v7x_xyz2x2x2_s16_bf16_1_alg».proof.Proof.KernelValue
import proofs.«900804_g7700000000000805_dist_halo3d_v7x_xyz2x2x2_s16_bf16_1_alg».proof.Proof.RefValue

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    -- the word-level program runs and keeps its argument
    fun m g _ => (θ_run _ _ _).mono (fun _ h c => (h c).2)
      (Cert.KernelProof.run_out (F := Bits) m g (Cert.KernelProof.body_obligation (F := Bits) m g)),
    -- so does the idealized program
    fun m g _ => (θ_run _ _ _).mono (fun _ h c => (h c).2)
      (Cert.KernelIdealProof.run_out (F := Ideal) m g (Cert.KernelIdealProof.body_obligation (F := Ideal) m g)),
    -- and the reference, on its one device
    fun m' g' _ => (θ_run _ _ _).mono (fun _ h c => by
      have hc : c = 0 := Subsingleton.elim _ _
      subst hc; exact h.2) (Cert.RefValue.ref_run m' g'),
    trivial,
    -- each device's result is its block of the reference's result, the stencil of the reference's argument
    fun m g m' g' _ hagree =>
      ⟨Cert.RefValue.stencil (m' (((0 : Dev Cert.ReferenceIdeal.nD).tc : Thread Cert.ReferenceIdeal.nD Cert.ReferenceIdeal.τ).loc Cert.ReferenceIdeal.main_arg0)),
        (θ_run _ _ _).mono (fun _ h c => ⟨(h c).1.trans (Cert.KernelIdealProof.kernel_value m g _ hagree c), (h c).2⟩)
          (Cert.KernelIdealProof.run_out (F := Ideal) m g (Cert.KernelIdealProof.body_obligation (F := Ideal) m g)),
        Cert.RefValue.ref_run m' g'⟩⟩

end Cert.Proof

end
